-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v29)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v29) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v35) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S10000x128 : Shape := ⟨2, ![10000, 128]⟩
abbrev S128x128 : Shape := ⟨2, ![128, 128]⟩
abbrev S128x64 : Shape := ⟨2, ![128, 64]⟩
abbrev S640000 : Shape := ⟨1, ![640000]⟩
abbrev S_ : Shape := ⟨0, ![]⟩

class Facts : Prop where
  bcast_S_S10000x128 : S_.BroadcastsInDim S10000x128 (![] : Fin 0 → Fin S10000x128.rank)
  reducesTo_S10000x128_S_d0_1 : S10000x128.ReducesTo [0, 1] S_
  h_S_ : 0 < S_.numel
  bcast_S_S128x128 : S_.BroadcastsInDim S128x128 (![] : Fin 0 → Fin S128x128.rank)
  reducesTo_S128x128_S_d0_1 : S128x128.ReducesTo [0, 1] S_
  bcast_S_S128x64 : S_.BroadcastsInDim S128x64 (![] : Fin 0 → Fin S128x64.rank)
  reducesTo_S128x64_S_d0_1 : S128x64.ReducesTo [0, 1] S_
  bcast_S_S640000 : S_.BroadcastsInDim S640000 (![] : Fin 0 → Fin S640000.rank)
  reducesTo_S640000_S_d0 : S640000.ReducesTo [0] S_

variable [Facts]

def fn_part1 {F : FTy → Type} [FloatOps F] (main_arg4 : IVec S640000 32) (main_arg5 : IVec S640000 32) (main_v13 : IVec S_ 1) (main_v16 : IVec S128x64 1) : IVec S_ 1 :=
  let main_c_5 : IVec S_ 1 := constantI S_ 1 1#1
  let main_v17 : IVec S_ 1 := (fun x v => Host.reduce IntOp.andi x v reducesTo_S128x64_S_d0_1 h_S_) main_v16 main_c_5
  let main_v18 : IVec S_ 1 := andi main_v13 main_v17
  let main_c_6 : IVec S_ 32 := constantI S_ 32 0#32
  let main_v19 : IVec S640000 32 := broadcastInDim S640000 ![] bcast_S_S640000 main_c_6
  let main_v20 : IVec S640000 1 := cmpi .sge main_arg4 main_v19
  let main_c_7 : IVec S_ 1 := constantI S_ 1 1#1
  let main_v21 : IVec S_ 1 := (fun x v => Host.reduce IntOp.andi x v reducesTo_S640000_S_d0 h_S_) main_v20 main_c_7
  let main_v22 : IVec S_ 1 := andi main_v18 main_v21
  let main_c_8 : IVec S_ 32 := constantI S_ 32 10000#32
  let main_v23 : IVec S640000 32 := broadcastInDim S640000 ![] bcast_S_S640000 main_c_8
  let main_v24 : IVec S640000 1 := cmpi .slt main_arg4 main_v23
  let main_c_9 : IVec S_ 1 := constantI S_ 1 1#1
  let main_v25 : IVec S_ 1 := (fun x v => Host.reduce IntOp.andi x v reducesTo_S640000_S_d0 h_S_) main_v24 main_c_9
  let main_v26 : IVec S_ 1 := andi main_v22 main_v25
  let main_c_10 : IVec S_ 32 := constantI S_ 32 0#32
  let main_v27 : IVec S640000 32 := broadcastInDim S640000 ![] bcast_S_S640000 main_c_10
  let main_v28 : IVec S640000 1 := cmpi .sge main_arg5 main_v27
  let main_c_11 : IVec S_ 1 := constantI S_ 1 1#1
  let main_v29 : IVec S_ 1 := (fun x v => Host.reduce IntOp.andi x v reducesTo_S640000_S_d0 h_S_) main_v28 main_c_11
  let main_v30 : IVec S_ 1 := andi main_v26 main_v29
  main_v30

def fn {F : FTy → Type} [FloatOps F] (main_arg0 : FVec F S10000x128 .f32) (main_arg1 : FVec F S128x128 .f32) (main_arg2 : FVec F S128x128 .f32) (main_arg3 : FVec F S128x64 .f32) (main_arg4 : IVec S640000 32) (main_arg5 : IVec S640000 32) : IVec S_ 1 :=
  let main_v0 : FVec F S10000x128 .f32 := Host.absf main_arg0
  let main_cst : FVec F S_ .f32 := constant S_ .f32 0x7F800000#32
  let main_v1 : FVec F S10000x128 .f32 := broadcastInDim S10000x128 ![] bcast_S_S10000x128 main_cst
  let main_v2 : IVec S10000x128 1 := cmpf .olt main_v0 main_v1
  let main_c : IVec S_ 1 := constantI S_ 1 1#1
  let main_v3 : IVec S_ 1 := (fun x v => Host.reduce IntOp.andi x v reducesTo_S10000x128_S_d0_1 h_S_) main_v2 main_c
  let main_v4 : FVec F S128x128 .f32 := Host.absf main_arg1
  let main_cst_0 : FVec F S_ .f32 := constant S_ .f32 0x7F800000#32
  let main_v5 : FVec F S128x128 .f32 := broadcastInDim S128x128 ![] bcast_S_S128x128 main_cst_0
  let main_v6 : IVec S128x128 1 := cmpf .olt main_v4 main_v5
  let main_c_1 : IVec S_ 1 := constantI S_ 1 1#1
  let main_v7 : IVec S_ 1 := (fun x v => Host.reduce IntOp.andi x v reducesTo_S128x128_S_d0_1 h_S_) main_v6 main_c_1
  let main_v8 : IVec S_ 1 := andi main_v3 main_v7
  let main_v9 : FVec F S128x128 .f32 := Host.absf main_arg2
  let main_cst_2 : FVec F S_ .f32 := constant S_ .f32 0x7F800000#32
  let main_v10 : FVec F S128x128 .f32 := broadcastInDim S128x128 ![] bcast_S_S128x128 main_cst_2
  let main_v11 : IVec S128x128 1 := cmpf .olt main_v9 main_v10
  let main_c_3 : IVec S_ 1 := constantI S_ 1 1#1
  let main_v12 : IVec S_ 1 := (fun x v => Host.reduce IntOp.andi x v reducesTo_S128x128_S_d0_1 h_S_) main_v11 main_c_3
  let main_v13 : IVec S_ 1 := andi main_v8 main_v12
  let main_v14 : FVec F S128x64 .f32 := Host.absf main_arg3
  let main_cst_4 : FVec F S_ .f32 := constant S_ .f32 0x7F800000#32
  let main_v15 : FVec F S128x64 .f32 := broadcastInDim S128x64 ![] bcast_S_S128x64 main_cst_4
  let main_v16 : IVec S128x64 1 := cmpf .olt main_v14 main_v15
  fn_part1 (F := F) main_arg4 main_arg5 main_v13 main_v16
-- ==== Kernel.lean ====
abbrev S10000x128 : Shape := ⟨2, ![10000, 128]⟩
abbrev S128x128 : Shape := ⟨2, ![128, 128]⟩
abbrev S128x64 : Shape := ⟨2, ![128, 64]⟩
abbrev S640000 : Shape := ⟨1, ![640000]⟩
abbrev S_ : Shape := ⟨0, ![]⟩
abbrev S10240x10240 : Shape := ⟨2, ![10240, 10240]⟩
abbrev S640000x1 : Shape := ⟨2, ![640000, 1]⟩
abbrev S640000x2 : Shape := ⟨2, ![640000, 2]⟩
abbrev S10240x128 : Shape := ⟨2, ![10240, 128]⟩
abbrev S1 : Shape := ⟨1, ![1]⟩
abbrev S640x10240 : Shape := ⟨2, ![640, 10240]⟩
abbrev S640x128 : Shape := ⟨2, ![640, 128]⟩
abbrev S10240x64 : Shape := ⟨2, ![10240, 64]⟩
abbrev S640x64 : Shape := ⟨2, ![640, 64]⟩
abbrev S10000x64 : Shape := ⟨2, ![10000, 64]⟩

abbrev nBuf : Space → Nat
  | .hbm => 44
  | .vmem => 24
  | .smem => 0
  | _ => 0

abbrev bufTy : (tb : Table) → Fin (tcTables nBuf tb) → BufTy
  | .hbm, ⟨0, _⟩ => ⟨S10000x128, .f32⟩
  | .hbm, ⟨1, _⟩ => ⟨S128x128, .f32⟩
  | .hbm, ⟨2, _⟩ => ⟨S128x128, .f32⟩
  | .hbm, ⟨3, _⟩ => ⟨S128x64, .f32⟩
  | .hbm, ⟨4, _⟩ => ⟨S640000, .i32⟩
  | .hbm, ⟨5, _⟩ => ⟨S640000, .i32⟩
  | .hbm, ⟨6, _⟩ => ⟨S_, .f32⟩
  | .hbm, ⟨7, _⟩ => ⟨S10240x10240, .f32⟩
  | .hbm, ⟨8, _⟩ => ⟨S_, .i32⟩
  | .hbm, ⟨9, _⟩ => ⟨S640000, .i32⟩
  | .hbm, ⟨10, _⟩ => ⟨S640000, .i1⟩
  | .hbm, ⟨11, _⟩ => ⟨S_, .i32⟩
  | .hbm, ⟨12, _⟩ => ⟨S640000, .i32⟩
  | .hbm, ⟨13, _⟩ => ⟨S640000, .i32⟩
  | .hbm, ⟨14, _⟩ => ⟨S640000, .i32⟩
  | .hbm, ⟨15, _⟩ => ⟨S_, .i32⟩
  | .hbm, ⟨16, _⟩ => ⟨S640000, .i32⟩
  | .hbm, ⟨17, _⟩ => ⟨S640000, .i1⟩
  | .hbm, ⟨18, _⟩ => ⟨S_, .i32⟩
  | .hbm, ⟨19, _⟩ => ⟨S640000, .i32⟩
  | .hbm, ⟨20, _⟩ => ⟨S640000, .i32⟩
  | .hbm, ⟨21, _⟩ => ⟨S640000, .i32⟩
  | .hbm, ⟨22, _⟩ => ⟨S640000x1, .i32⟩
  | .hbm, ⟨23, _⟩ => ⟨S640000x1, .i32⟩
  | .hbm, ⟨24, _⟩ => ⟨S640000x2, .i32⟩
  | .hbm, ⟨25, _⟩ => ⟨S_, .f32⟩
  | .hbm, ⟨26, _⟩ => ⟨S640000, .f32⟩
  | .hbm, ⟨27, _⟩ => ⟨S10240x10240, .f32⟩
  | .hbm, ⟨28, _⟩ => ⟨S10240x10240, .bf16⟩
  | .hbm, ⟨29, _⟩ => ⟨S_, .f32⟩
  | .hbm, ⟨30, _⟩ => ⟨S10240x128, .f32⟩
  | .hbm, ⟨31, _⟩ => ⟨S_, .i32⟩
  | .hbm, ⟨32, _⟩ => ⟨S1, .i32⟩
  | .hbm, ⟨33, _⟩ => ⟨S10240x128, .f32⟩
  | .hbm, ⟨34, _⟩ => ⟨S10240x128, .bf16⟩
  | .hbm, ⟨35, _⟩ => ⟨S128x128, .bf16⟩
  | .hbm, ⟨36, _⟩ => ⟨S10240x128, .f32⟩
  | .hbm, ⟨37, _⟩ => ⟨S10240x128, .bf16⟩
  | .hbm, ⟨38, _⟩ => ⟨S128x128, .bf16⟩
  | .hbm, ⟨39, _⟩ => ⟨S10240x128, .f32⟩
  | .hbm, ⟨40, _⟩ => ⟨S10240x128, .bf16⟩
  | .hbm, ⟨41, _⟩ => ⟨S128x64, .bf16⟩
  | .hbm, ⟨42, _⟩ => ⟨S10240x64, .f32⟩
  | .hbm, ⟨43, _⟩ => ⟨S10000x64, .f32⟩
  | .local _ .vmem, ⟨0, _⟩ => ⟨S640x10240, .bf16⟩
  | .local _ .vmem, ⟨1, _⟩ => ⟨S640x10240, .bf16⟩
  | .local _ .vmem, ⟨2, _⟩ => ⟨S10240x128, .bf16⟩
  | .local _ .vmem, ⟨3, _⟩ => ⟨S640x128, .f32⟩
  | .local _ .vmem, ⟨4, _⟩ => ⟨S640x128, .f32⟩
  | .local _ .vmem, ⟨5, _⟩ => ⟨S128x128, .bf16⟩
  | .local _ .vmem, ⟨6, _⟩ => ⟨S640x128, .f32⟩
  | .local _ .vmem, ⟨7, _⟩ => ⟨S640x128, .f32⟩
  | .local _ .vmem, ⟨8, _⟩ => ⟨S640x10240, .bf16⟩
  | .local _ .vmem, ⟨9, _⟩ => ⟨S640x10240, .bf16⟩
  | .local _ .vmem, ⟨10, _⟩ => ⟨S10240x128, .bf16⟩
  | .local _ .vmem, ⟨11, _⟩ => ⟨S640x128, .f32⟩
  | .local _ .vmem, ⟨12, _⟩ => ⟨S640x128, .f32⟩
  | .local _ .vmem, ⟨13, _⟩ => ⟨S128x128, .bf16⟩
  | .local _ .vmem, ⟨14, _⟩ => ⟨S640x128, .f32⟩
  | .local _ .vmem, ⟨15, _⟩ => ⟨S640x128, .f32⟩
  | .local _ .vmem, ⟨16, _⟩ => ⟨S640x10240, .bf16⟩
  | .local _ .vmem, ⟨17, _⟩ => ⟨S640x10240, .bf16⟩
  | .local _ .vmem, ⟨18, _⟩ => ⟨S10240x128, .bf16⟩
  | .local _ .vmem, ⟨19, _⟩ => ⟨S640x128, .f32⟩
  | .local _ .vmem, ⟨20, _⟩ => ⟨S640x128, .f32⟩
  | .local _ .vmem, ⟨21, _⟩ => ⟨S128x64, .bf16⟩
  | .local _ .vmem, ⟨22, _⟩ => ⟨S640x64, .f32⟩
  | .local _ .vmem, ⟨23, _⟩ => ⟨S640x64, .f32⟩
  | _, _ => ⟨S10000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | _, _ => false

abbrev semScoped : Fin 0 → Bool
  | ⟨_, h⟩ => absurd h (Nat.not_lt_zero _)

abbrev dmaSemScoped : Fin 24 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | _ => false

abbrev sig : RefSig :=
  ofTc nBuf bufTy 0 24 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_cst : Ref sig .tc := ⟨.hbm, 6, rfl⟩
abbrev main_v0 : Ref sig .tc := ⟨.hbm, 7, rfl⟩
abbrev main_c : Ref sig .tc := ⟨.hbm, 8, rfl⟩
abbrev main_v1 : Ref sig .tc := ⟨.hbm, 9, rfl⟩
abbrev main_v2 : Ref sig .tc := ⟨.hbm, 10, rfl⟩
abbrev main_c_0 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_c_1 : Ref sig .tc := ⟨.hbm, 15, rfl⟩
abbrev main_v6 : Ref sig .tc := ⟨.hbm, 16, rfl⟩
abbrev main_v7 : Ref sig .tc := ⟨.hbm, 17, rfl⟩
abbrev main_c_2 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_cst_3 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_cst_4 : Ref sig .tc := ⟨.hbm, 29, rfl⟩
abbrev main_v17 : Ref sig .tc := ⟨.hbm, 30, rfl⟩
abbrev main_c_5 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_v29 : Ref sig .tc := ⟨.hbm, 43, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc1_stg0_0 : Ref sig .tc := ⟨.vmem, 8, rfl⟩
abbrev cc1_stg0_1 : Ref sig .tc := ⟨.vmem, 9, rfl⟩
abbrev cc1_stg1_0 : Ref sig .tc := ⟨.vmem, 10, rfl⟩
abbrev cc1_stg2_0 : Ref sig .tc := ⟨.vmem, 11, rfl⟩
abbrev cc1_stg2_1 : Ref sig .tc := ⟨.vmem, 12, rfl⟩
abbrev cc1_stg3_0 : Ref sig .tc := ⟨.vmem, 13, rfl⟩
abbrev cc1_stg4_0 : Ref sig .tc := ⟨.vmem, 14, rfl⟩
abbrev cc1_stg4_1 : Ref sig .tc := ⟨.vmem, 15, rfl⟩
abbrev cc2_stg0_0 : Ref sig .tc := ⟨.vmem, 16, rfl⟩
abbrev cc2_stg0_1 : Ref sig .tc := ⟨.vmem, 17, rfl⟩
abbrev cc2_stg1_0 : Ref sig .tc := ⟨.vmem, 18, rfl⟩
abbrev cc2_stg2_0 : Ref sig .tc := ⟨.vmem, 19, rfl⟩
abbrev cc2_stg2_1 : Ref sig .tc := ⟨.vmem, 20, rfl⟩
abbrev cc2_stg3_0 : Ref sig .tc := ⟨.vmem, 21, rfl⟩
abbrev cc2_stg4_0 : Ref sig .tc := ⟨.vmem, 22, rfl⟩
abbrev cc2_stg4_1 : Ref sig .tc := ⟨.vmem, 23, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem4_0 : DmaSem sig := 6
abbrev cc0_sem4_1 : DmaSem sig := 7
abbrev cc1_sem0_0 : DmaSem sig := 8
abbrev cc1_sem0_1 : DmaSem sig := 9
abbrev cc1_sem1_0 : DmaSem sig := 10
abbrev cc1_sem2_0 : DmaSem sig := 11
abbrev cc1_sem2_1 : DmaSem sig := 12
abbrev cc1_sem3_0 : DmaSem sig := 13
abbrev cc1_sem4_0 : DmaSem sig := 14
abbrev cc1_sem4_1 : DmaSem sig := 15
abbrev cc2_sem0_0 : DmaSem sig := 16
abbrev cc2_sem0_1 : DmaSem sig := 17
abbrev cc2_sem1_0 : DmaSem sig := 18
abbrev cc2_sem2_0 : DmaSem sig := 19
abbrev cc2_sem2_1 : DmaSem sig := 20
abbrev cc2_sem3_0 : DmaSem sig := 21
abbrev cc2_sem4_0 : DmaSem sig := 22
abbrev cc2_sem4_1 : DmaSem sig := 23

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S640x10240 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S10240x128 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S640x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S128x128 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S640x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev grid1 : Pipeline.Grid := ⟨1, ![16], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S640x10240 .bf16 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S10240x128 .bf16 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 2 → Memref sig .tc .vmem S640x128 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 1 → Memref sig .tc .vmem S128x128 .bf16 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 2 → Memref sig .tc .vmem S640x128 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true]

abbrev grid2 : Pipeline.Grid := ⟨1, ![16], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_3 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S640x10240 .bf16 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S10240x128 .bf16 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 2 → Memref sig .tc .vmem S640x128 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev stage2_3 : Fin 1 → Memref sig .tc .vmem S128x64 .bf16 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 2 → Memref sig .tc .vmem S640x64 .f32 := fun | 0 => Memref.whole cc2_stg4_0 | 1 => Memref.whole cc2_stg4_1 | ⟨_ + 2, h⟩ => absurd h (Nat.not_lt.2 (Nat.le_add_left _ _))
abbrev sem2_4 : Fin 2 → DmaSem sig := fun | 0 => cc2_sem4_0 | 1 => cc2_sem4_1 | ⟨_ + 2, h⟩ => absurd h (Nat.not_lt.2 (Nat.le_add_left _ _))
abbrev reads2_4 : Fin grid2.rank → Bool := ![true]

class Facts₀ : Prop where
  bcast_S_S10240x10240 : S_.BroadcastsInDim S10240x10240 (![] : Fin 0 → Fin S10240x10240.rank)
  bcast_S_S640000 : S_.BroadcastsInDim S640000 (![] : Fin 0 → Fin S640000.rank)
  bcast_S640000_S640000x1_0 : S640000.BroadcastsInDim S640000x1 (![0] : Fin 1 → Fin S640000x1.rank)
  concatenates_S640000x1_S640000x1_S640000x2_d1 : Shape.Concatenates [S640000x1, S640000x1] S640000x2 1
  bitsLt_bf16_f32 : FTy.bits .bf16 < FTy.bits .f32
  bcast_S_S10240x128 : S_.BroadcastsInDim S10240x128 (![] : Fin 0 → Fin S10240x128.rank)
  bcast_S_S1 : S_.BroadcastsInDim S1 (![] : Fin 0 → Fin S1.rank)
  inb_S640x10240_S640x10240_0_0 : ∀ a, (![0, 0] : Fin 2 → Nat) a + S640x10240.size a ≤ S640x10240.size a
  h_S640x10240 : 0 < S640x10240.numel
  shapeCasts_S640x10240_S640x10240 : S640x10240.ShapeCasts S640x10240
  inb_S10240x128_S10240x128_0_0 : ∀ a, (![0, 0] : Fin 2 → Nat) a + S10240x128.size a ≤ S10240x128.size a
  h_S10240x128 : 0 < S10240x128.numel
  shapeCasts_S10240x128_S10240x128 : S10240x128.ShapeCasts S10240x128
  inb_S640x128_S640x128_0_0 : ∀ a, (![0, 0] : Fin 2 → Nat) a + S640x128.size a ≤ S640x128.size a
  h_S640x128 : 0 < S640x128.numel
  shapeCasts_S640x128_S640x128 : S640x128.ShapeCasts S640x128
  inb_S128x128_S128x128_0_0 : ∀ a, (![0, 0] : Fin 2 → Nat) a + S128x128.size a ≤ S128x128.size a
  h_S128x128 : 0 < S128x128.numel
  shapeCasts_S128x128_S128x128 : S128x128.ShapeCasts S128x128
  inb_S128x64_S128x64_0_0 : ∀ a, (![0, 0] : Fin 2 → Nat) a + S128x64.size a ≤ S128x64.size a
  h_S128x64 : 0 < S128x64.numel
  shapeCasts_S128x64_S128x64 : S128x64.ShapeCasts S128x64
  inb_S640x64_S640x64_0_0 : ∀ a, (![0, 0] : Fin 2 → Nat) a + S640x64.size a ≤ S640x64.size a
  h_S640x64 : 0 < S640x64.numel
  slices_S10240x64_S10000x64_0_0 : S10240x64.Slices ![0, 0] S10000x64
  scatter_S10240x10240_S640000x2_S640000_n_01_01_1_wf : ScatterDims.WF S10240x10240 S640000x2 S640000 [] [0, 1] [0, 1] 1
  scatter_S10240x128_S1_S10000x128_01_n_0_0_wf : ScatterDims.WF S10240x128 S1 S10000x128 [0, 1] [] [0] 0
  dot_S640x10240_S10240x128_S640x128_1_0_0_1_n_n_wf : DotDims.WF S640x10240 S10240x128 S640x128 [1] [0] [0] [1] [] []
  dot_S640x128_S128x128_S640x128_1_0_0_1_n_n_wf : DotDims.WF S640x128 S128x128 S640x128 [1] [0] [0] [1] [] []
  dot_S640x128_S128x64_S640x64_1_0_0_1_n_n_wf : DotDims.WF S640x128 S128x64 S640x64 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S640x10240.size a ≤ S10240x10240.size a
  hwx0_0 : ∀ i : grid0.Coords, EltTy.bits .bf16 = 32 ∨ (Rect.block (s := S10240x10240) S640x10240.size (cc0_transform_0 i) (hinb0_0 i)).WholeWords (EltTy.packing .bf16)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S10240x128.size a ≤ S10240x128.size a
  hwx0_1 : ∀ i : grid0.Coords, EltTy.bits .bf16 = 32 ∨ (Rect.block (s := S10240x128) S10240x128.size (cc0_transform_1 i) (hinb0_1 i)).WholeWords (EltTy.packing .bf16)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S640x128.size a ≤ S10240x128.size a
  hwx0_2 : ∀ i : grid0.Coords, EltTy.bits .f32 = 32 ∨ (Rect.block (s := S10240x128) S640x128.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S128x128.size a ≤ S128x128.size a
  hwx0_3 : ∀ i : grid0.Coords, EltTy.bits .bf16 = 32 ∨ (Rect.block (s := S128x128) S128x128.size (cc0_transform_3 i) (hinb0_3 i)).WholeWords (EltTy.packing .bf16)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S640x128.size a ≤ S10240x128.size a
  hwx0_4 : ∀ i : grid0.Coords, EltTy.bits .f32 = 32 ∨ (Rect.block (s := S10240x128) S640x128.size (cc0_transform_4 i) (hinb0_4 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S640x10240.size a ≤ S10240x10240.size a
  hwx1_0 : ∀ i : grid1.Coords, EltTy.bits .bf16 = 32 ∨ (Rect.block (s := S10240x10240) S640x10240.size (cc1_transform_0 i) (hinb1_0 i)).WholeWords (EltTy.packing .bf16)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S10240x128.size a ≤ S10240x128.size a
  hwx1_1 : ∀ i : grid1.Coords, EltTy.bits .bf16 = 32 ∨ (Rect.block (s := S10240x128) S10240x128.size (cc1_transform_1 i) (hinb1_1 i)).WholeWords (EltTy.packing .bf16)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S640x128.size a ≤ S10240x128.size a
  hwx1_2 : ∀ i : grid1.Coords, EltTy.bits .f32 = 32 ∨ (Rect.block (s := S10240x128) S640x128.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S128x128.size a ≤ S128x128.size a
  hwx1_3 : ∀ i : grid1.Coords, EltTy.bits .bf16 = 32 ∨ (Rect.block (s := S128x128) S128x128.size (cc1_transform_3 i) (hinb1_3 i)).WholeWords (EltTy.packing .bf16)
  hstage1_4 : ∀ j, (stage1_4 j).IsWhole
  nbuf1_4 : grid1.bufCount reads1_4 false = 2
  hreads1_4 : ∀ i i' : grid1.Coords, (∀ a, reads1_4 a = true → i a = i' a) → cc1_transform_4 i = cc1_transform_4 i'
  hinb1_4 : ∀ (i : grid1.Coords) a, (cc1_transform_4 i a + 1) * S640x128.size a ≤ S10240x128.size a
  hwx1_4 : ∀ i : grid1.Coords, EltTy.bits .f32 = 32 ∨ (Rect.block (s := S10240x128) S640x128.size (cc1_transform_4 i) (hinb1_4 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S640x10240.size a ≤ S10240x10240.size a
  hwx2_0 : ∀ i : grid2.Coords, EltTy.bits .bf16 = 32 ∨ (Rect.block (s := S10240x10240) S640x10240.size (cc2_transform_0 i) (hinb2_0 i)).WholeWords (EltTy.packing .bf16)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S10240x128.size a ≤ S10240x128.size a
  hwx2_1 : ∀ i : grid2.Coords, EltTy.bits .bf16 = 32 ∨ (Rect.block (s := S10240x128) S10240x128.size (cc2_transform_1 i) (hinb2_1 i)).WholeWords (EltTy.packing .bf16)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S640x128.size a ≤ S10240x128.size a
  hwx2_2 : ∀ i : grid2.Coords, EltTy.bits .f32 = 32 ∨ (Rect.block (s := S10240x128) S640x128.size (cc2_transform_2 i) (hinb2_2 i)).WholeWords (EltTy.packing .f32)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S128x64.size a ≤ S128x64.size a
  hwx2_3 : ∀ i : grid2.Coords, EltTy.bits .bf16 = 32 ∨ (Rect.block (s := S128x64) S128x64.size (cc2_transform_3 i) (hinb2_3 i)).WholeWords (EltTy.packing .bf16)
  hstage2_4 : ∀ j, (stage2_4 j).IsWhole
  nbuf2_4 : grid2.bufCount reads2_4 false = 2
  hreads2_4 : ∀ i i' : grid2.Coords, (∀ a, reads2_4 a = true → i a = i' a) → cc2_transform_4 i = cc2_transform_4 i'
  hinb2_4 : ∀ (i : grid2.Coords) a, (cc2_transform_4 i a + 1) * S640x64.size a ≤ S10240x64.size a
  hwx2_4 : ∀ i : grid2.Coords, EltTy.bits .f32 = 32 ∨ (Rect.block (s := S10240x64) S640x64.size (cc2_transform_4 i) (hinb2_4 i)).WholeWords (EltTy.packing .f32)

variable [Facts₀]

def scatter_S10240x10240_S640000x2_S640000_n_01_01_1 : ScatterDims S10240x10240 S640000x2 S640000 where
  updateWindowDims := []
  insertedWindowDims := [0, 1]
  scatterDimsToOperandDims := [0, 1]
  indexVectorDim := 1
  wf := scatter_S10240x10240_S640000x2_S640000_n_01_01_1_wf
def scatter_S10240x128_S1_S10000x128_01_n_0_0 : ScatterDims S10240x128 S1 S10000x128 where
  updateWindowDims := [0, 1]
  insertedWindowDims := []
  scatterDimsToOperandDims := [0]
  indexVectorDim := 0
  wf := scatter_S10240x128_S1_S10000x128_01_n_0_0_wf
def dot_S640x10240_S10240x128_S640x128_1_0_0_1_n_n : DotDims S640x10240 S10240x128 S640x128 where
  lhsContracting := [1]
  rhsContracting := [0]
  lhsNonContracting := [0]
  rhsNonContracting := [1]
  lhsBatch := []
  rhsBatch := []
  wf := dot_S640x10240_S10240x128_S640x128_1_0_0_1_n_n_wf
def dot_S640x128_S128x128_S640x128_1_0_0_1_n_n : DotDims S640x128 S128x128 S640x128 where
  lhsContracting := [1]
  rhsContracting := [0]
  lhsNonContracting := [0]
  rhsNonContracting := [1]
  lhsBatch := []
  rhsBatch := []
  wf := dot_S640x128_S128x128_S640x128_1_0_0_1_n_n_wf
def dot_S640x128_S128x64_S640x64_1_0_0_1_n_n : DotDims S640x128 S128x64 S640x64 where
  lhsContracting := [1]
  rhsContracting := [0]
  lhsNonContracting := [0]
  rhsNonContracting := [1]
  lhsBatch := []
  rhsBatch := []
  wf := dot_S640x128_S128x64_S640x64_1_0_0_1_n_n_wf

abbrev win0_0 : Pipeline.Window sig grid0 :=
  Pipeline.Window.ofSpec (Memref.whole main_v16) S640x10240.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v20) S10240x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v19) S640x128.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v21) S128x128.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v22) S640x128.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

abbrev win1_0 : Pipeline.Window sig grid1 :=
  Pipeline.Window.ofSpec (Memref.whole main_v16) S640x10240.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v23) S10240x128.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v22) S640x128.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_v24) S128x128.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v25) S640x128.size cc1_transform_4 reads1_4 true false 2 stage1_4 sem1_4
    hrank1 hreads1_4 hinb1_4 nbuf1_4 (Memref.isWhole_whole _) hwx1_4 hstage1_4

abbrev win1 : Fin 5 → Pipeline.Window sig grid1 := fun | 0 => win1_0 | 1 => win1_1 | 2 => win1_2 | 3 => win1_3 | 4 => win1_4 | ⟨_ + 5, h⟩ => absurd h (Nat.not_lt.2 (Nat.le_add_left _ _))
abbrev spec1 : Fin 5 → Pipeline.WinSpec sig grid1.rank := fun w => (win1 w).toWinSpec

abbrev win2_0 : Pipeline.Window sig grid2 :=
  Pipeline.Window.ofSpec (Memref.whole main_v16) S640x10240.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v26) S10240x128.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v25) S640x128.size cc2_transform_2 reads2_2 false false 2 stage2_2 sem2_2
    hrank2 hreads2_2 hinb2_2 nbuf2_2 (Memref.isWhole_whole _) hwx2_2 hstage2_2

abbrev win2_3 : Pipeline.Window sig grid2 :=
  Pipeline.Window.ofSpec (Memref.whole main_v27) S128x64.size cc2_transform_3 reads2_3 false true 1 stage2_3 sem2_3
    hrank2 hreads2_3 hinb2_3 nbuf2_3 (Memref.isWhole_whole _) hwx2_3 hstage2_3

abbrev win2_4 : Pipeline.Window sig grid2 :=
  Pipeline.Window.ofSpec (Memref.whole main_v28) S640x64.size cc2_transform_4 reads2_4 true false 2 stage2_4 sem2_4
    hrank2 hreads2_4 hinb2_4 nbuf2_4 (Memref.isWhole_whole _) hwx2_4 hstage2_4

abbrev win2 : Fin 5 → Pipeline.Window sig grid2 := fun | 0 => win2_0 | 1 => win2_1 | 2 => win2_2 | 3 => win2_3 | 4 => win2_4 | ⟨_ + 5, h⟩ => absurd h (Nat.not_lt.2 (Nat.le_add_left _ _))
abbrev spec2 : Fin 5 → Pipeline.WinSpec sig grid2.rank := fun w => (win2 w).toWinSpec

class Facts : Prop extends Facts₀ where

variable [Facts]
-- ==== ReferenceIdeal.lean ====
abbrev S10000x128 : Shape := ⟨2, ![10000, 128]⟩
abbrev S128x128 : Shape := ⟨2, ![128, 128]⟩
abbrev S128x64 : Shape := ⟨2, ![128, 64]⟩
abbrev S640000 : Shape := ⟨1, ![640000]⟩
abbrev S_ : Shape := ⟨0, ![]⟩
abbrev S640000x1 : Shape := ⟨2, ![640000, 1]⟩
abbrev S640000x128 : Shape := ⟨2, ![640000, 128]⟩
abbrev S10000x64 : Shape := ⟨2, ![10000, 64]⟩

abbrev nBuf : Space → Nat
  | .hbm => 51
  | .vmem => 0
  | .smem => 0
  | _ => 0

abbrev bufTy : (tb : Table) → Fin (tcTables nBuf tb) → BufTy
  | .hbm, ⟨0, _⟩ => ⟨S10000x128, .f32⟩
  | .hbm, ⟨1, _⟩ => ⟨S128x128, .f32⟩
  | .hbm, ⟨2, _⟩ => ⟨S128x128, .f32⟩
  | .hbm, ⟨3, _⟩ => ⟨S128x64, .f32⟩
  | .hbm, ⟨4, _⟩ => ⟨S640000, .i32⟩
  | .hbm, ⟨5, _⟩ => ⟨S640000, .i32⟩
  | .hbm, ⟨6, _⟩ => ⟨S_, .i32⟩
  | .hbm, ⟨7, _⟩ => ⟨S640000, .i32⟩
  | .hbm, ⟨8, _⟩ => ⟨S640000, .i1⟩
  | .hbm, ⟨9, _⟩ => ⟨S_, .i32⟩
  | .hbm, ⟨10, _⟩ => ⟨S640000, .i32⟩
  | .hbm, ⟨11, _⟩ => ⟨S640000, .i32⟩
  | .hbm, ⟨12, _⟩ => ⟨S640000, .i32⟩
  | .hbm, ⟨13, _⟩ => ⟨S640000x1, .i32⟩
  | .hbm, ⟨14, _⟩ => ⟨S640000x128, .f32⟩
  | .hbm, ⟨15, _⟩ => ⟨S_, .f32⟩
  | .hbm, ⟨16, _⟩ => ⟨S10000x128, .f32⟩
  | .hbm, ⟨17, _⟩ => ⟨S640000x1, .i32⟩
  | .hbm, ⟨18, _⟩ => ⟨S10000x128, .f32⟩
  | .hbm, ⟨19, _⟩ => ⟨S10000x128, .f32⟩
  | .hbm, ⟨20, _⟩ => ⟨S10000x128, .f32⟩
  | .hbm, ⟨21, _⟩ => ⟨S_, .i32⟩
  | .hbm, ⟨22, _⟩ => ⟨S640000, .i32⟩
  | .hbm, ⟨23, _⟩ => ⟨S640000, .i1⟩
  | .hbm, ⟨24, _⟩ => ⟨S_, .i32⟩
  | .hbm, ⟨25, _⟩ => ⟨S640000, .i32⟩
  | .hbm, ⟨26, _⟩ => ⟨S640000, .i32⟩
  | .hbm, ⟨27, _⟩ => ⟨S640000, .i32⟩
  | .hbm, ⟨28, _⟩ => ⟨S640000x1, .i32⟩
  | .hbm, ⟨29, _⟩ => ⟨S640000x128, .f32⟩
  | .hbm, ⟨30, _⟩ => ⟨S_, .f32⟩
  | .hbm, ⟨31, _⟩ => ⟨S10000x128, .f32⟩
  | .hbm, ⟨32, _⟩ => ⟨S640000x1, .i32⟩
  | .hbm, ⟨33, _⟩ => ⟨S10000x128, .f32⟩
  | .hbm, ⟨34, _⟩ => ⟨S10000x128, .f32⟩
  | .hbm, ⟨35, _⟩ => ⟨S10000x128, .f32⟩
  | .hbm, ⟨36, _⟩ => ⟨S_, .i32⟩
  | .hbm, ⟨37, _⟩ => ⟨S640000, .i32⟩
  | .hbm, ⟨38, _⟩ => ⟨S640000, .i1⟩
  | .hbm, ⟨39, _⟩ => ⟨S_, .i32⟩
  | .hbm, ⟨40, _⟩ => ⟨S640000, .i32⟩
  | .hbm, ⟨41, _⟩ => ⟨S640000, .i32⟩
  | .hbm, ⟨42, _⟩ => ⟨S640000, .i32⟩
  | .hbm, ⟨43, _⟩ => ⟨S640000x1, .i32⟩
  | .hbm, ⟨44, _⟩ => ⟨S640000x128, .f32⟩
  | .hbm, ⟨45, _⟩ => ⟨S_, .f32⟩
  | .hbm, ⟨46, _⟩ => ⟨S10000x128, .f32⟩
  | .hbm, ⟨47, _⟩ => ⟨S640000x1, .i32⟩
  | .hbm, ⟨48, _⟩ => ⟨S10000x128, .f32⟩
  | .hbm, ⟨49, _⟩ => ⟨S10000x128, .f32⟩
  | .hbm, ⟨50, _⟩ => ⟨S10000x64, .f32⟩
  | _, _ => ⟨S10000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_c : Ref sig .tc := ⟨.hbm, 6, rfl⟩
abbrev main_v0 : Ref sig .tc := ⟨.hbm, 7, rfl⟩
abbrev main_v1 : Ref sig .tc := ⟨.hbm, 8, rfl⟩
abbrev main_c_0 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_cst : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_c_1 : Ref sig .tc := ⟨.hbm, 21, rfl⟩
abbrev main_v12 : Ref sig .tc := ⟨.hbm, 22, rfl⟩
abbrev main_v13 : Ref sig .tc := ⟨.hbm, 23, rfl⟩
abbrev main_c_2 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_3 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_c_4 : Ref sig .tc := ⟨.hbm, 36, rfl⟩
abbrev main_v24 : Ref sig .tc := ⟨.hbm, 37, rfl⟩
abbrev main_v25 : Ref sig .tc := ⟨.hbm, 38, rfl⟩
abbrev main_c_5 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_v29 : Ref sig .tc := ⟨.hbm, 43, rfl⟩
abbrev main_v30 : Ref sig .tc := ⟨.hbm, 44, rfl⟩
abbrev main_cst_6 : Ref sig .tc := ⟨.hbm, 45, rfl⟩
abbrev main_v31 : Ref sig .tc := ⟨.hbm, 46, rfl⟩
abbrev main_v32 : Ref sig .tc := ⟨.hbm, 47, rfl⟩
abbrev main_v33 : Ref sig .tc := ⟨.hbm, 48, rfl⟩
abbrev main_v34 : Ref sig .tc := ⟨.hbm, 49, rfl⟩
abbrev main_v35 : Ref sig .tc := ⟨.hbm, 50, rfl⟩

abbrev nD : Nat := 1
abbrev τ : Topo := Topo.v7x

variable {F : FTy → Type} [FloatOps F]

class Facts₀ : Prop where
  bcast_S_S640000 : S_.BroadcastsInDim S640000 (![] : Fin 0 → Fin S640000.rank)
  bcast_S640000_S640000x1_0 : S640000.BroadcastsInDim S640000x1 (![0] : Fin 1 → Fin S640000x1.rank)
  bcast_S_S10000x128 : S_.BroadcastsInDim S10000x128 (![] : Fin 0 → Fin S10000x128.rank)
  gather_S10000x128_S640000x1_S640000x128_1_0_n_n_0_1_1128_wf : GatherDims.WF S10000x128 S640000x1 S640000x128 [1] [0] [] [0] [] 1 ![1, 128]
  scatter_S10000x128_S640000x1_S640000x128_1_0_0_1_wf : ScatterDims.WF S10000x128 S640000x1 S640000x128 [1] [0] [0] 1
  dot_S10000x128_S128x128_S10000x128_1_0_0_1_n_n_wf : DotDims.WF S10000x128 S128x128 S10000x128 [1] [0] [0] [1] [] []
  dot_S10000x128_S128x64_S10000x64_1_0_0_1_n_n_wf : DotDims.WF S10000x128 S128x64 S10000x64 [1] [0] [0] [1] [] []

variable [Facts₀]

def gather_S10000x128_S640000x1_S640000x128_1_0_n_n_0_1_1128 : GatherDims S10000x128 S640000x1 S640000x128 where
  offsetDims := [1]
  collapsedSliceDims := [0]
  operandBatchingDims := []
  startIndicesBatchingDims := []
  startIndexMap := [0]
  indexVectorDim := 1
  sliceSizes := ![1, 128]
  wf := gather_S10000x128_S640000x1_S640000x128_1_0_n_n_0_1_1128_wf
def scatter_S10000x128_S640000x1_S640000x128_1_0_0_1 : ScatterDims S10000x128 S640000x1 S640000x128 where
  updateWindowDims := [1]
  insertedWindowDims := [0]
  scatterDimsToOperandDims := [0]
  indexVectorDim := 1
  wf := scatter_S10000x128_S640000x1_S640000x128_1_0_0_1_wf
def dot_S10000x128_S128x128_S10000x128_1_0_0_1_n_n : DotDims S10000x128 S128x128 S10000x128 where
  lhsContracting := [1]
  rhsContracting := [0]
  lhsNonContracting := [0]
  rhsNonContracting := [1]
  lhsBatch := []
  rhsBatch := []
  wf := dot_S10000x128_S128x128_S10000x128_1_0_0_1_n_n_wf
def dot_S10000x128_S128x64_S10000x64_1_0_0_1_n_n : DotDims S10000x128 S128x64 S10000x64 where
  lhsContracting := [1]
  rhsContracting := [0]
  lhsNonContracting := [0]
  rhsNonContracting := [1]
  lhsBatch := []
  rhsBatch := []
  wf := dot_S10000x128_S128x64_S10000x64_1_0_0_1_n_n_wf

class Facts : Prop extends Facts₀ where

variable [Facts]
-- ==== Proof.LibScatter.lean ====
/-
  A scatter read at an element.

  An update lands at the element whose coordinate on every axis is the update's start (the index word for that
  axis, read signed) plus its window coordinate, when that is inside the array, and is dropped otherwise. So it
  lands at a GIVEN element `i` exactly when start plus window equals `i`'s coordinate on every axis: being
  inside the array is then automatic (`resultIdx?_eq_some_iff`).

  A scatter that adds, on the extended reals, leaves at `i` what was there plus the sum of the updates that land
  at `i` (`scatterAdd_apply`). A scatter that overwrites, when exactly one update lands at `i`, leaves that update
  there (`scatter_set_apply_of_unique`): the fold over the updates changes element `i` only at that one step.
-/
import Idealize.ShloMosaic.PureOps.Ideal

noncomputable section

namespace Cert.LibScatter

open Idealize.ShloMosaic

variable {s si u : Shape}

/-- An update lands at the element `i` exactly when, on every axis, its start plus its window coordinate is
    `i`'s coordinate. Left to right: the landing element's coordinate IS that sum (a non-negative integer read
    back as a natural number). Right to left: the sum equals a coordinate of `i`, so it is non-negative and below
    the axis's size, which is the in-range test; and the two elements then agree axis by axis. -/
theorem resultIdx?_eq_some_iff (d : ScatterDims s si u) {w : Nat} (j : u.Idx) (idx : IVec si w) (i : s.Idx) :
    d.resultIdx? j idx = some i ↔ ∀ a, d.start j idx a + (d.window j a : ℤ) = ((i a).val : ℤ) := by
  unfold ScatterDims.resultIdx?
  split
  · rename_i h
    constructor
    · intro he a
      have hv := congrArg Fin.val (congrFun (Option.some.inj he) a)
      simp only at hv
      have h0 := (h a).1
      omega
    · intro he
      refine congrArg some (funext fun a => Fin.ext ?_)
      have ha := he a
      simp only
      omega
  · rename_i h
    constructor
    · intro he
      cases he
    · intro he
      refine absurd (fun a => ?_) h
      have ha := he a
      have hlt := (i a).isLt
      constructor <;> omega

/-- On the extended reals the adding scatter is, by definition, the operand's element plus the sum of the updates
    that land there. -/
theorem scatterAdd_apply {φ : FTy} {w : Nat} (d : ScatterDims s si u) (x : FVec Ideal s φ) (idx : IVec si w)
    (upd : FVec Ideal u φ) (i : s.Idx) :
    Host.scatterAdd d x idx upd i = x i + ∑ j ∈ Finset.univ.filter (fun j => d.resultIdx? j idx = some i), upd j :=
  rfl

/-- A left fold of steps on functions, read at one point `k`: if every step marked `P` sets the value at `k` to
    `v`, every other step leaves the value at `k` alone, and the list holds a marked step, then the fold's value at
    `k` is `v`. By induction on the list from the right: the last step either sets the value, or leaves it alone,
    and then the marked step is among the earlier ones. -/
theorem foldl_apply_eq_of_set_or_keep {ι κ β : Type} (g : (κ → β) → ι → (κ → β)) (k : κ) (v : β) (P : ι → Prop)
    (hset : ∀ r n, P n → g r n k = v) (hkeep : ∀ r n, ¬ P n → g r n k = r k)
    (L : List ι) (r : κ → β) (h : ∃ n ∈ L, P n) : L.foldl g r k = v := by
  induction L using List.reverseRecOn with
  | nil =>
    obtain ⟨n, hn, _⟩ := h
    cases hn
  | append_singleton L n ih =>
    rw [List.foldl_append, List.foldl_cons, List.foldl_nil]
    by_cases hP : P n
    · exact hset _ n hP
    · rw [hkeep _ n hP]
      apply ih
      obtain ⟨n0, hn0, hP0⟩ := h
      rcases List.mem_append.1 hn0 with hm | hm
      · exact ⟨n0, hm, hP0⟩
      · rw [List.mem_singleton] at hm
        subst hm
        exact absurd hP0 hP

/-- The overwriting scatter at an element `i` where exactly one update `j` lands: the result there is that
    update. In the fold over the updates in row-major order, a step whose update lands at `i` writes that update,
    which is `upd j` since only `j` lands at `i`; a step whose update lands elsewhere, or is dropped, leaves element
    `i` alone; and the step of `j` itself is in the list. -/
theorem scatter_set_apply_of_unique {α : Type} {w : Nat} (d : ScatterDims s si u) (x : s.Idx → α) (idx : IVec si w)
    (upd : u.Idx → α) (i : s.Idx) (j : u.Idx) (hj : d.resultIdx? j idx = some i)
    (huniq : ∀ j', d.resultIdx? j' idx = some i → j' = j) :
    Host.scatter d (fun _ b => b) x idx upd i = upd j := by
  unfold Host.scatter
  refine foldl_apply_eq_of_set_or_keep _ i (upd j)
    (fun n => d.resultIdx? (u.rowMajor.symm n) idx = some i) ?_ ?_ _ x ?_
  · intro r n hP
    rw [hP]
    show (if i = i then upd (u.rowMajor.symm n) else r i) = upd j
    rw [if_pos rfl, huniq _ hP]
  · intro r n hP
    cases hres : d.resultIdx? (u.rowMajor.symm n) idx with
    | none => rfl
    | some i₁ =>
      have hne : i ≠ i₁ := fun he => hP (by rw [hres, he])
      simp only [if_neg hne]
  · exact ⟨u.rowMajor j, List.mem_finRange _, by rw [Equiv.symm_apply_apply]; exact hj⟩

end Cert.LibScatter

end
-- ==== Proof.KernelDims.lean ====
/-
  The kernel's two host scatters, read at an element through their dimension numbers.

  The edge-count table is built by scattering a one per edge at the index pair (destination word, source word):
  edge e's update lands at element (v, u) exactly when the two words, read signed, are v and u.
  The padded feature array is built by writing the whole [10000, 128] feature array as ONE window at start row 0:
  update element (r, k) lands at element (r, k).
-/
import proofs.«409665_j60078002536566_1_alg».proof.KernelIdeal
import proofs.«409665_j60078002536566_1_alg».proof.Proof.LibScatter
import Idealize.ShloMosaic.Lib.ValueIdx

noncomputable section

namespace Cert.KernelIdeal.HostDims

open Cert.KernelIdeal Idealize.ShloMosaic Idealize.ShloMosaic.ValueIdx

variable [Cert.KernelIdeal.Facts]

/-! ## The edge-count table's scatter

No window axes, both operand axes inserted, the index vector on the indices' axis 1 and mapped to the operand's axes
`[0, 1]`: every update is one scalar, its start on operand axis `a` the word `idx[e, a]` read signed, its window
coordinate zero. -/

/-- The start on operand axis 0 of edge `e`'s update is the word `idx[e, 0]`, read signed: axis 0 is component 0 of
    the index vector, and the indices' other axis reads the update's one coordinate `e`. -/
theorem table_start0 (idx : IVec S640000x2 32) (e : Fin 640000) :
    scatter_S10240x10240_S640000x2_S640000_n_01_01_1.start (ix1 e) idx (0 : Fin 2) = (idx (ix2 e (0 : Fin 2))).toInt := by
  have hm : (0 : Fin 2) ∈ scatter_S10240x10240_S640000x2_S640000_n_01_01_1.scatterDimsToOperandDims :=
    show (0 : Fin 2) ∈ ([0, 1] : List (Fin 2)) from by decide
  unfold ScatterDims.start
  rw [dif_pos hm]
  have hsi : scatter_S10240x10240_S640000x2_S640000_n_01_01_1.siIdx (ix1 e)
      ⟨List.idxOf (0 : Fin 2) scatter_S10240x10240_S640000x2_S640000_n_01_01_1.scatterDimsToOperandDims, List.idxOf_lt_length_iff.2 hm⟩ = ix2 e (0 : Fin 2) := by
    funext b; refine Fin.ext ?_
    match b with
    | ⟨0, _⟩ => rfl
    | ⟨1, _⟩ => rfl
  rw [hsi]

/-- The start on operand axis 1 of edge `e`'s update is the word `idx[e, 1]`, read signed: axis 1 is component 1 of
    the index vector. -/
theorem table_start1 (idx : IVec S640000x2 32) (e : Fin 640000) :
    scatter_S10240x10240_S640000x2_S640000_n_01_01_1.start (ix1 e) idx (1 : Fin 2) = (idx (ix2 e (1 : Fin 2))).toInt := by
  have hm : (1 : Fin 2) ∈ scatter_S10240x10240_S640000x2_S640000_n_01_01_1.scatterDimsToOperandDims :=
    show (1 : Fin 2) ∈ ([0, 1] : List (Fin 2)) from by decide
  unfold ScatterDims.start
  rw [dif_pos hm]
  have hsi : scatter_S10240x10240_S640000x2_S640000_n_01_01_1.siIdx (ix1 e)
      ⟨List.idxOf (1 : Fin 2) scatter_S10240x10240_S640000x2_S640000_n_01_01_1.scatterDimsToOperandDims, List.idxOf_lt_length_iff.2 hm⟩ = ix2 e (1 : Fin 2) := by
    funext b; refine Fin.ext ?_
    match b with
    | ⟨0, _⟩ => rfl
    | ⟨1, _⟩ => rfl
  rw [hsi]

/-- Both operand axes are inserted window axes, so no operand axis is kept and the window coordinate is zero on
    each. -/
theorem table_window (e : Fin 640000) (a : Fin 2) :
    scatter_S10240x10240_S640000x2_S640000_n_01_01_1.window (ix1 e) a = 0 := by
  unfold ScatterDims.window
  rw [dif_neg]
  show a ∉ ([] : List (Fin 2))
  exact List.not_mem_nil

/-- Edge `e`'s update lands at element `(v, u)` exactly when its two index words, read signed, are `v` and `u`:
    start plus window is the signed word plus zero on each of the two axes. -/
theorem table_lands_iff (idx : IVec S640000x2 32) (e : Fin 640000) (v u : Fin 10240) :
    scatter_S10240x10240_S640000x2_S640000_n_01_01_1.resultIdx? (ix1 e) idx = some (ix2 v u)
      ↔ (idx (ix2 e (0 : Fin 2))).toInt = (v.val : ℤ) ∧ (idx (ix2 e (1 : Fin 2))).toInt = (u.val : ℤ) := by
  rw [Cert.LibScatter.resultIdx?_eq_some_iff]
  refine Fin.forall_fin_two.trans ?_
  rw [table_start0, table_start1, table_window, table_window]
  simp only [Nat.cast_zero, add_zero]

/-! ## The padded feature array's scatter

Both update axes are window axes, no operand axis is inserted, ONE scatter index whose one word is the start on
operand axis 0: the window's start is `(idx[0], 0)` and its coordinates are the update's own. -/

/-- With the index word zero, the start on operand axis 0 is zero. -/
theorem pad_start0 (idx : IVec S1 32) (h0 : idx (ix1 (0 : Fin 1)) = 0#32) (r : Fin 10000) (k : Fin 128) :
    scatter_S10240x128_S1_S10000x128_01_n_0_0.start (ix2 r k) idx (0 : Fin 2) = 0 := by
  have hm : (0 : Fin 2) ∈ scatter_S10240x128_S1_S10000x128_01_n_0_0.scatterDimsToOperandDims :=
    show (0 : Fin 2) ∈ ([0] : List (Fin 2)) from by decide
  unfold ScatterDims.start
  rw [dif_pos hm]
  have hsi : scatter_S10240x128_S1_S10000x128_01_n_0_0.siIdx (ix2 r k)
      ⟨List.idxOf (0 : Fin 2) scatter_S10240x128_S1_S10000x128_01_n_0_0.scatterDimsToOperandDims, List.idxOf_lt_length_iff.2 hm⟩ = ix1 (0 : Fin 1) := by
    funext b; refine Fin.ext ?_
    match b with
    | ⟨0, _⟩ => rfl
  rw [hsi, h0]
  rfl

/-- Operand axis 1 is not named by the index vector: its start is zero. -/
theorem pad_start1 (idx : IVec S1 32) (r : Fin 10000) (k : Fin 128) :
    scatter_S10240x128_S1_S10000x128_01_n_0_0.start (ix2 r k) idx (1 : Fin 2) = 0 := by
  unfold ScatterDims.start
  rw [dif_neg]
  show (1 : Fin 2) ∉ ([0] : List (Fin 2))
  decide

/-- Operand axis 0 is kept and reads update axis 0: the window coordinate is the update's row. -/
theorem pad_window0 (r : Fin 10000) (k : Fin 128) : scatter_S10240x128_S1_S10000x128_01_n_0_0.window (ix2 r k) (0 : Fin 2) = r.val := by
  have hm : (0 : Fin 2) ∈ scatter_S10240x128_S1_S10000x128_01_n_0_0.sKept := show (0 : Fin 2) ∈ ([0, 1] : List (Fin 2)) from by decide
  unfold ScatterDims.window
  rw [dif_pos hm]
  rfl

/-- Operand axis 1 is kept and reads update axis 1: the window coordinate is the update's column. -/
theorem pad_window1 (r : Fin 10000) (k : Fin 128) : scatter_S10240x128_S1_S10000x128_01_n_0_0.window (ix2 r k) (1 : Fin 2) = k.val := by
  have hm : (1 : Fin 2) ∈ scatter_S10240x128_S1_S10000x128_01_n_0_0.sKept := show (1 : Fin 2) ∈ ([0, 1] : List (Fin 2)) from by decide
  unfold ScatterDims.window
  rw [dif_pos hm]
  rfl

/-- With the index word zero, update element `(r, k)` lands at element `(r', k')` exactly when `r = r'` and
    `k = k'`: start plus window is `0 + r` on axis 0 and `0 + k` on axis 1. -/
theorem pad_lands_iff (idx : IVec S1 32) (h0 : idx (ix1 (0 : Fin 1)) = 0#32) (r : Fin 10000) (k : Fin 128) (r' : Fin 10240) (k' : Fin 128) :
    scatter_S10240x128_S1_S10000x128_01_n_0_0.resultIdx? (ix2 r k) idx = some (ix2 r' k')
      ↔ r.val = r'.val ∧ k = k' := by
  rw [Cert.LibScatter.resultIdx?_eq_some_iff]
  refine Fin.forall_fin_two.trans ?_
  rw [pad_start0 idx h0, pad_start1, pad_window0, pad_window1]
  show (0 : ℤ) + (r.val : ℤ) = (r'.val : ℤ) ∧ (0 : ℤ) + (k.val : ℤ) = (k'.val : ℤ) ↔ _
  constructor
  · rintro ⟨h1, h2⟩
    exact ⟨by omega, Fin.ext (by omega)⟩
  · rintro ⟨h1, h2⟩
    subst h2
    exact ⟨by omega, by omega⟩

end Cert.KernelIdeal.HostDims

end
-- ==== Proof.Spec.lean ====
/-
  The graph network both programs compute, as plain functions on the extended reals.

  There are 10000 nodes with 128 features each and 640000 edges; edge `e` goes from node `src e` to node `dst e`
  (32-bit words, read as signed integers). One layer sends every node's feature row along its outgoing edges,
  sums at each node `v` what arrives there, adds the node's own row and multiplies by a weight matrix:

      layer h W v c = ∑ k, (h v k + ∑ {e | dst e = v} h (src e) k) * W k c

  and the network is three such layers. The row an edge reads is its source word read signed and clamped into
  [0, 9999] (`srcRow`); where the word is a node number the clamp does nothing.

  The second form, `denseLayer`, is the same layer written with a table `M` over a node range padded to 10240:
  `M v u` multiplies row `u`, and the sum runs over all 10240 rows. With `M v u` the NUMBER of edges from `u` to
  `v` (`count`) the two forms agree on the first 10000 rows (CountLaw.lean).
-/
import Mathlib.Data.EReal.Basic
import Mathlib.Algebra.BigOperators.Fin
import Mathlib.Data.Fintype.BigOperators

namespace Cert.Gin

/-- The feature row an edge's source word names: the word read signed, clamped into `[0, 9999]`. -/
def srcRow (w : BitVec 32) : Fin 10000 := ⟨min w.toInt.toNat 9999, by omega⟩

/-- A node of the first 10000 as a node of the padded range. -/
def up (v : Fin 10000) : Fin 10240 := ⟨v.val, lt_trans v.isLt (by decide)⟩

@[simp] theorem up_val (v : Fin 10000) : (up v).val = v.val := rfl

/-- What arrives at node `v`: the source rows of the edges whose destination word is `v`, summed. -/
noncomputable def agg (src dst : Fin 640000 → BitVec 32) (h : Fin 10000 → Fin 128 → EReal) (v : Fin 10000) (k : Fin 128) : EReal :=
  ∑ e ∈ Finset.univ.filter (fun e : Fin 640000 => (dst e).toInt = (v.val : ℤ)), h (srcRow (src e)) k

/-- One layer: own row plus what arrives, times the weights. -/
noncomputable def layer {b : ℕ} (src dst : Fin 640000 → BitVec 32) (h : Fin 10000 → Fin 128 → EReal) (W : Fin 128 → Fin b → EReal)
    (v : Fin 10000) (c : Fin b) : EReal :=
  ∑ k : Fin 128, (h v k + agg src dst h v k) * W k c

/-- The three-layer network. -/
noncomputable def net (src dst : Fin 640000 → BitVec 32) (X : Fin 10000 → Fin 128 → EReal) (W0 W1 : Fin 128 → Fin 128 → EReal)
    (W2 : Fin 128 → Fin 64 → EReal) : Fin 10000 → Fin 64 → EReal :=
  layer src dst (layer src dst (layer src dst X W0) W1) W2

/-- The number of edges from node `u` to node `v`, as an extended real. -/
noncomputable def count (src dst : Fin 640000 → BitVec 32) (v u : ℕ) : EReal :=
  ∑ _e ∈ Finset.univ.filter (fun e : Fin 640000 => (dst e).toInt = (v : ℤ) ∧ (src e).toInt = (u : ℤ)), (1 : EReal)

/-- The layer over the padded node range, with a table in place of the edge list. -/
noncomputable def denseLayer {b : ℕ} (M : Fin 10240 → Fin 10240 → EReal) (hp : Fin 10240 → Fin 128 → EReal) (W : Fin 128 → Fin b → EReal)
    (v : Fin 10240) (c : Fin b) : EReal :=
  ∑ k : Fin 128, (hp v k + ∑ u : Fin 10240, M v u * hp u k) * W k c

end Cert.Gin
-- ==== Proof.KernelHost.lean ====
/-
  The two arrays the kernel's host code prepares for its three calls, as functions of the inputs.

  The edge-count table: a [10240, 10240] array of zeros to which a one is added per edge at (destination, source),
  each index word first wrapped as array indexing wraps it (a negative word gets 10240 added). Where every word is
  non-negative the wrap does nothing, an edge lands at (v, u) exactly when its two words read v and u, and the
  element is the NUMBER of such edges.

  The padded feature array: a [10240, 128] array of zeros whose first 10000 rows are overwritten by the features;
  on those rows it is the feature array.
-/
import proofs.«409665_j60078002536566_1_alg».proof.KernelIdeal
import proofs.«409665_j60078002536566_1_alg».proof.Proof.KernelDims
import proofs.«409665_j60078002536566_1_alg».proof.Proof.Spec
import Idealize.ShloMosaic.Lib.ValueIdx
import Idealize.ShloMosaic.PureOps.Ideal.Laws
import Idealize.ShloMosaic.Lib.IdealHost
import Idealize.ShloMosaic.Lib.ValueIdxRank1
import Idealize.ShloMosaic.Lib.Pipeline.Value
import Idealize.ShloMosaic.Lib.Affine

noncomputable section

namespace Cert.KernelIdeal.HostValue

open Cert.KernelIdeal Idealize.ShloMosaic Idealize.ShloMosaic.ValueIdx

variable [Cert.KernelIdeal.Facts]
open Facts₀

/-- An array of index words wrapped as array indexing wraps them: a negative word gets 10240 added. -/
def wrapWords (x : IVec S640000 32) : IVec S640000 32 :=
  select (cmpi .slt x (broadcastInDim S640000 ![] bcast_S_S640000 (constantI S_ 32 0#32)))
    (addi x (broadcastInDim S640000 ![] bcast_S_S640000 (constantI S_ 32 10240#32))) x

/-- The edge-count table: zeros, plus a one per edge at (wrapped destination word, wrapped source word). -/
def tableOf (src dst : IVec S640000 32) : FVec Ideal S10240x10240 .f32 :=
  Host.scatterAdd scatter_S10240x10240_S640000x2_S640000_n_01_01_1
    (broadcastInDim S10240x10240 ![] bcast_S_S10240x10240 (constant S_ .f32 0x00000000#32))
    (concatenate S640000x2 1
      [⟨S640000x1, broadcastInDim S640000x1 ![0] bcast_S640000_S640000x1_0 (wrapWords dst)⟩,
       ⟨S640000x1, broadcastInDim S640000x1 ![0] bcast_S640000_S640000x1_0 (wrapWords src)⟩]
      concatenates_S640000x1_S640000x1_S640000x2_d1)
    (broadcastInDim S640000 ![] bcast_S_S640000 (constant S_ .f32 0x3F800000#32))

/-- The padded feature array: zeros, the features written over rows 0 … 9999. -/
def padOf (X : FVec Ideal S10000x128 .f32) : FVec Ideal S10240x128 .f32 :=
  Host.scatter scatter_S10240x128_S1_S10000x128_01_n_0_0 (fun _ b => b)
    (broadcastInDim S10240x128 ![] bcast_S_S10240x128 (constant S_ .f32 0x00000000#32))
    (broadcastInDim S1 ![] bcast_S_S1 (constantI S_ 32 0#32)) X

/-! ## Words: the wrap does nothing to a word that is not negative -/

/-- A word that reads non-negative is not below zero, so the wrap's select keeps the word itself. -/
theorem wrap_word (w : BitVec 32) (h : 0 ≤ w.toInt) :
    Scalar.select (IntOp.cmpi .slt w 0#32) (IntOp.addi w 10240#32) w = w := by
  have hc : IntOp.cmpi .slt w 0#32 = 0#1 := by
    refine eq_zero_of_ne_one fun h1 => ?_
    have hlt := IntOp.cmpi_slt.1 h1
    have h0 : (0#32 : BitVec 32).toInt = 0 := by decide
    omega
  rw [hc, select_zero]

/-- The wrapped array at an edge whose word is not negative is the array there: the two splat constants read
    0 and 10240 at every edge, and the select at that edge is the word's. -/
theorem wrapWords_apply (x : IVec S640000 32) (e : Fin 640000) (h : 0 ≤ (x (ix1 e)).toInt) :
    wrapWords x (ix1 e) = x (ix1 e) :=
  wrap_word (x (ix1 e)) h

/-! ## The index array: two columns side by side -/

/-- A vector as an [n, 1] column reads, at (e, 0), the vector at e. -/
theorem col_apply (y : IVec S640000 32) (e : Fin 640000) :
    broadcastInDim S640000x1 ![0] bcast_S640000_S640000x1_0 y (ix2 e (0 : Fin 1)) = y (ix1 e) :=
  broadcastInDim_apply _ bcast_S640000_S640000x1_0 y (ix2 e (0 : Fin 1)) (ix1 e) (fun a => match a with
    | ⟨0, _⟩ => by show e.val = if (640000 : Nat) = 1 then 0 else e.val; rw [if_neg (by decide)])

/-- Two [n, 1] columns side by side, read at (e, 0): the first column at (e, 0). Column 0 lies in the first piece's
    span [0, 1). -/
theorem concat_apply0 (a b : IVec S640000x1 32) (e : Fin 640000) :
    concatenate S640000x2 1 [⟨S640000x1, a⟩, ⟨S640000x1, b⟩] concatenates_S640000x1_S640000x1_S640000x2_d1
      (ix2 e (0 : Fin 2)) = a (ix2 e (0 : Fin 1)) := by
  refine concatenate_apply_piece (1 : Fin 2) [⟨S640000x1, a⟩, ⟨S640000x1, b⟩] _ (ix2 e (0 : Fin 2)) 0 Nat.zero_lt_two S640000x1 a rfl rfl 0 rfl
    (ix2 e (0 : Fin 1)) ?_ rfl
  intro c hc
  match c with
  | ⟨0, _⟩ => rfl
  | ⟨1, _⟩ => exact absurd rfl hc

/-- … and read at (e, 1): the second column at (e, 0). Column 1 lies in the second piece's span [1, 2), at offset
    1 - 1 = 0 within it. -/
theorem concat_apply1 (a b : IVec S640000x1 32) (e : Fin 640000) :
    concatenate S640000x2 1 [⟨S640000x1, a⟩, ⟨S640000x1, b⟩] concatenates_S640000x1_S640000x1_S640000x2_d1
      (ix2 e (1 : Fin 2)) = b (ix2 e (0 : Fin 1)) := by
  refine concatenate_apply_piece (1 : Fin 2) [⟨S640000x1, a⟩, ⟨S640000x1, b⟩] _ (ix2 e (1 : Fin 2)) 1 Nat.one_lt_two S640000x1 b rfl rfl 1 rfl
    (ix2 e (0 : Fin 1)) ?_ rfl
  intro c hc
  match c with
  | ⟨0, _⟩ => rfl
  | ⟨1, _⟩ => exact absurd rfl hc

theorem tableOf_apply (src dst : IVec S640000 32) (hs : ∀ e : Fin 640000, 0 ≤ (src (ix1 e)).toInt)
    (hd : ∀ e : Fin 640000, 0 ≤ (dst (ix1 e)).toInt) (v u : Fin 10240) :
    tableOf src dst (ix2 v u) = Cert.Gin.count (fun e => src (ix1 e)) (fun e => dst (ix1 e)) v.val u.val := by
  unfold tableOf
  rw [Cert.LibScatter.scatterAdd_apply]
  -- the operand is the zero splat: its element is 0
  have hz : (broadcastInDim S10240x10240 ![] bcast_S_S10240x10240 (constant (F := Ideal) S_ .f32 0x00000000#32))
      (ix2 v u) = 0 := Ideal.ofBits_zero_f32
  rw [hz, zero_add]
  unfold Cert.Gin.count
  -- re-index the sum over the rank-1 update indices by their one coordinate, the edge
  refine Finset.sum_equiv idxEquiv1 ?_ ?_
  · intro j
    obtain ⟨e, rfl⟩ : ∃ e, j = ix1 e := ⟨j 0, eq_ix1 j⟩
    simp only [Finset.mem_filter, Finset.mem_univ, true_and]
    -- edge e lands at (v, u) iff its two index words read v and u; the words are the destination and source words
    rw [Cert.KernelIdeal.HostDims.table_lands_iff, concat_apply0, concat_apply1, col_apply, col_apply,
      wrapWords_apply dst e (hd e), wrapWords_apply src e (hs e)]
    exact Iff.rfl
  · -- every update is the float 1.0, the extended real 1
    intro j _
    exact Ideal.ofBits_one_f32

theorem padOf_apply (X : FVec Ideal S10000x128 .f32) (r : Fin 10000) (k : Fin 128) :
    padOf X (ix2 (Cert.Gin.up r) k) = X (ix2 r k) := by
  unfold padOf
  -- the one scatter index word is 0
  have h0 : (broadcastInDim S1 ![] bcast_S_S1 (constantI S_ 32 0#32)) (ix1 (0 : Fin 1)) = 0#32 := rfl
  refine Cert.LibScatter.scatter_set_apply_of_unique _ _ _ X (ix2 (Cert.Gin.up r) k) (ix2 r k) ?_ ?_
  · -- update (r, k) lands at (r, k)
    exact (Cert.KernelIdeal.HostDims.pad_lands_iff _ h0 r k (Cert.Gin.up r) k).2 ⟨rfl, rfl⟩
  · -- and it is the only one: an update (a, b) landing at (r, k) has a = r and b = k
    intro j' hj'
    obtain ⟨a, b, rfl⟩ : ∃ a b, j' = ix2 a b := ⟨j' 0, j' 1, eq_ix2 j'⟩
    obtain ⟨h1, h2⟩ := (Cert.KernelIdeal.HostDims.pad_lands_iff _ h0 a b (Cert.Gin.up r) k).1 hj'
    have ha : a = r := Fin.ext h1
    rw [ha, h2]

end Cert.KernelIdeal.HostValue

end
-- ==== Proof.Region0.lean ====
/-
  What pallas_call 0 leaves in its result array, read at an element.

  The call walks 16 grid points; point t takes rows 640·t … 640·t + 639 of the table and of the own-feature array,
  the whole feature array and the whole weight matrix, and writes rows 640·t … 640·t + 639 of the result. Its body is
  two matrix products into zero accumulators with an addition between them, so element (p, q) of the block it
  writes is  ∑ k, (own p k + ∑ u, table p u · feat u k) · weight k q  over the point's blocks. Every row of the
  result lies in exactly one point's block, so the result array as a whole is that formula over the whole arrays.
-/
import proofs.«409665_j60078002536566_1_alg».proof.Proof.Gen.KernelIdeal.Frame
import Idealize.ShloMosaic.Lib.Pipeline.Value
import Idealize.ShloMosaic.Lib.ValueIdx
import Idealize.ShloMosaic.PureOps.Ideal.Laws

set_option maxRecDepth 16384

noncomputable section

namespace Cert.KernelIdeal.Region0

open Cert.KernelIdeal Cert.KernelIdeal.Gen
open Idealize.ShloMosaic Idealize.ShloMosaic.TcCoe Idealize.ShloMosaic.ValueIdx Idealize.SL.Sem
open Idealize.ShloMosaic.Pipeline (Dat Cfg Window)

-- the TensorCore's buffer contents when the call is entered
variable (V : (c : Dev nD) → (b : Ref sig .tc) → Buf (Elt Ideal) ((c : Thread nD τ).loc b))

/-- The edge-count table, the feature array (the matrix product's operand), the own-feature array (the addend), the
    weight matrix, as the call finds them; and the result array as the call leaves it. -/
abbrev tbl (c : Dev nD) : FVec Ideal S10240x10240 .bf16 := V c main_v16
abbrev feat (c : Dev nD) : FVec Ideal S10240x128 .bf16 := V c main_v20
abbrev own (c : Dev nD) : FVec Ideal S10240x128 .f32 := V c main_v19
abbrev wt (c : Dev nD) : FVec Ideal S128x128 .bf16 := V c main_v21
abbrev res (c : Dev nD) : FVec Ideal S10240x128 .f32 := (dat0 (F := Ideal) V c).arrAt 4 cfg0.N

/-! ## The two matrix products at an element

Each product's contraction runs over ONE axis (the left operand's columns, the right operand's rows), so its
contraction index is that one coordinate; the operand indices at output element (p, q) and contraction coordinate k
are (p, k) on the left and (k, q) on the right. -/

/-- The table product's left operand is read in the output's row … -/
theorem tblProd_lhs_0 (i : S640x128.Idx) (q : dot_S640x10240_S10240x128_S640x128_1_0_0_1_n_n.contr.Idx) :
    (dot_S640x10240_S10240x128_S640x128_1_0_0_1_n_n.lhsIdx i q 0).val = (i 0).val := by
  unfold DotDims.lhsIdx
  rw [dif_neg (show ¬(0 : Fin S640x10240.rank) ∈ dot_S640x10240_S10240x128_S640x128_1_0_0_1_n_n.lhsBatch by decide), dif_pos (show (0 : Fin S640x10240.rank) ∈ dot_S640x10240_S10240x128_S640x128_1_0_0_1_n_n.lhsNonContracting by decide)]
  rfl
/-- … at the contraction coordinate's column; … -/
theorem tblProd_lhs_1 (i : S640x128.Idx) (q : dot_S640x10240_S10240x128_S640x128_1_0_0_1_n_n.contr.Idx) :
    (dot_S640x10240_S10240x128_S640x128_1_0_0_1_n_n.lhsIdx i q 1).val = (q ⟨0, by decide⟩).val :=
  dot_S640x10240_S10240x128_S640x128_1_0_0_1_n_n.lhsIdx_val_of_single rfl i q
/-- … its right operand in the contraction coordinate's row … -/
theorem tblProd_rhs_0 (i : S640x128.Idx) (q : dot_S640x10240_S10240x128_S640x128_1_0_0_1_n_n.contr.Idx) :
    (dot_S640x10240_S10240x128_S640x128_1_0_0_1_n_n.rhsIdx i q 0).val = (q ⟨0, by decide⟩).val :=
  dot_S640x10240_S10240x128_S640x128_1_0_0_1_n_n.rhsIdx_val_of_single rfl i q
/-- … at the output's column. -/
theorem tblProd_rhs_1 (i : S640x128.Idx) (q : dot_S640x10240_S10240x128_S640x128_1_0_0_1_n_n.contr.Idx) :
    (dot_S640x10240_S10240x128_S640x128_1_0_0_1_n_n.rhsIdx i q 1).val = (i 1).val := by
  unfold DotDims.rhsIdx
  rw [dif_neg (show ¬(1 : Fin S10240x128.rank) ∈ dot_S640x10240_S10240x128_S640x128_1_0_0_1_n_n.rhsBatch by decide), dif_pos (show (1 : Fin S10240x128.rank) ∈ dot_S640x10240_S10240x128_S640x128_1_0_0_1_n_n.rhsNonContracting by decide)]
  rfl

/-- The table product into a zero accumulator, at element (p, k): the row of the table against the column of the
    features. -/
theorem tblProd_apply (a : FVec Ideal S640x10240 .bf16) (b : FVec Ideal S10240x128 .bf16) (p : Fin 640) (k : Fin 128) :
    matmul dot_S640x10240_S10240x128_S640x128_1_0_0_1_n_n none a b (constant (F := Ideal) S640x128 .f32 0x00000000#32) (ix2 p k)
      = ∑ u : Fin 10240, a (ix2 p u) * b (ix2 u k) := by
  show FloatOps.matmul dot_S640x10240_S10240x128_S640x128_1_0_0_1_n_n none a b (constant (F := Ideal) S640x128 .f32 0x00000000#32) (ix2 p k) = _
  rw [Ideal.matmul_constant_zero_apply, ← Equiv.sum_comp (ValueIdx.contrEquiv1 dot_S640x10240_S10240x128_S640x128_1_0_0_1_n_n 10240 rfl rfl).symm]
  refine Finset.sum_congr rfl fun u _ => ?_
  have hu := ValueIdx.contrEquiv1_symm_val dot_S640x10240_S10240x128_S640x128_1_0_0_1_n_n 10240 rfl rfl u
  have el : dot_S640x10240_S10240x128_S640x128_1_0_0_1_n_n.lhsIdx (ix2 p k) ((ValueIdx.contrEquiv1 dot_S640x10240_S10240x128_S640x128_1_0_0_1_n_n 10240 rfl rfl).symm u) = ix2 p u := funext fun a => Fin.ext (by
    match a with
    | ⟨0, _⟩ => exact tblProd_lhs_0 _ _
    | ⟨1, _⟩ => exact (tblProd_lhs_1 _ _).trans hu)
  have er : dot_S640x10240_S10240x128_S640x128_1_0_0_1_n_n.rhsIdx (ix2 p k) ((ValueIdx.contrEquiv1 dot_S640x10240_S10240x128_S640x128_1_0_0_1_n_n 10240 rfl rfl).symm u) = ix2 u k := funext fun a => Fin.ext (by
    match a with
    | ⟨0, _⟩ => exact (tblProd_rhs_0 _ _).trans hu
    | ⟨1, _⟩ => exact tblProd_rhs_1 _ _)
  rw [el, er]

/-- The weight product's left operand is read in the output's row … -/
theorem wtProd_lhs_0 (i : S640x128.Idx) (q : dot_S640x128_S128x128_S640x128_1_0_0_1_n_n.contr.Idx) :
    (dot_S640x128_S128x128_S640x128_1_0_0_1_n_n.lhsIdx i q 0).val = (i 0).val := by
  unfold DotDims.lhsIdx
  rw [dif_neg (show ¬(0 : Fin S640x128.rank) ∈ dot_S640x128_S128x128_S640x128_1_0_0_1_n_n.lhsBatch by decide), dif_pos (show (0 : Fin S640x128.rank) ∈ dot_S640x128_S128x128_S640x128_1_0_0_1_n_n.lhsNonContracting by decide)]
  rfl
/-- … at the contraction coordinate's column; … -/
theorem wtProd_lhs_1 (i : S640x128.Idx) (q : dot_S640x128_S128x128_S640x128_1_0_0_1_n_n.contr.Idx) :
    (dot_S640x128_S128x128_S640x128_1_0_0_1_n_n.lhsIdx i q 1).val = (q ⟨0, by decide⟩).val :=
  dot_S640x128_S128x128_S640x128_1_0_0_1_n_n.lhsIdx_val_of_single rfl i q
/-- … its right operand in the contraction coordinate's row … -/
theorem wtProd_rhs_0 (i : S640x128.Idx) (q : dot_S640x128_S128x128_S640x128_1_0_0_1_n_n.contr.Idx) :
    (dot_S640x128_S128x128_S640x128_1_0_0_1_n_n.rhsIdx i q 0).val = (q ⟨0, by decide⟩).val :=
  dot_S640x128_S128x128_S640x128_1_0_0_1_n_n.rhsIdx_val_of_single rfl i q
/-- … at the output's column. -/
theorem wtProd_rhs_1 (i : S640x128.Idx) (q : dot_S640x128_S128x128_S640x128_1_0_0_1_n_n.contr.Idx) :
    (dot_S640x128_S128x128_S640x128_1_0_0_1_n_n.rhsIdx i q 1).val = (i 1).val := by
  unfold DotDims.rhsIdx
  rw [dif_neg (show ¬(1 : Fin S128x128.rank) ∈ dot_S640x128_S128x128_S640x128_1_0_0_1_n_n.rhsBatch by decide), dif_pos (show (1 : Fin S128x128.rank) ∈ dot_S640x128_S128x128_S640x128_1_0_0_1_n_n.rhsNonContracting by decide)]
  rfl

/-- The weight product into a zero accumulator, at element (p, q). -/
theorem wtProd_apply (a : FVec Ideal S640x128 .bf16) (b : FVec Ideal S128x128 .bf16) (p : Fin 640) (q : Fin 128) :
    matmul dot_S640x128_S128x128_S640x128_1_0_0_1_n_n none a b (constant (F := Ideal) S640x128 .f32 0x00000000#32) (ix2 p q)
      = ∑ k : Fin 128, a (ix2 p k) * b (ix2 k q) := by
  show FloatOps.matmul dot_S640x128_S128x128_S640x128_1_0_0_1_n_n none a b (constant (F := Ideal) S640x128 .f32 0x00000000#32) (ix2 p q) = _
  rw [Ideal.matmul_constant_zero_apply, ← Equiv.sum_comp (ValueIdx.contrEquiv1 dot_S640x128_S128x128_S640x128_1_0_0_1_n_n 128 rfl rfl).symm]
  refine Finset.sum_congr rfl fun k _ => ?_
  have hk := ValueIdx.contrEquiv1_symm_val dot_S640x128_S128x128_S640x128_1_0_0_1_n_n 128 rfl rfl k
  have el : dot_S640x128_S128x128_S640x128_1_0_0_1_n_n.lhsIdx (ix2 p q) ((ValueIdx.contrEquiv1 dot_S640x128_S128x128_S640x128_1_0_0_1_n_n 128 rfl rfl).symm k) = ix2 p k := funext fun a => Fin.ext (by
    match a with
    | ⟨0, _⟩ => exact wtProd_lhs_0 _ _
    | ⟨1, _⟩ => exact (wtProd_lhs_1 _ _).trans hk)
  have er : dot_S640x128_S128x128_S640x128_1_0_0_1_n_n.rhsIdx (ix2 p q) ((ValueIdx.contrEquiv1 dot_S640x128_S128x128_S640x128_1_0_0_1_n_n 128 rfl rfl).symm k) = ix2 k q := funext fun a => Fin.ext (by
    match a with
    | ⟨0, _⟩ => exact (wtProd_rhs_0 _ _).trans hk
    | ⟨1, _⟩ => exact wtProd_rhs_1 _ _)
  rw [el, er]

/-- THE BODY'S PAYLOAD AT AN ELEMENT: the shape casts are to the same shape, the narrowing is the identity on the
    extended reals, so element (p, q) is the weight product of (own row + table product). -/
theorem payload_apply (x0 : FVec Ideal S640x10240 .bf16) (x1 : FVec Ideal S10240x128 .bf16) (x2 : FVec Ideal S640x128 .f32)
    (x3 : FVec Ideal S128x128 .bf16) (p : Fin 640) (q : Fin 128) :
    k0_pay1 (F := Ideal) x0 x1 x2 x3 (ix2 p q)
      = ∑ k : Fin 128, (x2 (ix2 p k) + ∑ u : Fin 10240, x0 (ix2 p u) * x1 (ix2 u k)) * x3 (ix2 k q) := by
  unfold k0_pay1
  simp only [shapeCast_self]
  refine (wtProd_apply _ _ p q).trans ?_
  refine Finset.sum_congr rfl fun k _ => ?_
  refine congrArg (· * x3 (ix2 k q)) ?_
  show x2 (ix2 p k) + matmul dot_S640x10240_S10240x128_S640x128_1_0_0_1_n_n none x0 x1 (constant (F := Ideal) S640x128 .f32 0x00000000#32) (ix2 p k) = _
  rw [tblProd_apply]

/-! ## From blocks to the array

Point t's blocks are restrictions of the whole arrays: the table's and the own-feature array's blocks are rows
640·t … 640·t + 639, the feature array's and the weight matrix's blocks are the arrays themselves, and the block it
writes is rows 640·t … 640·t + 639 of the result. So what it writes is the block of ONE function of the whole
arrays, and since row v lies in the block of point v / 640 the result array ends holding that function. -/

/-- The layer's value at row v, column q, over the whole arrays. -/
def layerAt (c : Dev nD) (v : Fin 10240) (q : Fin 128) : EReal :=
  ∑ k : Fin 128, (own V c (ix2 v k) + ∑ u : Fin 10240, tbl V c (ix2 v u) * feat V c (ix2 u k)) * wt V c (ix2 k q)

/-- … and as contents of the result array. -/
abbrev layerArr (c : Dev nD) : FVec Ideal S10240x128 .f32 := fun i => layerAt V c (i 0) (i 1)

theorem zero_offsets : (![0, 0] : Fin 2 → Nat) = fun _ => 0 :=
  funext fun a => by match a with | ⟨0, _⟩ => rfl | ⟨1, _⟩ => rfl

/-- The printed index maps, decided once over the grid: the row-blocked windows (table, own features, result) are at
    block (t, 0), the whole-array windows (features, weights) at block (0, 0). -/
theorem block_index : ∀ t : Fin cfg0.N,
    win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0
    ∧ win0_3.index t (0 : Fin 2) = 0 ∧ win0_3.index t (1 : Fin 2) = 0
    ∧ win0_4.index t (0 : Fin 2) = t.val ∧ win0_4.index t (1 : Fin 2) = 0 :=
  (by decide +kernel : ∀ t : Fin grid0.N, _)

/-- Point t's input blocks, at their literal types. -/
abbrev tblBlk (c : Dev nD) (t : Fin cfg0.N) : FVec Ideal S640x10240 .bf16 := iblk0 (F := Ideal) V c 0 t
abbrev featBlk (c : Dev nD) (t : Fin cfg0.N) : FVec Ideal S10240x128 .bf16 := iblk0 (F := Ideal) V c 1 t
abbrev ownBlk (c : Dev nD) (t : Fin cfg0.N) : FVec Ideal S640x128 .f32 := iblk0 (F := Ideal) V c 2 t
abbrev wtBlk (c : Dev nD) (t : Fin cfg0.N) : FVec Ideal S128x128 .bf16 := iblk0 (F := Ideal) V c 3 t

/-- The table's block at point t is rows 640·t … of the table. -/
theorem tblBlk_apply (c : Dev nD) (t : Fin cfg0.N) (p : Fin 640) (u : Fin 10240) (r : Fin 10240)
    (hr : r.val = 640 * t.val + p.val) : tblBlk V c t (ix2 p u) = tbl V c (ix2 r u) := by
  obtain ⟨e0, e1, -⟩ := block_index t
  show iblk0 (F := Ideal) V c 0 t (ix2 p u) = _
  unfold iblk0
  rw [View.read_apply]
  show V c main_v16 _ = V c main_v16 _
  congr 1
  funext a
  apply Fin.ext
  match a with
  | ⟨0, _⟩ => show win0_0.index t (0 : Fin 2) * 640 + 1 * p.val = r.val; rw [e0, hr]; omega
  | ⟨1, _⟩ => show win0_0.index t (1 : Fin 2) * 10240 + 1 * u.val = u.val; rw [e1]; omega

/-- The feature array's block is the feature array. -/
theorem featBlk_apply (c : Dev nD) (t : Fin cfg0.N) (u : Fin 10240) (k : Fin 128) :
    featBlk V c t (ix2 u k) = feat V c (ix2 u k) := by
  obtain ⟨-, -, e0, e1, -⟩ := block_index t
  show iblk0 (F := Ideal) V c 1 t (ix2 u k) = _
  unfold iblk0
  rw [View.read_apply]
  show V c main_v20 _ = V c main_v20 _
  congr 1
  funext a
  apply Fin.ext
  match a with
  | ⟨0, _⟩ => show win0_1.index t (0 : Fin 2) * 10240 + 1 * u.val = u.val; rw [e0]; omega
  | ⟨1, _⟩ => show win0_1.index t (1 : Fin 2) * 128 + 1 * k.val = k.val; rw [e1]; omega

/-- The own-feature array's block at point t is rows 640·t … of it. -/
theorem ownBlk_apply (c : Dev nD) (t : Fin cfg0.N) (p : Fin 640) (k : Fin 128) (r : Fin 10240)
    (hr : r.val = 640 * t.val + p.val) : ownBlk V c t (ix2 p k) = own V c (ix2 r k) := by
  obtain ⟨-, -, -, -, e0, e1, -⟩ := block_index t
  show iblk0 (F := Ideal) V c 2 t (ix2 p k) = _
  unfold iblk0
  rw [View.read_apply]
  show V c main_v19 _ = V c main_v19 _
  congr 1
  funext a
  apply Fin.ext
  match a with
  | ⟨0, _⟩ => show win0_2.index t (0 : Fin 2) * 640 + 1 * p.val = r.val; rw [e0, hr]; omega
  | ⟨1, _⟩ => show win0_2.index t (1 : Fin 2) * 128 + 1 * k.val = k.val; rw [e1]; omega

/-- The weight matrix's block is the weight matrix. -/
theorem wtBlk_apply (c : Dev nD) (t : Fin cfg0.N) (k : Fin 128) (q : Fin 128) :
    wtBlk V c t (ix2 k q) = wt V c (ix2 k q) := by
  obtain ⟨-, -, -, -, -, -, e0, e1, -⟩ := block_index t
  show iblk0 (F := Ideal) V c 3 t (ix2 k q) = _
  unfold iblk0
  rw [View.read_apply]
  show V c main_v21 _ = V c main_v21 _
  congr 1
  funext a
  apply Fin.ext
  match a with
  | ⟨0, _⟩ => show win0_3.index t (0 : Fin 2) * 128 + 1 * k.val = k.val; rw [e0]; omega
  | ⟨1, _⟩ => show win0_3.index t (1 : Fin 2) * 128 + 1 * q.val = q.val; rw [e1]; omega

/-- The payload of point t's blocks at element (p, q) is the layer's value at row 640·t + p, column q. -/
theorem block_value (c : Dev nD) (t : Fin cfg0.N) (p : Fin 640) (q : Fin 128) (r : Fin 10240) (s : Fin 128)
    (hr : r.val = 640 * t.val + p.val) (hs : s.val = q.val) :
    k0_pay1 (F := Ideal) (tblBlk V c t) (featBlk V c t) (ownBlk V c t) (wtBlk V c t) (ix2 p q) = layerAt V c r s := by
  obtain rfl : s = q := Fin.ext hs
  refine (payload_apply (tblBlk V c t) (featBlk V c t) (ownBlk V c t) (wtBlk V c t) p s).trans ?_
  unfold layerAt
  refine Finset.sum_congr rfl fun k _ => ?_
  rw [ownBlk_apply V c t p k r hr, wtBlk_apply V c t k s]
  refine congrArg (fun z => (own V c (ix2 r k) + z) * wt V c (ix2 k s)) ?_
  refine Finset.sum_congr rfl fun u _ => ?_
  rw [tblBlk_apply V c t p u r hr, featBlk_apply V c t u k]

/-- WHAT POINT t WRITES BACK is block t of the layer's value over the whole arrays. -/
theorem flushed_eq (c : Dev nD) (t : Fin cfg0.N) :
    (dat0 (F := Ideal) V c).flushed 4 t = ((cfg0.win 4).blk t).view.read (Elt Ideal) (layerArr V c) := by
  show (cfg0.win 4).cut (grid0.coords t) ((dat0 (F := Ideal) V c).after 4 t) = _
  rw [after0_4]
  unfold out0_4
  rw [View.canon_unit_zero zero_offsets]
  simp only [View.ld_unit_zero (S := S640x10240) zero_offsets, View.ld_unit_zero (S := S10240x128) zero_offsets,
    View.ld_unit_zero (S := S640x128) zero_offsets, View.ld_unit_zero (S := S128x128) zero_offsets]
  obtain ⟨-, -, -, -, -, -, -, -, e0, e1⟩ := block_index t
  funext j
  obtain ⟨p, q, rfl⟩ : ∃ (p : Fin 640) (q : Fin 128), j = ix2 p q := ⟨j 0, j 1, eq_ix2 j⟩
  rw [View.read_apply]
  show k0_pay1 (F := Ideal) (tblBlk V c t) (featBlk V c t) (ownBlk V c t) (wtBlk V c t) (ix2 p q)
    = layerAt V c ((((cfg0.win 4).blk t).view.emb (ix2 p q)) 0) ((((cfg0.win 4).blk t).view.emb (ix2 p q)) 1)
  refine block_value V c t p q _ _ ?_ ?_
  · show win0_4.index t (0 : Fin 2) * 640 + 1 * p.val = 640 * t.val + p.val; rw [e0]; omega
  · show win0_4.index t (1 : Fin 2) * 128 + 1 * q.val = q.val; rw [e1]; omega

/-- An index of the result array is in point t's block iff each coordinate is in the block's range on its axis. -/
theorem mem_blk (t : Fin cfg0.N) (i : S10240x128.Idx) :
    i ∈ ((cfg0.win 4).blk t).view.set ↔ ∀ a : Fin 2, win0_4.index t a * S640x128.size a ≤ (i a).val ∧ (i a).val < win0_4.index t a * S640x128.size a + S640x128.size a := by
  show i ∈ ((View.whole main_v22).slice (win0_4.rect t)).set ↔ _
  rw [View.set_slice_whole, Rect.mem_set_unit]
  exact Iff.rfl

/-- Every row of the result is in some point's block: row v in that of point v / 640. -/
theorem covered (i : S10240x128.Idx) :
    ∃ t : Fin cfg0.N, (cfg0.win 4).flush t = true ∧ i ∈ ((cfg0.win 4).blk t).view.set := by
  have hi0 : (i 0).val < 10240 := (i 0).isLt
  have hi1 : (i 1).val < 128 := (i 1).isLt
  have hN : cfg0.N = 16 := N_0
  obtain ⟨t, ht⟩ : ∃ t : Fin cfg0.N, t.val = (i 0).val / 640 := ⟨⟨(i 0).val / 640, by rw [hN]; omega⟩, rfl⟩
  obtain ⟨-, -, -, -, -, -, -, -, e0, e1⟩ := block_index t
  refine ⟨t, flush0_4 t, ?_⟩
  rw [mem_blk]
  intro a
  match a with
  | ⟨0, _⟩ => show win0_4.index t (0 : Fin 2) * 640 ≤ (i 0).val ∧ (i 0).val < win0_4.index t (0 : Fin 2) * 640 + 640; rw [e0, ht]; omega
  | ⟨1, _⟩ => show win0_4.index t (1 : Fin 2) * 128 ≤ (i 1).val ∧ (i 1).val < win0_4.index t (1 : Fin 2) * 128 + 128; rw [e1]; omega

/-- THE RESULT ARRAY after the call is the layer's value over the whole arrays. -/
theorem res_eq (c : Dev nD) : res V c = layerArr V c :=
  (dat0 (F := Ideal) V c).arrAt_eq_of_cover 4 (layerArr V c) (fun t _ => flushed_eq V c t) covered

theorem value (c : Dev nD) (v : Fin 10240) (q : Fin 128) :
    res V c (ix2 v q)
      = ∑ k : Fin 128, (own V c (ix2 v k) + ∑ u : Fin 10240, tbl V c (ix2 v u) * feat V c (ix2 u k)) * wt V c (ix2 k q) :=
  congrFun (res_eq V c) (ix2 v q)

end Cert.KernelIdeal.Region0

end
-- ==== Proof.Region1.lean ====
/-
  What pallas_call 1 leaves in its result array, read at an element.

  The call walks 16 grid points; point t takes rows 640·t … 640·t + 639 of the table and of the own-feature array,
  the whole feature array and the whole weight matrix, and writes rows 640·t … 640·t + 639 of the result. Its body is
  two matrix products into zero accumulators with an addition between them, so element (p, q) of the block it
  writes is  ∑ k, (own p k + ∑ u, table p u · feat u k) · weight k q  over the point's blocks. Every row of the
  result lies in exactly one point's block, so the result array as a whole is that formula over the whole arrays.
-/
import proofs.«409665_j60078002536566_1_alg».proof.Proof.Gen.KernelIdeal.Frame
import Idealize.ShloMosaic.Lib.Pipeline.Value
import Idealize.ShloMosaic.Lib.ValueIdx
import Idealize.ShloMosaic.PureOps.Ideal.Laws

set_option maxRecDepth 16384

noncomputable section

namespace Cert.KernelIdeal.Region1

open Cert.KernelIdeal Cert.KernelIdeal.Gen
open Idealize.ShloMosaic Idealize.ShloMosaic.TcCoe Idealize.ShloMosaic.ValueIdx Idealize.SL.Sem
open Idealize.ShloMosaic.Pipeline (Dat Cfg Window)

-- the TensorCore's buffer contents when the call is entered
variable (V : (c : Dev nD) → (b : Ref sig .tc) → Buf (Elt Ideal) ((c : Thread nD τ).loc b))

/-- The edge-count table, the feature array (the matrix product's operand), the own-feature array (the addend), the
    weight matrix, as the call finds them; and the result array as the call leaves it. -/
abbrev tbl (c : Dev nD) : FVec Ideal S10240x10240 .bf16 := V c main_v16
abbrev feat (c : Dev nD) : FVec Ideal S10240x128 .bf16 := V c main_v23
abbrev own (c : Dev nD) : FVec Ideal S10240x128 .f32 := V c main_v22
abbrev wt (c : Dev nD) : FVec Ideal S128x128 .bf16 := V c main_v24
abbrev res (c : Dev nD) : FVec Ideal S10240x128 .f32 := (dat1 (F := Ideal) V c).arrAt 4 cfg1.N

/-! ## The two matrix products at an element

Each product's contraction runs over ONE axis (the left operand's columns, the right operand's rows), so its
contraction index is that one coordinate; the operand indices at output element (p, q) and contraction coordinate k
are (p, k) on the left and (k, q) on the right. -/

/-- The table product's left operand is read in the output's row … -/
theorem tblProd_lhs_0 (i : S640x128.Idx) (q : dot_S640x10240_S10240x128_S640x128_1_0_0_1_n_n.contr.Idx) :
    (dot_S640x10240_S10240x128_S640x128_1_0_0_1_n_n.lhsIdx i q 0).val = (i 0).val := by
  unfold DotDims.lhsIdx
  rw [dif_neg (show ¬(0 : Fin S640x10240.rank) ∈ dot_S640x10240_S10240x128_S640x128_1_0_0_1_n_n.lhsBatch by decide), dif_pos (show (0 : Fin S640x10240.rank) ∈ dot_S640x10240_S10240x128_S640x128_1_0_0_1_n_n.lhsNonContracting by decide)]
  rfl
/-- … at the contraction coordinate's column; … -/
theorem tblProd_lhs_1 (i : S640x128.Idx) (q : dot_S640x10240_S10240x128_S640x128_1_0_0_1_n_n.contr.Idx) :
    (dot_S640x10240_S10240x128_S640x128_1_0_0_1_n_n.lhsIdx i q 1).val = (q ⟨0, by decide⟩).val :=
  dot_S640x10240_S10240x128_S640x128_1_0_0_1_n_n.lhsIdx_val_of_single rfl i q
/-- … its right operand in the contraction coordinate's row … -/
theorem tblProd_rhs_0 (i : S640x128.Idx) (q : dot_S640x10240_S10240x128_S640x128_1_0_0_1_n_n.contr.Idx) :
    (dot_S640x10240_S10240x128_S640x128_1_0_0_1_n_n.rhsIdx i q 0).val = (q ⟨0, by decide⟩).val :=
  dot_S640x10240_S10240x128_S640x128_1_0_0_1_n_n.rhsIdx_val_of_single rfl i q
/-- … at the output's column. -/
theorem tblProd_rhs_1 (i : S640x128.Idx) (q : dot_S640x10240_S10240x128_S640x128_1_0_0_1_n_n.contr.Idx) :
    (dot_S640x10240_S10240x128_S640x128_1_0_0_1_n_n.rhsIdx i q 1).val = (i 1).val := by
  unfold DotDims.rhsIdx
  rw [dif_neg (show ¬(1 : Fin S10240x128.rank) ∈ dot_S640x10240_S10240x128_S640x128_1_0_0_1_n_n.rhsBatch by decide), dif_pos (show (1 : Fin S10240x128.rank) ∈ dot_S640x10240_S10240x128_S640x128_1_0_0_1_n_n.rhsNonContracting by decide)]
  rfl

/-- The table product into a zero accumulator, at element (p, k): the row of the table against the column of the
    features. -/
theorem tblProd_apply (a : FVec Ideal S640x10240 .bf16) (b : FVec Ideal S10240x128 .bf16) (p : Fin 640) (k : Fin 128) :
    matmul dot_S640x10240_S10240x128_S640x128_1_0_0_1_n_n none a b (constant (F := Ideal) S640x128 .f32 0x00000000#32) (ix2 p k)
      = ∑ u : Fin 10240, a (ix2 p u) * b (ix2 u k) := by
  show FloatOps.matmul dot_S640x10240_S10240x128_S640x128_1_0_0_1_n_n none a b (constant (F := Ideal) S640x128 .f32 0x00000000#32) (ix2 p k) = _
  rw [Ideal.matmul_constant_zero_apply, ← Equiv.sum_comp (ValueIdx.contrEquiv1 dot_S640x10240_S10240x128_S640x128_1_0_0_1_n_n 10240 rfl rfl).symm]
  refine Finset.sum_congr rfl fun u _ => ?_
  have hu := ValueIdx.contrEquiv1_symm_val dot_S640x10240_S10240x128_S640x128_1_0_0_1_n_n 10240 rfl rfl u
  have el : dot_S640x10240_S10240x128_S640x128_1_0_0_1_n_n.lhsIdx (ix2 p k) ((ValueIdx.contrEquiv1 dot_S640x10240_S10240x128_S640x128_1_0_0_1_n_n 10240 rfl rfl).symm u) = ix2 p u := funext fun a => Fin.ext (by
    match a with
    | ⟨0, _⟩ => exact tblProd_lhs_0 _ _
    | ⟨1, _⟩ => exact (tblProd_lhs_1 _ _).trans hu)
  have er : dot_S640x10240_S10240x128_S640x128_1_0_0_1_n_n.rhsIdx (ix2 p k) ((ValueIdx.contrEquiv1 dot_S640x10240_S10240x128_S640x128_1_0_0_1_n_n 10240 rfl rfl).symm u) = ix2 u k := funext fun a => Fin.ext (by
    match a with
    | ⟨0, _⟩ => exact (tblProd_rhs_0 _ _).trans hu
    | ⟨1, _⟩ => exact tblProd_rhs_1 _ _)
  rw [el, er]

/-- The weight product's left operand is read in the output's row … -/
theorem wtProd_lhs_0 (i : S640x128.Idx) (q : dot_S640x128_S128x128_S640x128_1_0_0_1_n_n.contr.Idx) :
    (dot_S640x128_S128x128_S640x128_1_0_0_1_n_n.lhsIdx i q 0).val = (i 0).val := by
  unfold DotDims.lhsIdx
  rw [dif_neg (show ¬(0 : Fin S640x128.rank) ∈ dot_S640x128_S128x128_S640x128_1_0_0_1_n_n.lhsBatch by decide), dif_pos (show (0 : Fin S640x128.rank) ∈ dot_S640x128_S128x128_S640x128_1_0_0_1_n_n.lhsNonContracting by decide)]
  rfl
/-- … at the contraction coordinate's column; … -/
theorem wtProd_lhs_1 (i : S640x128.Idx) (q : dot_S640x128_S128x128_S640x128_1_0_0_1_n_n.contr.Idx) :
    (dot_S640x128_S128x128_S640x128_1_0_0_1_n_n.lhsIdx i q 1).val = (q ⟨0, by decide⟩).val :=
  dot_S640x128_S128x128_S640x128_1_0_0_1_n_n.lhsIdx_val_of_single rfl i q
/-- … its right operand in the contraction coordinate's row … -/
theorem wtProd_rhs_0 (i : S640x128.Idx) (q : dot_S640x128_S128x128_S640x128_1_0_0_1_n_n.contr.Idx) :
    (dot_S640x128_S128x128_S640x128_1_0_0_1_n_n.rhsIdx i q 0).val = (q ⟨0, by decide⟩).val :=
  dot_S640x128_S128x128_S640x128_1_0_0_1_n_n.rhsIdx_val_of_single rfl i q
/-- … at the output's column. -/
theorem wtProd_rhs_1 (i : S640x128.Idx) (q : dot_S640x128_S128x128_S640x128_1_0_0_1_n_n.contr.Idx) :
    (dot_S640x128_S128x128_S640x128_1_0_0_1_n_n.rhsIdx i q 1).val = (i 1).val := by
  unfold DotDims.rhsIdx
  rw [dif_neg (show ¬(1 : Fin S128x128.rank) ∈ dot_S640x128_S128x128_S640x128_1_0_0_1_n_n.rhsBatch by decide), dif_pos (show (1 : Fin S128x128.rank) ∈ dot_S640x128_S128x128_S640x128_1_0_0_1_n_n.rhsNonContracting by decide)]
  rfl

/-- The weight product into a zero accumulator, at element (p, q). -/
theorem wtProd_apply (a : FVec Ideal S640x128 .bf16) (b : FVec Ideal S128x128 .bf16) (p : Fin 640) (q : Fin 128) :
    matmul dot_S640x128_S128x128_S640x128_1_0_0_1_n_n none a b (constant (F := Ideal) S640x128 .f32 0x00000000#32) (ix2 p q)
      = ∑ k : Fin 128, a (ix2 p k) * b (ix2 k q) := by
  show FloatOps.matmul dot_S640x128_S128x128_S640x128_1_0_0_1_n_n none a b (constant (F := Ideal) S640x128 .f32 0x00000000#32) (ix2 p q) = _
  rw [Ideal.matmul_constant_zero_apply, ← Equiv.sum_comp (ValueIdx.contrEquiv1 dot_S640x128_S128x128_S640x128_1_0_0_1_n_n 128 rfl rfl).symm]
  refine Finset.sum_congr rfl fun k _ => ?_
  have hk := ValueIdx.contrEquiv1_symm_val dot_S640x128_S128x128_S640x128_1_0_0_1_n_n 128 rfl rfl k
  have el : dot_S640x128_S128x128_S640x128_1_0_0_1_n_n.lhsIdx (ix2 p q) ((ValueIdx.contrEquiv1 dot_S640x128_S128x128_S640x128_1_0_0_1_n_n 128 rfl rfl).symm k) = ix2 p k := funext fun a => Fin.ext (by
    match a with
    | ⟨0, _⟩ => exact wtProd_lhs_0 _ _
    | ⟨1, _⟩ => exact (wtProd_lhs_1 _ _).trans hk)
  have er : dot_S640x128_S128x128_S640x128_1_0_0_1_n_n.rhsIdx (ix2 p q) ((ValueIdx.contrEquiv1 dot_S640x128_S128x128_S640x128_1_0_0_1_n_n 128 rfl rfl).symm k) = ix2 k q := funext fun a => Fin.ext (by
    match a with
    | ⟨0, _⟩ => exact (wtProd_rhs_0 _ _).trans hk
    | ⟨1, _⟩ => exact wtProd_rhs_1 _ _)
  rw [el, er]

/-- THE BODY'S PAYLOAD AT AN ELEMENT: the shape casts are to the same shape, the narrowing is the identity on the
    extended reals, so element (p, q) is the weight product of (own row + table product). -/
theorem payload_apply (x0 : FVec Ideal S640x10240 .bf16) (x1 : FVec Ideal S10240x128 .bf16) (x2 : FVec Ideal S640x128 .f32)
    (x3 : FVec Ideal S128x128 .bf16) (p : Fin 640) (q : Fin 128) :
    k1_pay1 (F := Ideal) x0 x1 x2 x3 (ix2 p q)
      = ∑ k : Fin 128, (x2 (ix2 p k) + ∑ u : Fin 10240, x0 (ix2 p u) * x1 (ix2 u k)) * x3 (ix2 k q) := by
  unfold k1_pay1
  simp only [shapeCast_self]
  refine (wtProd_apply _ _ p q).trans ?_
  refine Finset.sum_congr rfl fun k _ => ?_
  refine congrArg (· * x3 (ix2 k q)) ?_
  show x2 (ix2 p k) + matmul dot_S640x10240_S10240x128_S640x128_1_0_0_1_n_n none x0 x1 (constant (F := Ideal) S640x128 .f32 0x00000000#32) (ix2 p k) = _
  rw [tblProd_apply]

/-! ## From blocks to the array

Point t's blocks are restrictions of the whole arrays: the table's and the own-feature array's blocks are rows
640·t … 640·t + 639, the feature array's and the weight matrix's blocks are the arrays themselves, and the block it
writes is rows 640·t … 640·t + 639 of the result. So what it writes is the block of ONE function of the whole
arrays, and since row v lies in the block of point v / 640 the result array ends holding that function. -/

/-- The layer's value at row v, column q, over the whole arrays. -/
def layerAt (c : Dev nD) (v : Fin 10240) (q : Fin 128) : EReal :=
  ∑ k : Fin 128, (own V c (ix2 v k) + ∑ u : Fin 10240, tbl V c (ix2 v u) * feat V c (ix2 u k)) * wt V c (ix2 k q)

/-- … and as contents of the result array. -/
abbrev layerArr (c : Dev nD) : FVec Ideal S10240x128 .f32 := fun i => layerAt V c (i 0) (i 1)

theorem zero_offsets : (![0, 0] : Fin 2 → Nat) = fun _ => 0 :=
  funext fun a => by match a with | ⟨0, _⟩ => rfl | ⟨1, _⟩ => rfl

/-- The printed index maps, decided once over the grid: the row-blocked windows (table, own features, result) are at
    block (t, 0), the whole-array windows (features, weights) at block (0, 0). -/
theorem block_index : ∀ t : Fin cfg1.N,
    win1_0.index t (0 : Fin 2) = t.val ∧ win1_0.index t (1 : Fin 2) = 0
    ∧ win1_1.index t (0 : Fin 2) = 0 ∧ win1_1.index t (1 : Fin 2) = 0
    ∧ win1_2.index t (0 : Fin 2) = t.val ∧ win1_2.index t (1 : Fin 2) = 0
    ∧ win1_3.index t (0 : Fin 2) = 0 ∧ win1_3.index t (1 : Fin 2) = 0
    ∧ win1_4.index t (0 : Fin 2) = t.val ∧ win1_4.index t (1 : Fin 2) = 0 :=
  (by decide +kernel : ∀ t : Fin grid1.N, _)

/-- Point t's input blocks, at their literal types. -/
abbrev tblBlk (c : Dev nD) (t : Fin cfg1.N) : FVec Ideal S640x10240 .bf16 := iblk1 (F := Ideal) V c 0 t
abbrev featBlk (c : Dev nD) (t : Fin cfg1.N) : FVec Ideal S10240x128 .bf16 := iblk1 (F := Ideal) V c 1 t
abbrev ownBlk (c : Dev nD) (t : Fin cfg1.N) : FVec Ideal S640x128 .f32 := iblk1 (F := Ideal) V c 2 t
abbrev wtBlk (c : Dev nD) (t : Fin cfg1.N) : FVec Ideal S128x128 .bf16 := iblk1 (F := Ideal) V c 3 t

/-- The table's block at point t is rows 640·t … of the table. -/
theorem tblBlk_apply (c : Dev nD) (t : Fin cfg1.N) (p : Fin 640) (u : Fin 10240) (r : Fin 10240)
    (hr : r.val = 640 * t.val + p.val) : tblBlk V c t (ix2 p u) = tbl V c (ix2 r u) := by
  obtain ⟨e0, e1, -⟩ := block_index t
  show iblk1 (F := Ideal) V c 0 t (ix2 p u) = _
  unfold iblk1
  rw [View.read_apply]
  show V c main_v16 _ = V c main_v16 _
  congr 1
  funext a
  apply Fin.ext
  match a with
  | ⟨0, _⟩ => show win1_0.index t (0 : Fin 2) * 640 + 1 * p.val = r.val; rw [e0, hr]; omega
  | ⟨1, _⟩ => show win1_0.index t (1 : Fin 2) * 10240 + 1 * u.val = u.val; rw [e1]; omega

/-- The feature array's block is the feature array. -/
theorem featBlk_apply (c : Dev nD) (t : Fin cfg1.N) (u : Fin 10240) (k : Fin 128) :
    featBlk V c t (ix2 u k) = feat V c (ix2 u k) := by
  obtain ⟨-, -, e0, e1, -⟩ := block_index t
  show iblk1 (F := Ideal) V c 1 t (ix2 u k) = _
  unfold iblk1
  rw [View.read_apply]
  show V c main_v23 _ = V c main_v23 _
  congr 1
  funext a
  apply Fin.ext
  match a with
  | ⟨0, _⟩ => show win1_1.index t (0 : Fin 2) * 10240 + 1 * u.val = u.val; rw [e0]; omega
  | ⟨1, _⟩ => show win1_1.index t (1 : Fin 2) * 128 + 1 * k.val = k.val; rw [e1]; omega

/-- The own-feature array's block at point t is rows 640·t … of it. -/
theorem ownBlk_apply (c : Dev nD) (t : Fin cfg1.N) (p : Fin 640) (k : Fin 128) (r : Fin 10240)
    (hr : r.val = 640 * t.val + p.val) : ownBlk V c t (ix2 p k) = own V c (ix2 r k) := by
  obtain ⟨-, -, -, -, e0, e1, -⟩ := block_index t
  show iblk1 (F := Ideal) V c 2 t (ix2 p k) = _
  unfold iblk1
  rw [View.read_apply]
  show V c main_v22 _ = V c main_v22 _
  congr 1
  funext a
  apply Fin.ext
  match a with
  | ⟨0, _⟩ => show win1_2.index t (0 : Fin 2) * 640 + 1 * p.val = r.val; rw [e0, hr]; omega
  | ⟨1, _⟩ => show win1_2.index t (1 : Fin 2) * 128 + 1 * k.val = k.val; rw [e1]; omega

/-- The weight matrix's block is the weight matrix. -/
theorem wtBlk_apply (c : Dev nD) (t : Fin cfg1.N) (k : Fin 128) (q : Fin 128) :
    wtBlk V c t (ix2 k q) = wt V c (ix2 k q) := by
  obtain ⟨-, -, -, -, -, -, e0, e1, -⟩ := block_index t
  show iblk1 (F := Ideal) V c 3 t (ix2 k q) = _
  unfold iblk1
  rw [View.read_apply]
  show V c main_v24 _ = V c main_v24 _
  congr 1
  funext a
  apply Fin.ext
  match a with
  | ⟨0, _⟩ => show win1_3.index t (0 : Fin 2) * 128 + 1 * k.val = k.val; rw [e0]; omega
  | ⟨1, _⟩ => show win1_3.index t (1 : Fin 2) * 128 + 1 * q.val = q.val; rw [e1]; omega

/-- The payload of point t's blocks at element (p, q) is the layer's value at row 640·t + p, column q. -/
theorem block_value (c : Dev nD) (t : Fin cfg1.N) (p : Fin 640) (q : Fin 128) (r : Fin 10240) (s : Fin 128)
    (hr : r.val = 640 * t.val + p.val) (hs : s.val = q.val) :
    k1_pay1 (F := Ideal) (tblBlk V c t) (featBlk V c t) (ownBlk V c t) (wtBlk V c t) (ix2 p q) = layerAt V c r s := by
  obtain rfl : s = q := Fin.ext hs
  refine (payload_apply (tblBlk V c t) (featBlk V c t) (ownBlk V c t) (wtBlk V c t) p s).trans ?_
  unfold layerAt
  refine Finset.sum_congr rfl fun k _ => ?_
  rw [ownBlk_apply V c t p k r hr, wtBlk_apply V c t k s]
  refine congrArg (fun z => (own V c (ix2 r k) + z) * wt V c (ix2 k s)) ?_
  refine Finset.sum_congr rfl fun u _ => ?_
  rw [tblBlk_apply V c t p u r hr, featBlk_apply V c t u k]

/-- WHAT POINT t WRITES BACK is block t of the layer's value over the whole arrays. -/
theorem flushed_eq (c : Dev nD) (t : Fin cfg1.N) :
    (dat1 (F := Ideal) V c).flushed 4 t = ((cfg1.win 4).blk t).view.read (Elt Ideal) (layerArr V c) := by
  show (cfg1.win 4).cut (grid1.coords t) ((dat1 (F := Ideal) V c).after 4 t) = _
  rw [after1_4]
  unfold out1_4
  rw [View.canon_unit_zero zero_offsets]
  simp only [View.ld_unit_zero (S := S640x10240) zero_offsets, View.ld_unit_zero (S := S10240x128) zero_offsets,
    View.ld_unit_zero (S := S640x128) zero_offsets, View.ld_unit_zero (S := S128x128) zero_offsets]
  obtain ⟨-, -, -, -, -, -, -, -, e0, e1⟩ := block_index t
  funext j
  obtain ⟨p, q, rfl⟩ : ∃ (p : Fin 640) (q : Fin 128), j = ix2 p q := ⟨j 0, j 1, eq_ix2 j⟩
  rw [View.read_apply]
  show k1_pay1 (F := Ideal) (tblBlk V c t) (featBlk V c t) (ownBlk V c t) (wtBlk V c t) (ix2 p q)
    = layerAt V c ((((cfg1.win 4).blk t).view.emb (ix2 p q)) 0) ((((cfg1.win 4).blk t).view.emb (ix2 p q)) 1)
  refine block_value V c t p q _ _ ?_ ?_
  · show win1_4.index t (0 : Fin 2) * 640 + 1 * p.val = 640 * t.val + p.val; rw [e0]; omega
  · show win1_4.index t (1 : Fin 2) * 128 + 1 * q.val = q.val; rw [e1]; omega

/-- An index of the result array is in point t's block iff each coordinate is in the block's range on its axis. -/
theorem mem_blk (t : Fin cfg1.N) (i : S10240x128.Idx) :
    i ∈ ((cfg1.win 4).blk t).view.set ↔ ∀ a : Fin 2, win1_4.index t a * S640x128.size a ≤ (i a).val ∧ (i a).val < win1_4.index t a * S640x128.size a + S640x128.size a := by
  show i ∈ ((View.whole main_v25).slice (win1_4.rect t)).set ↔ _
  rw [View.set_slice_whole, Rect.mem_set_unit]
  exact Iff.rfl

/-- Every row of the result is in some point's block: row v in that of point v / 640. -/
theorem covered (i : S10240x128.Idx) :
    ∃ t : Fin cfg1.N, (cfg1.win 4).flush t = true ∧ i ∈ ((cfg1.win 4).blk t).view.set := by
  have hi0 : (i 0).val < 10240 := (i 0).isLt
  have hi1 : (i 1).val < 128 := (i 1).isLt
  have hN : cfg1.N = 16 := N_1
  obtain ⟨t, ht⟩ : ∃ t : Fin cfg1.N, t.val = (i 0).val / 640 := ⟨⟨(i 0).val / 640, by rw [hN]; omega⟩, rfl⟩
  obtain ⟨-, -, -, -, -, -, -, -, e0, e1⟩ := block_index t
  refine ⟨t, flush1_4 t, ?_⟩
  rw [mem_blk]
  intro a
  match a with
  | ⟨0, _⟩ => show win1_4.index t (0 : Fin 2) * 640 ≤ (i 0).val ∧ (i 0).val < win1_4.index t (0 : Fin 2) * 640 + 640; rw [e0, ht]; omega
  | ⟨1, _⟩ => show win1_4.index t (1 : Fin 2) * 128 ≤ (i 1).val ∧ (i 1).val < win1_4.index t (1 : Fin 2) * 128 + 128; rw [e1]; omega

/-- THE RESULT ARRAY after the call is the layer's value over the whole arrays. -/
theorem res_eq (c : Dev nD) : res V c = layerArr V c :=
  (dat1 (F := Ideal) V c).arrAt_eq_of_cover 4 (layerArr V c) (fun t _ => flushed_eq V c t) covered

theorem value (c : Dev nD) (v : Fin 10240) (q : Fin 128) :
    res V c (ix2 v q)
      = ∑ k : Fin 128, (own V c (ix2 v k) + ∑ u : Fin 10240, tbl V c (ix2 v u) * feat V c (ix2 u k)) * wt V c (ix2 k q) :=
  congrFun (res_eq V c) (ix2 v q)

end Cert.KernelIdeal.Region1

end
-- ==== Proof.Region2.lean ====
/-
  What pallas_call 2 leaves in its result array, read at an element.

  The call walks 16 grid points; point t takes rows 640·t … 640·t + 639 of the table and of the own-feature array,
  the whole feature array and the whole weight matrix, and writes rows 640·t … 640·t + 639 of the result. Its body is
  two matrix products into zero accumulators with an addition between them, so element (p, q) of the block it
  writes is  ∑ k, (own p k + ∑ u, table p u · feat u k) · weight k q  over the point's blocks. Every row of the
  result lies in exactly one point's block, so the result array as a whole is that formula over the whole arrays.
-/
import proofs.«409665_j60078002536566_1_alg».proof.Proof.Gen.KernelIdeal.Frame
import Idealize.ShloMosaic.Lib.Pipeline.Value
import Idealize.ShloMosaic.Lib.ValueIdx
import Idealize.ShloMosaic.PureOps.Ideal.Laws

set_option maxRecDepth 16384

noncomputable section

namespace Cert.KernelIdeal.Region2

open Cert.KernelIdeal Cert.KernelIdeal.Gen
open Idealize.ShloMosaic Idealize.ShloMosaic.TcCoe Idealize.ShloMosaic.ValueIdx Idealize.SL.Sem
open Idealize.ShloMosaic.Pipeline (Dat Cfg Window)

-- the TensorCore's buffer contents when the call is entered
variable (V : (c : Dev nD) → (b : Ref sig .tc) → Buf (Elt Ideal) ((c : Thread nD τ).loc b))

/-- The edge-count table, the feature array (the matrix product's operand), the own-feature array (the addend), the
    weight matrix, as the call finds them; and the result array as the call leaves it. -/
abbrev tbl (c : Dev nD) : FVec Ideal S10240x10240 .bf16 := V c main_v16
abbrev feat (c : Dev nD) : FVec Ideal S10240x128 .bf16 := V c main_v26
abbrev own (c : Dev nD) : FVec Ideal S10240x128 .f32 := V c main_v25
abbrev wt (c : Dev nD) : FVec Ideal S128x64 .bf16 := V c main_v27
abbrev res (c : Dev nD) : FVec Ideal S10240x64 .f32 := (dat2 (F := Ideal) V c).arrAt 4 cfg2.N

/-! ## The two matrix products' operand indices

For a product with the contraction on the left operand's second axis and the right operand's first, the left
operand is read at (row of the result, contraction index) and the right at (contraction index, column of the
result). One lemma per operand and axis, for the table-by-features product and for the product by the weights. -/

theorem agg_lhs_row (i : S640x128.Idx) (r : dot_S640x10240_S10240x128_S640x128_1_0_0_1_n_n.contr.Idx) :
    (dot_S640x10240_S10240x128_S640x128_1_0_0_1_n_n.lhsIdx i r 0).val = (i 0).val := by
  unfold DotDims.lhsIdx
  rw [dif_neg (show ¬(0 : Fin S640x10240.rank) ∈ dot_S640x10240_S10240x128_S640x128_1_0_0_1_n_n.lhsBatch by decide), dif_pos (show (0 : Fin S640x10240.rank) ∈ dot_S640x10240_S10240x128_S640x128_1_0_0_1_n_n.lhsNonContracting by decide)]
  rfl
theorem agg_lhs_col (i : S640x128.Idx) (r : dot_S640x10240_S10240x128_S640x128_1_0_0_1_n_n.contr.Idx) :
    (dot_S640x10240_S10240x128_S640x128_1_0_0_1_n_n.lhsIdx i r 1).val = (r ⟨0, by decide⟩).val :=
  dot_S640x10240_S10240x128_S640x128_1_0_0_1_n_n.lhsIdx_val_of_single rfl i r
theorem agg_rhs_row (i : S640x128.Idx) (r : dot_S640x10240_S10240x128_S640x128_1_0_0_1_n_n.contr.Idx) :
    (dot_S640x10240_S10240x128_S640x128_1_0_0_1_n_n.rhsIdx i r 0).val = (r ⟨0, by decide⟩).val :=
  dot_S640x10240_S10240x128_S640x128_1_0_0_1_n_n.rhsIdx_val_of_single rfl i r
theorem agg_rhs_col (i : S640x128.Idx) (r : dot_S640x10240_S10240x128_S640x128_1_0_0_1_n_n.contr.Idx) :
    (dot_S640x10240_S10240x128_S640x128_1_0_0_1_n_n.rhsIdx i r 1).val = (i 1).val := by
  unfold DotDims.rhsIdx
  rw [dif_neg (show ¬(1 : Fin S10240x128.rank) ∈ dot_S640x10240_S10240x128_S640x128_1_0_0_1_n_n.rhsBatch by decide), dif_pos (show (1 : Fin S10240x128.rank) ∈ dot_S640x10240_S10240x128_S640x128_1_0_0_1_n_n.rhsNonContracting by decide)]
  rfl

theorem proj_lhs_row (i : S640x64.Idx) (r : dot_S640x128_S128x64_S640x64_1_0_0_1_n_n.contr.Idx) :
    (dot_S640x128_S128x64_S640x64_1_0_0_1_n_n.lhsIdx i r 0).val = (i 0).val := by
  unfold DotDims.lhsIdx
  rw [dif_neg (show ¬(0 : Fin S640x128.rank) ∈ dot_S640x128_S128x64_S640x64_1_0_0_1_n_n.lhsBatch by decide), dif_pos (show (0 : Fin S640x128.rank) ∈ dot_S640x128_S128x64_S640x64_1_0_0_1_n_n.lhsNonContracting by decide)]
  rfl
theorem proj_lhs_col (i : S640x64.Idx) (r : dot_S640x128_S128x64_S640x64_1_0_0_1_n_n.contr.Idx) :
    (dot_S640x128_S128x64_S640x64_1_0_0_1_n_n.lhsIdx i r 1).val = (r ⟨0, by decide⟩).val :=
  dot_S640x128_S128x64_S640x64_1_0_0_1_n_n.lhsIdx_val_of_single rfl i r
theorem proj_rhs_row (i : S640x64.Idx) (r : dot_S640x128_S128x64_S640x64_1_0_0_1_n_n.contr.Idx) :
    (dot_S640x128_S128x64_S640x64_1_0_0_1_n_n.rhsIdx i r 0).val = (r ⟨0, by decide⟩).val :=
  dot_S640x128_S128x64_S640x64_1_0_0_1_n_n.rhsIdx_val_of_single rfl i r
theorem proj_rhs_col (i : S640x64.Idx) (r : dot_S640x128_S128x64_S640x64_1_0_0_1_n_n.contr.Idx) :
    (dot_S640x128_S128x64_S640x64_1_0_0_1_n_n.rhsIdx i r 1).val = (i 1).val := by
  unfold DotDims.rhsIdx
  rw [dif_neg (show ¬(1 : Fin S128x64.rank) ∈ dot_S640x128_S128x64_S640x64_1_0_0_1_n_n.rhsBatch by decide), dif_pos (show (1 : Fin S128x64.rank) ∈ dot_S640x128_S128x64_S640x64_1_0_0_1_n_n.rhsNonContracting by decide)]
  rfl

/-! ## The two products at an element -/

/-- The table-by-features product into a zero accumulator: element (p, k) is the sum over the 10240 columns u of
    the table block of  table p u · feat u k. -/
theorem agg_apply (x0 : FVec Ideal S640x10240 .bf16) (x1 : FVec Ideal S10240x128 .bf16) (p : Fin 640) (k : Fin 128) :
    matmul dot_S640x10240_S10240x128_S640x128_1_0_0_1_n_n none x0 x1 (constant (F := Ideal) S640x128 .f32 0x00000000#32) (ix2 p k)
      = ∑ u : Fin 10240, x0 (ix2 p u) * x1 (ix2 u k) := by
  simp only [matmul]
  rw [Ideal.matmul_constant_zero_apply, ← Equiv.sum_comp (ValueIdx.contrEquiv1 dot_S640x10240_S10240x128_S640x128_1_0_0_1_n_n 10240 rfl rfl).symm]
  refine Finset.sum_congr rfl fun u _ => ?_
  have hu := ValueIdx.contrEquiv1_symm_val dot_S640x10240_S10240x128_S640x128_1_0_0_1_n_n 10240 rfl rfl u
  have el : dot_S640x10240_S10240x128_S640x128_1_0_0_1_n_n.lhsIdx (ix2 p k) ((ValueIdx.contrEquiv1 dot_S640x10240_S10240x128_S640x128_1_0_0_1_n_n 10240 rfl rfl).symm u) = ix2 p u := funext fun a => Fin.ext (by
    match a with
    | ⟨0, _⟩ => exact agg_lhs_row _ _
    | ⟨1, _⟩ => exact (agg_lhs_col _ _).trans hu)
  have er : dot_S640x10240_S10240x128_S640x128_1_0_0_1_n_n.rhsIdx (ix2 p k) ((ValueIdx.contrEquiv1 dot_S640x10240_S10240x128_S640x128_1_0_0_1_n_n 10240 rfl rfl).symm u) = ix2 u k := funext fun a => Fin.ext (by
    match a with
    | ⟨0, _⟩ => exact (agg_rhs_row _ _).trans hu
    | ⟨1, _⟩ => exact agg_rhs_col _ _)
  rw [el, er]

/-- The product by the weights into a zero accumulator: element (p, q) is the sum over the 128 features k of
    y p k · weight k q. -/
theorem proj_apply (y : FVec Ideal S640x128 .bf16) (x3 : FVec Ideal S128x64 .bf16) (p : Fin 640) (q : Fin 64) :
    matmul dot_S640x128_S128x64_S640x64_1_0_0_1_n_n none y x3 (constant (F := Ideal) S640x64 .f32 0x00000000#32) (ix2 p q)
      = ∑ k : Fin 128, y (ix2 p k) * x3 (ix2 k q) := by
  simp only [matmul]
  rw [Ideal.matmul_constant_zero_apply, ← Equiv.sum_comp (ValueIdx.contrEquiv1 dot_S640x128_S128x64_S640x64_1_0_0_1_n_n 128 rfl rfl).symm]
  refine Finset.sum_congr rfl fun k _ => ?_
  have hk := ValueIdx.contrEquiv1_symm_val dot_S640x128_S128x64_S640x64_1_0_0_1_n_n 128 rfl rfl k
  have el : dot_S640x128_S128x64_S640x64_1_0_0_1_n_n.lhsIdx (ix2 p q) ((ValueIdx.contrEquiv1 dot_S640x128_S128x64_S640x64_1_0_0_1_n_n 128 rfl rfl).symm k) = ix2 p k := funext fun a => Fin.ext (by
    match a with
    | ⟨0, _⟩ => exact proj_lhs_row _ _
    | ⟨1, _⟩ => exact (proj_lhs_col _ _).trans hk)
  have er : dot_S640x128_S128x64_S640x64_1_0_0_1_n_n.rhsIdx (ix2 p q) ((ValueIdx.contrEquiv1 dot_S640x128_S128x64_S640x64_1_0_0_1_n_n 128 rfl rfl).symm k) = ix2 k q := funext fun a => Fin.ext (by
    match a with
    | ⟨0, _⟩ => exact (proj_rhs_row _ _).trans hk
    | ⟨1, _⟩ => exact proj_rhs_col _ _)
  rw [el, er]

/-! ## The body's payload at an element -/

/-- Element (p, q) of what one grid point stores, from the point's four blocks: the shape casts are to the same
    shape, the narrowing between the two products is the identity on extended reals, and each product is its sum. -/
theorem payload_apply (x0 : FVec Ideal S640x10240 .bf16) (x1 : FVec Ideal S10240x128 .bf16) (x2 : FVec Ideal S640x128 .f32)
    (x3 : FVec Ideal S128x64 .bf16) (p : Fin 640) (q : Fin 64) :
    k2_pay1 x0 x1 x2 x3 (ix2 p q)
      = ∑ k : Fin 128, (x2 (ix2 p k) + ∑ u : Fin 10240, x0 (ix2 p u) * x1 (ix2 u k)) * x3 (ix2 k q) := by
  unfold k2_pay1
  simp only [shapeCast_self]
  refine (proj_apply _ _ p q).trans ?_
  refine Finset.sum_congr rfl fun k _ => ?_
  rw [truncf_apply, addf_apply, agg_apply]

/-! ## From the blocks to the arrays -/

theorem zeroOffsets : (![0, 0] : Fin 2 → Nat) = fun _ => 0 := funext fun a => by fin_cases a <;> rfl

/-- The printed index maps, decided over the 16 grid points: the table, the own-feature array and the result move
    down one block of rows per point and stay at column block 0; the feature array and the weights stay whole. -/
theorem blockIndex : ∀ t : Fin cfg2.N,
    win2_0.index t (0 : Fin 2) = t.val ∧ win2_0.index t (1 : Fin 2) = 0
    ∧ win2_1.index t (0 : Fin 2) = 0 ∧ win2_1.index t (1 : Fin 2) = 0
    ∧ win2_2.index t (0 : Fin 2) = t.val ∧ win2_2.index t (1 : Fin 2) = 0
    ∧ win2_3.index t (0 : Fin 2) = 0 ∧ win2_3.index t (1 : Fin 2) = 0
    ∧ win2_4.index t (0 : Fin 2) = t.val ∧ win2_4.index t (1 : Fin 2) = 0
    ∧ t.val < 16 :=
  (by decide +kernel : ∀ t : Fin grid2.N, _)

/-- Row p of point t's table block is row 640·t + p of the table. -/
theorem tbl_block (c : Dev nD) (t : Fin cfg2.N) (p : Fin 640) (u : Fin 10240) (r : Fin 10240) (hr : r.val = 640 * t.val + p.val) :
    (iblk2 V c 0 t : FVec Ideal S640x10240 .bf16) (ix2 p u) = tbl V c (ix2 r u) := by
  obtain ⟨h0, h1, -⟩ := blockIndex t
  unfold iblk2
  rw [View.read_apply]
  show V c main_v16 _ = V c main_v16 _
  congr 1
  funext a
  apply Fin.ext
  match a with
  | ⟨0, _⟩ => show win2_0.index t (0 : Fin 2) * 640 + 1 * p.val = r.val; rw [h0, hr]; omega
  | ⟨1, _⟩ => show win2_0.index t (1 : Fin 2) * 10240 + 1 * u.val = u.val; rw [h1]; omega

/-- Every point's feature block is the whole feature array. -/
theorem feat_block (c : Dev nD) (t : Fin cfg2.N) (u : Fin 10240) (k : Fin 128) :
    (iblk2 V c 1 t : FVec Ideal S10240x128 .bf16) (ix2 u k) = feat V c (ix2 u k) := by
  obtain ⟨-, -, h0, h1, -⟩ := blockIndex t
  unfold iblk2
  rw [View.read_apply]
  show V c main_v26 _ = V c main_v26 _
  congr 1
  funext a
  apply Fin.ext
  match a with
  | ⟨0, _⟩ => show win2_1.index t (0 : Fin 2) * 10240 + 1 * u.val = u.val; rw [h0]; omega
  | ⟨1, _⟩ => show win2_1.index t (1 : Fin 2) * 128 + 1 * k.val = k.val; rw [h1]; omega

/-- Row p of point t's own-feature block is row 640·t + p of the own-feature array. -/
theorem own_block (c : Dev nD) (t : Fin cfg2.N) (p : Fin 640) (k : Fin 128) (r : Fin 10240) (hr : r.val = 640 * t.val + p.val) :
    (iblk2 V c 2 t : FVec Ideal S640x128 .f32) (ix2 p k) = own V c (ix2 r k) := by
  obtain ⟨-, -, -, -, h0, h1, -⟩ := blockIndex t
  unfold iblk2
  rw [View.read_apply]
  show V c main_v25 _ = V c main_v25 _
  congr 1
  funext a
  apply Fin.ext
  match a with
  | ⟨0, _⟩ => show win2_2.index t (0 : Fin 2) * 640 + 1 * p.val = r.val; rw [h0, hr]; omega
  | ⟨1, _⟩ => show win2_2.index t (1 : Fin 2) * 128 + 1 * k.val = k.val; rw [h1]; omega

/-- Every point's weight block is the whole weight matrix. -/
theorem wt_block (c : Dev nD) (t : Fin cfg2.N) (k : Fin 128) (q : Fin 64) :
    (iblk2 V c 3 t : FVec Ideal S128x64 .bf16) (ix2 k q) = wt V c (ix2 k q) := by
  obtain ⟨-, -, -, -, -, -, h0, h1, -⟩ := blockIndex t
  unfold iblk2
  rw [View.read_apply]
  show V c main_v27 _ = V c main_v27 _
  congr 1
  funext a
  apply Fin.ext
  match a with
  | ⟨0, _⟩ => show win2_3.index t (0 : Fin 2) * 128 + 1 * k.val = k.val; rw [h0]; omega
  | ⟨1, _⟩ => show win2_3.index t (1 : Fin 2) * 64 + 1 * q.val = q.val; rw [h1]; omega

/-- Row r, column q of the claimed result: the own features of row r plus the table's row r times the features,
    times the weights' column q. -/
def rowValue (c : Dev nD) (r : Fin 10240) (q : Fin 64) : EReal :=
  ∑ k : Fin 128, (own V c (ix2 r k) + ∑ u : Fin 10240, tbl V c (ix2 r u) * feat V c (ix2 u k)) * wt V c (ix2 k q)

/-- The claimed result as one array. -/
def wholeValue (c : Dev nD) : FVec Ideal S10240x64 .f32 := fun i => rowValue V c (i 0) (i 1)

/-- Element (p, q) of what point t stores is the claimed value at row 640·t + p. -/
theorem point_value (c : Dev nD) (t : Fin cfg2.N) (p : Fin 640) (q : Fin 64) (r : Fin 10240) (hr : r.val = 640 * t.val + p.val) :
    k2_pay1 (F := Ideal) (iblk2 V c 0 t) (iblk2 V c 1 t) (iblk2 V c 2 t) (iblk2 V c 3 t) (ix2 p q) = rowValue V c r q := by
  refine (payload_apply _ _ _ _ p q).trans ?_
  unfold rowValue
  refine Finset.sum_congr rfl fun k _ => ?_
  exact congrArg₂ (· * ·)
    (congrArg₂ (· + ·) (own_block V c t p k r hr)
      (Finset.sum_congr rfl fun u _ => congrArg₂ (· * ·) (tbl_block V c t p u r hr) (feat_block V c t u k)))
    (wt_block V c t k q)

/-- The same at an index j of the block and an index i of the array that name the same element. -/
theorem point_value_idx (c : Dev nD) (t : Fin cfg2.N) (j : S640x64.Idx) (i : S10240x64.Idx)
    (h0 : (i 0).val = 640 * t.val + (j 0).val) (h1 : (i 1).val = (j 1).val) :
    k2_pay1 (F := Ideal) (iblk2 V c 0 t) (iblk2 V c 1 t) (iblk2 V c 2 t) (iblk2 V c 3 t) j = wholeValue V c i := by
  obtain ⟨p, q, rfl⟩ : ∃ (p : Fin 640) (q : Fin 64), j = ix2 p q := ⟨j 0, j 1, eq_ix2 j⟩
  obtain ⟨r, s, rfl⟩ : ∃ (r : Fin 10240) (s : Fin 64), i = ix2 r s := ⟨i 0, i 1, eq_ix2 i⟩
  obtain rfl : q = s := Fin.ext h1.symm
  exact point_value V c t p q r h0

/-- WHAT POINT t WRITES BACK is block t of the claimed result. -/
theorem flushed_eq (c : Dev nD) (t : Fin cfg2.N) :
    (dat2 (F := Ideal) V c).flushed 4 t = ((cfg2.win 4).blk t).view.read (Elt Ideal) (wholeValue V c) := by
  show (cfg2.win 4).cut (grid2.coords t) ((dat2 (F := Ideal) V c).after 4 t) = _
  rw [after2_4]
  unfold out2_4
  rw [View.canon_unit_zero zeroOffsets]
  simp only [View.ld_unit_zero (S := S640x10240) zeroOffsets, View.ld_unit_zero (S := S10240x128) zeroOffsets, View.ld_unit_zero (S := S640x128) zeroOffsets, View.ld_unit_zero (S := S128x64) zeroOffsets]
  obtain ⟨-, -, -, -, -, -, -, -, h0, h1, -⟩ := blockIndex t
  funext j
  show k2_pay1 (F := Ideal) (iblk2 V c 0 t) (iblk2 V c 1 t) (iblk2 V c 2 t) (iblk2 V c 3 t) j = wholeValue V c (((cfg2.win 4).blk t).view.emb j)
  refine point_value_idx V c t j _ ?_ ?_
  · show win2_4.index t (0 : Fin 2) * 640 + 1 * (j 0).val = 640 * t.val + (j 0).val
    rw [h0]; omega
  · show win2_4.index t (1 : Fin 2) * 64 + 1 * (j 1).val = (j 1).val
    rw [h1]; omega

/-- An index of the result array is in point t's block iff each coordinate is in the block's range on its axis. -/
theorem mem_block (t : Fin cfg2.N) (i : S10240x64.Idx) :
    i ∈ ((cfg2.win 4).blk t).view.set ↔ ∀ a : Fin 2, win2_4.index t a * S640x64.size a ≤ (i a).val ∧ (i a).val < win2_4.index t a * S640x64.size a + S640x64.size a := by
  show i ∈ ((View.whole main_v28).slice (win2_4.rect t)).set ↔ _
  rw [View.set_slice_whole, Rect.mem_set_unit]
  exact Iff.rfl

theorem pointCount : cfg2.N = 16 := by decide +kernel

/-- Row v of the result lies in the block of point v / 640. -/
theorem covered (i : S10240x64.Idx) : ∃ t : Fin cfg2.N, (cfg2.win 4).flush t = true ∧ i ∈ ((cfg2.win 4).blk t).view.set := by
  have hi0 : (i 0).val < 10240 := (i 0).isLt
  have hi1 : (i 1).val < 64 := (i 1).isLt
  refine ⟨⟨(i 0).val / 640, by rw [pointCount]; omega⟩, flush2_4 _, ?_⟩
  rw [mem_block]
  obtain ⟨-, -, -, -, -, -, -, -, h0, h1, -⟩ := blockIndex ⟨(i 0).val / 640, by rw [pointCount]; omega⟩
  intro a
  match a with
  | ⟨0, _⟩ =>
    show win2_4.index _ (0 : Fin 2) * 640 ≤ (i 0).val ∧ (i 0).val < win2_4.index _ (0 : Fin 2) * 640 + 640
    rw [h0]; show (i 0).val / 640 * 640 ≤ (i 0).val ∧ (i 0).val < (i 0).val / 640 * 640 + 640; omega
  | ⟨1, _⟩ =>
    show win2_4.index _ (1 : Fin 2) * 64 ≤ (i 1).val ∧ (i 1).val < win2_4.index _ (1 : Fin 2) * 64 + 64
    rw [h1]; omega

/-- THE RESULT ARRAY after the call is the claimed value everywhere. -/
theorem result_eq (c : Dev nD) : res V c = wholeValue V c :=
  (dat2 (F := Ideal) V c).arrAt_eq_of_cover 4 (wholeValue V c) (fun t _ => flushed_eq V c t) covered

theorem value (c : Dev nD) (v : Fin 10240) (q : Fin 64) :
    res V c (ix2 v q)
      = ∑ k : Fin 128, (own V c (ix2 v k) + ∑ u : Fin 10240, tbl V c (ix2 v u) * feat V c (ix2 u k)) * wt V c (ix2 k q) :=
  congrFun (result_eq V c) (ix2 v q)

end Cert.KernelIdeal.Region2

end
-- ==== Proof.KernelChain.lean ====
/-
  The contents of the kernel program's buffers at each boundary between its host stretches and its three calls,
  read back to the inputs.
-/
import proofs.«409665_j60078002536566_1_alg».proof.Proof.Gen.KernelIdeal.Frame
import proofs.«409665_j60078002536566_1_alg».proof.Proof.KernelHost
import proofs.«409665_j60078002536566_1_alg».proof.Proof.Region0
import proofs.«409665_j60078002536566_1_alg».proof.Proof.Region1
import proofs.«409665_j60078002536566_1_alg».proof.Proof.Region2
import Idealize.ShloMosaic.Lib.StableHlo.Run
import Idealize.ShloMosaic.PureOps.Ideal

set_option maxRecDepth 16384

noncomputable section

namespace Cert.KernelIdeal.Chain

open Cert.KernelIdeal Cert.KernelIdeal.Gen
open Idealize.ShloMosaic Idealize.ShloMosaic.TcCoe Idealize.ShloMosaic.ValueIdx Idealize.SL.Sem Idealize.ShloMosaic.StableHlo
open Idealize.ShloMosaic.Pipeline (Dat Cfg Window)

variable (m : (ℓ : Loc nD τ sig) → Buf (Elt Ideal) ℓ) (ρ : Dev nD → PrngReg)

/-- The inputs at launch: features, the three weight matrices, the two edge lists. -/
abbrev feats (c : Dev nD) : FVec Ideal S10000x128 .f32 := m ((c : Thread nD τ).loc main_arg0)
abbrev wts0 (c : Dev nD) : FVec Ideal S128x128 .f32 := m ((c : Thread nD τ).loc main_arg1)
abbrev wts1 (c : Dev nD) : FVec Ideal S128x128 .f32 := m ((c : Thread nD τ).loc main_arg2)
abbrev wts2 (c : Dev nD) : FVec Ideal S128x64 .f32 := m ((c : Thread nD τ).loc main_arg3)
abbrev srcs (c : Dev nD) : IVec S640000 32 := m ((c : Thread nD τ).loc main_arg4)
abbrev dsts (c : Dev nD) : IVec S640000 32 := m ((c : Thread nD τ).loc main_arg5)

/-! ## Before the first call -/

set_option maxHeartbeats 2000000 in
/-- The table the first call is entered with is the edge-count table of the two edge lists (narrowed, which on the
    extended reals changes nothing). -/
theorem entry0_tbl (c : Dev nD) :
    W1 m ρ c (Proc.devRef .tc main_v16) = truncf .bf16 (HostValue.tableOf (srcs m c) (dsts m c)) bitsLt_bf16_f32 := by
  show StableHlo.after hostOps0 (W0 m ρ c) (Proc.devRef .tc main_v16) = _
  after_results_simp
  repeat (first
    | rw [nullary_result] | rw [unary_result] | rw [binary_result] | rw [ternary_result]
    | (rw [nullary_result_ne]; rotate_left; decide)
    | (rw [unary_result_ne]; rotate_left; decide)
    | (rw [binary_result_ne]; rotate_left; decide)
    | (rw [ternary_result_ne]; rotate_left; decide))
  rfl

/-- The own-feature array the first call is entered with is the padded feature array. -/
theorem entry0_own (c : Dev nD) : W1 m ρ c (Proc.devRef .tc main_v19) = HostValue.padOf (feats m c) := by
  show StableHlo.after hostOps0 (W0 m ρ c) (Proc.devRef .tc main_v19) = _
  after_results
  rfl

/-- Its matrix operand is the same array narrowed. -/
theorem entry0_feat (c : Dev nD) :
    W1 m ρ c (Proc.devRef .tc main_v20) = truncf .bf16 (HostValue.padOf (feats m c)) bitsLt_bf16_f32 := by
  show StableHlo.after hostOps0 (W0 m ρ c) (Proc.devRef .tc main_v20) = _
  after_results
  rfl

/-- Its weights are the first weight matrix narrowed. -/
theorem entry0_wt (c : Dev nD) : W1 m ρ c (Proc.devRef .tc main_v21) = truncf .bf16 (wts0 m c) bitsLt_bf16_f32 := by
  show StableHlo.after hostOps0 (W0 m ρ c) (Proc.devRef .tc main_v21) = _
  after_results

/-- The second and third weight matrices are untouched before the first call. -/
theorem entry0_arg2 (c : Dev nD) : W1 m ρ c (Proc.devRef .tc main_arg2) = wts1 m c := by
  show StableHlo.after hostOps0 (W0 m ρ c) (Proc.devRef .tc main_arg2) = _
  after_results_simp
theorem entry0_arg3 (c : Dev nD) : W1 m ρ c (Proc.devRef .tc main_arg3) = wts2 m c := by
  show StableHlo.after hostOps0 (W0 m ρ c) (Proc.devRef .tc main_arg3) = _
  after_results_simp

/-! ## Across a call: an input window's array is left as found, the result array holds the call's value -/

theorem pass0 (c : Dev nD) (w : Fin cfg0.W) (hin : (cfg0.win w).isOut = false) :
    W2 m ρ c (Proc.devRef .tc (Pipeline.arrRef spec0 w)) = W1 m ρ c (Proc.devRef .tc (Pipeline.arrRef spec0 w)) :=
  (W2_arr m ρ c w).trans (((dat0 (V1 m ρ) c).arrAt_in w hin cfg0.N).trans (A_eq0 (V1 m ρ) c w))
theorem pass1 (c : Dev nD) (w : Fin cfg1.W) (hin : (cfg1.win w).isOut = false) :
    W4 m ρ c (Proc.devRef .tc (Pipeline.arrRef spec1 w)) = W3 m ρ c (Proc.devRef .tc (Pipeline.arrRef spec1 w)) :=
  (W4_arr m ρ c w).trans (((dat1 (V3 m ρ) c).arrAt_in w hin cfg1.N).trans (A_eq1 (V3 m ρ) c w))
theorem pass2 (c : Dev nD) (w : Fin cfg2.W) (hin : (cfg2.win w).isOut = false) :
    W6 m ρ c (Proc.devRef .tc (Pipeline.arrRef spec2 w)) = W5 m ρ c (Proc.devRef .tc (Pipeline.arrRef spec2 w)) :=
  (W6_arr m ρ c w).trans (((dat2 (V5 m ρ) c).arrAt_in w hin cfg2.N).trans (A_eq2 (V5 m ρ) c w))

theorem exit0_res (c : Dev nD) : W2 m ρ c (Proc.devRef .tc main_v22) = Region0.res (V1 m ρ) c := W2_arr m ρ c 4
theorem exit1_res (c : Dev nD) : W4 m ρ c (Proc.devRef .tc main_v25) = Region1.res (V3 m ρ) c := W4_arr m ρ c 4
theorem exit2_res (c : Dev nD) : W6 m ρ c (Proc.devRef .tc main_v28) = Region2.res (V5 m ρ) c := W6_arr m ρ c 4

/-! ## Between the calls -/

theorem entry1_tbl (c : Dev nD) : W3 m ρ c (Proc.devRef .tc main_v16) = W1 m ρ c (Proc.devRef .tc main_v16) := by
  refine Eq.trans ?_ (pass0 m ρ c 0 rfl)
  show StableHlo.after hostOps1 (W2 m ρ c) (Proc.devRef .tc main_v16) = _
  after_results
theorem entry1_own (c : Dev nD) : W3 m ρ c (Proc.devRef .tc main_v22) = W2 m ρ c (Proc.devRef .tc main_v22) := by
  show StableHlo.after hostOps1 (W2 m ρ c) (Proc.devRef .tc main_v22) = _
  after_results
theorem entry1_feat (c : Dev nD) :
    W3 m ρ c (Proc.devRef .tc main_v23)
      = (truncf .bf16 (W2 m ρ c (Proc.devRef .tc main_v22) : FVec Ideal S10240x128 .f32) bitsLt_bf16_f32 : FVec Ideal S10240x128 .bf16) := by
  show StableHlo.after hostOps1 (W2 m ρ c) (Proc.devRef .tc main_v23) = _
  after_results
theorem entry1_wt (c : Dev nD) : W3 m ρ c (Proc.devRef .tc main_v24) = truncf .bf16 (wts1 m c) bitsLt_bf16_f32 := by
  have h2 : W2 m ρ c (Proc.devRef .tc main_arg2) = wts1 m c :=
    (W2_of_ne m ρ c main_arg2 (by decide)).trans (entry0_arg2 m ρ c)
  rw [← h2]
  show StableHlo.after hostOps1 (W2 m ρ c) (Proc.devRef .tc main_v24) = _
  after_results
theorem entry1_arg3 (c : Dev nD) : W3 m ρ c (Proc.devRef .tc main_arg3) = wts2 m c := by
  refine Eq.trans ?_ ((W2_of_ne m ρ c main_arg3 (by decide)).trans (entry0_arg3 m ρ c))
  show StableHlo.after hostOps1 (W2 m ρ c) (Proc.devRef .tc main_arg3) = _
  after_results

theorem entry2_tbl (c : Dev nD) : W5 m ρ c (Proc.devRef .tc main_v16) = W1 m ρ c (Proc.devRef .tc main_v16) := by
  refine Eq.trans ?_ ((pass1 m ρ c 0 rfl).trans (entry1_tbl m ρ c))
  show StableHlo.after hostOps2 (W4 m ρ c) (Proc.devRef .tc main_v16) = _
  after_results
theorem entry2_own (c : Dev nD) : W5 m ρ c (Proc.devRef .tc main_v25) = W4 m ρ c (Proc.devRef .tc main_v25) := by
  show StableHlo.after hostOps2 (W4 m ρ c) (Proc.devRef .tc main_v25) = _
  after_results
theorem entry2_feat (c : Dev nD) :
    W5 m ρ c (Proc.devRef .tc main_v26)
      = (truncf .bf16 (W4 m ρ c (Proc.devRef .tc main_v25) : FVec Ideal S10240x128 .f32) bitsLt_bf16_f32 : FVec Ideal S10240x128 .bf16) := by
  show StableHlo.after hostOps2 (W4 m ρ c) (Proc.devRef .tc main_v26) = _
  after_results
theorem entry2_wt (c : Dev nD) : W5 m ρ c (Proc.devRef .tc main_v27) = truncf .bf16 (wts2 m c) bitsLt_bf16_f32 := by
  have h4 : W4 m ρ c (Proc.devRef .tc main_arg3) = wts2 m c :=
    (W4_of_ne m ρ c main_arg3 (by decide)).trans (entry1_arg3 m ρ c)
  rw [← h4]
  show StableHlo.after hostOps2 (W4 m ρ c) (Proc.devRef .tc main_v27) = _
  after_results

/-- After the last call the result is the first 10000 rows of the third call's result array. -/
theorem exit3_res (c : Dev nD) :
    W7 m ρ c (Proc.devRef .tc main_v29)
      = extractStridedSlice S10000x64 ![0, 0] (W6 m ρ c (Proc.devRef .tc main_v28)) slices_S10240x64_S10000x64_0_0 := by
  show StableHlo.after hostOps3 (W6 m ρ c) (Proc.devRef .tc main_v29) = _
  after_results

end Cert.KernelIdeal.Chain

end
-- ==== Proof.CountLaw.lean ====
/-
  The edge-count law: a layer written with the table of edge counts over the padded node range is the layer
  written with the edge list, on the first 10000 rows.

  The table entry `M v u` is the number of edges from `u` to `v`: a finite sum of ones. The extended reals
  are not a semiring (distributivity fails at infinities of opposite sign), so "a count times a row entry is
  that entry added up once per edge" is proved directly: a partial sum of ones is non-negative, and
  `(a + b) * x = a * x + b * x` does hold when `a` and `b` are non-negative, whatever `x` is (infinite or not).
  Induction over the finite set of edges then gives `(∑ 1) * x = ∑ x` with no finiteness assumption on `x`.

  With that, the table sum at node `v` is a double sum: over padded rows `u`, and over the edges into `v` whose
  source word reads `u`. Writing the inner condition as an `if`, swapping the two sums, and noting that each
  edge's source word names exactly one padded row (the word is a node number, so the clamp in `srcRow` does
  nothing) collapses the sum over `u`; what is left is the sum over the edges into `v` of the source row's
  entry, which is what arrives at `v` in the edge-list form.
-/
import proofs.«409665_j60078002536566_1_alg».proof.Proof.Spec
import Mathlib.Data.EReal.Operations
import Mathlib.Algebra.Order.BigOperators.Group.Finset

namespace Cert.Gin

/-- A sum of ones times `x` is `x` added up once per term: true for every extended real `x`, since the
    partial sums of ones are non-negative. -/
theorem sum_ones_mul {ι : Type} (S : Finset ι) (x : EReal) :
    (∑ _e ∈ S, (1 : EReal)) * x = ∑ _e ∈ S, x := by
  classical
  induction S using Finset.induction_on with
  | empty => simp
  | insert a S ha ih =>
    rw [Finset.sum_insert ha, Finset.sum_insert ha,
      EReal.right_distrib_of_nonneg zero_le_one (Finset.sum_nonneg (fun _ _ => zero_le_one)),
      one_mul, ih]

/-- An edge count times `x` is `x` summed over the counted edges. -/
theorem count_mul (src dst : Fin 640000 → BitVec 32) (v u : ℕ) (x : EReal) :
    count src dst v u * x
      = ∑ _e ∈ Finset.univ.filter
          (fun e : Fin 640000 => (dst e).toInt = (v : ℤ) ∧ (src e).toInt = (u : ℤ)), x := by
  unfold count
  exact sum_ones_mul _ x

/-- Where the source word is a node number, the padded row it names is the only row whose index it reads as. -/
theorem src_eq_iff (w : BitVec 32) (h0 : 0 ≤ w.toInt) (h1 : w.toInt < 10000) (u : Fin 10240) :
    w.toInt = (u.val : ℤ) ↔ up (srcRow w) = u := by
  have hlt : w.toInt.toNat < 10000 := by omega
  have hval : (up (srcRow w)).val = w.toInt.toNat := by
    simp only [up_val, srcRow]
    omega
  constructor
  · intro h
    apply Fin.ext
    rw [hval]
    omega
  · intro h
    rw [← h, hval]
    omega

/-- The counted edges from `u` to `v`, with the source condition moved into the summand. -/
theorem sum_count_filter (src dst : Fin 640000 → BitVec 32) (v u : ℕ) (x : EReal) :
    (∑ _e ∈ Finset.univ.filter
        (fun e : Fin 640000 => (dst e).toInt = (v : ℤ) ∧ (src e).toInt = (u : ℤ)), x)
      = ∑ e ∈ Finset.univ.filter (fun e : Fin 640000 => (dst e).toInt = (v : ℤ)),
          if (src e).toInt = (u : ℤ) then x else 0 := by
  rw [← Finset.filter_filter, Finset.sum_filter (fun e : Fin 640000 => (src e).toInt = (u : ℤ))]

/-- The table sum at node `v` is what arrives at `v` along the edge list. -/
theorem sum_count_mul_eq_agg (src dst : Fin 640000 → BitVec 32)
    (hs : ∀ e, 0 ≤ (src e).toInt ∧ (src e).toInt < 10000)
    (hp : Fin 10240 → Fin 128 → EReal) (h : Fin 10000 → Fin 128 → EReal)
    (hh : ∀ (v : Fin 10000) (k : Fin 128), hp (up v) k = h v k)
    (v : Fin 10000) (k : Fin 128) :
    (∑ u : Fin 10240, count src dst v.val u.val * hp u k) = agg src dst h v k := by
  unfold agg
  have h1 : ∀ u : Fin 10240, count src dst v.val u.val * hp u k
      = ∑ e ∈ Finset.univ.filter (fun e : Fin 640000 => (dst e).toInt = (v.val : ℤ)),
          if (src e).toInt = (u.val : ℤ) then hp u k else 0 := by
    intro u
    rw [count_mul, sum_count_filter]
  rw [Finset.sum_congr rfl (fun u _ => h1 u), Finset.sum_comm]
  apply Finset.sum_congr rfl
  intro e _
  have h2 : ∀ u : Fin 10240, (if (src e).toInt = (u.val : ℤ) then hp u k else 0)
      = if up (srcRow (src e)) = u then hp u k else 0 := by
    intro u
    by_cases hu : up (srcRow (src e)) = u
    · rw [if_pos hu, if_pos ((src_eq_iff (src e) (hs e).1 (hs e).2 u).2 hu)]
    · rw [if_neg hu, if_neg (fun hc => hu ((src_eq_iff (src e) (hs e).1 (hs e).2 u).1 hc))]
  rw [Finset.sum_congr rfl (fun u _ => h2 u), Finset.sum_ite_eq]
  simp only [Finset.mem_univ, if_true]
  exact hh _ k

theorem denseLayer_eq_layer {b : ℕ} (src dst : Fin 640000 → BitVec 32)
    (hs : ∀ e, 0 ≤ (src e).toInt ∧ (src e).toInt < 10000)
    (M : Fin 10240 → Fin 10240 → EReal)
    (hM : ∀ v u : Fin 10240, v.val < 10000 → M v u = count src dst v.val u.val)
    (hp : Fin 10240 → Fin 128 → EReal) (h : Fin 10000 → Fin 128 → EReal)
    (hh : ∀ (v : Fin 10000) (k : Fin 128), hp (up v) k = h v k)
    (W : Fin 128 → Fin b → EReal) (v : Fin 10000) (c : Fin b) :
    denseLayer M hp W (up v) c = layer src dst h W v c := by
  unfold denseLayer layer
  apply Finset.sum_congr rfl
  intro k _
  have hMv : ∀ u : Fin 10240, M (up v) u * hp u k = count src dst v.val u.val * hp u k := by
    intro u
    rw [hM (up v) u (by rw [up_val]; exact v.isLt), up_val]
  rw [Finset.sum_congr rfl (fun u _ => hMv u), sum_count_mul_eq_agg src dst hs hp h hh v k, hh v k]

end Cert.Gin
-- ==== Proof.KernelValue.lean ====
/-
  The kernel program's result, read at an element, is the three-layer network of Spec.lean.

  Each call's result array is the dense layer of its entry arrays (Region0/1/2). The table is the edge-count table
  at every call; the first call's features are the padded input features, each later call's features the result of
  the call before. On the first 10000 rows a dense layer over the edge-count table is the layer over the edge list
  (CountLaw.lean), given that those rows of its feature operand are the edge-list layer's features — which holds
  for the padded input features, and then call after call. The program's result is the first 10000 rows of the
  third call's result array.
-/
import proofs.«409665_j60078002536566_1_alg».proof.Proof.KernelChain
import proofs.«409665_j60078002536566_1_alg».proof.Proof.CountLaw
import Idealize.ShloMosaic.Lib.Pipeline.Value

set_option maxRecDepth 16384

noncomputable section

namespace Cert.KernelIdeal.Value

open Cert.KernelIdeal Cert.KernelIdeal.Gen Cert.Gin
open Idealize.ShloMosaic Idealize.ShloMosaic.TcCoe Idealize.ShloMosaic.ValueIdx Idealize.SL.Sem

-- the table and the padded features are read only through their read-at-an-element lemmas: never opened here
attribute [local irreducible] HostValue.padOf HostValue.tableOf

variable (m : (ℓ : Loc nD τ sig) → Buf (Elt Ideal) ℓ) (ρ : Dev nD → PrngReg)

/-- The inputs as plain functions of their coordinates. -/
abbrev srcF (c : Dev nD) : Fin 640000 → BitVec 32 := fun e => Chain.srcs m c (ix1 e)
abbrev dstF (c : Dev nD) : Fin 640000 → BitVec 32 := fun e => Chain.dsts m c (ix1 e)
abbrev featF (c : Dev nD) : Fin 10000 → Fin 128 → EReal := fun a k => Chain.feats m c (ix2 a k)
abbrev w0F (c : Dev nD) : Fin 128 → Fin 128 → EReal := fun k j => Chain.wts0 m c (ix2 k j)
abbrev w1F (c : Dev nD) : Fin 128 → Fin 128 → EReal := fun k j => Chain.wts1 m c (ix2 k j)
abbrev w2F (c : Dev nD) : Fin 128 → Fin 64 → EReal := fun k j => Chain.wts2 m c (ix2 k j)
/-- The edge-count table of the two edge lists. -/
abbrev tblF (c : Dev nD) : Fin 10240 → Fin 10240 → EReal :=
  fun a b => HostValue.tableOf (Chain.srcs m c) (Chain.dsts m c) (ix2 a b)

/-- The three calls' result arrays, over the padded rows. -/
def out1 (c : Dev nD) : Fin 10240 → Fin 128 → EReal :=
  fun v q => (W2 m ρ c (Proc.devRef .tc main_v22) : FVec Ideal S10240x128 .f32) (ix2 v q)
def out2 (c : Dev nD) : Fin 10240 → Fin 128 → EReal :=
  fun v q => (W4 m ρ c (Proc.devRef .tc main_v25) : FVec Ideal S10240x128 .f32) (ix2 v q)
def out3 (c : Dev nD) : Fin 10240 → Fin 64 → EReal :=
  fun v q => (W6 m ρ c (Proc.devRef .tc main_v28) : FVec Ideal S10240x64 .f32) (ix2 v q)

/-! ## Each call's result is a dense layer -/

theorem out1_dense (c : Dev nD) (v : Fin 10240) (q : Fin 128) :
    out1 m ρ c v q = denseLayer (tblF m c) (fun a k => HostValue.padOf (Chain.feats m c) (ix2 a k)) (w0F m c) v q := by
  unfold out1
  rw [Chain.exit0_res, Region0.value]
  have ho : Region0.own (V1 m ρ) c = HostValue.padOf (Chain.feats m c) := Chain.entry0_own m ρ c
  have hf : Region0.feat (V1 m ρ) c = truncf .bf16 (HostValue.padOf (Chain.feats m c)) bitsLt_bf16_f32 := Chain.entry0_feat m ρ c
  have ht : Region0.tbl (V1 m ρ) c = truncf .bf16 (HostValue.tableOf (Chain.srcs m c) (Chain.dsts m c)) bitsLt_bf16_f32 :=
    Chain.entry0_tbl m ρ c
  have hw : Region0.wt (V1 m ρ) c = truncf .bf16 (Chain.wts0 m c) bitsLt_bf16_f32 := Chain.entry0_wt m ρ c
  rw [ho, hf, ht, hw]
  rfl

theorem out2_dense (c : Dev nD) (v : Fin 10240) (q : Fin 128) :
    out2 m ρ c v q = denseLayer (tblF m c) (out1 m ρ c) (w1F m c) v q := by
  unfold out2
  rw [Chain.exit1_res, Region1.value]
  have ho : Region1.own (V3 m ρ) c = W2 m ρ c (Proc.devRef .tc main_v22) := Chain.entry1_own m ρ c
  have hf : Region1.feat (V3 m ρ) c = truncf .bf16 (W2 m ρ c (Proc.devRef .tc main_v22) : FVec Ideal S10240x128 .f32) bitsLt_bf16_f32 :=
    Chain.entry1_feat m ρ c
  have ht : Region1.tbl (V3 m ρ) c = truncf .bf16 (HostValue.tableOf (Chain.srcs m c) (Chain.dsts m c)) bitsLt_bf16_f32 :=
    (Chain.entry1_tbl m ρ c).trans (Chain.entry0_tbl m ρ c)
  have hw : Region1.wt (V3 m ρ) c = truncf .bf16 (Chain.wts1 m c) bitsLt_bf16_f32 := Chain.entry1_wt m ρ c
  rw [ho, hf, ht, hw]
  rfl

theorem out3_dense (c : Dev nD) (v : Fin 10240) (q : Fin 64) :
    out3 m ρ c v q = denseLayer (tblF m c) (out2 m ρ c) (w2F m c) v q := by
  unfold out3
  rw [Chain.exit2_res, Region2.value]
  have ho : Region2.own (V5 m ρ) c = W4 m ρ c (Proc.devRef .tc main_v25) := Chain.entry2_own m ρ c
  have hf : Region2.feat (V5 m ρ) c = truncf .bf16 (W4 m ρ c (Proc.devRef .tc main_v25) : FVec Ideal S10240x128 .f32) bitsLt_bf16_f32 :=
    Chain.entry2_feat m ρ c
  have ht : Region2.tbl (V5 m ρ) c = truncf .bf16 (HostValue.tableOf (Chain.srcs m c) (Chain.dsts m c)) bitsLt_bf16_f32 :=
    (Chain.entry2_tbl m ρ c).trans (Chain.entry0_tbl m ρ c)
  have hw : Region2.wt (V5 m ρ) c = truncf .bf16 (Chain.wts2 m c) bitsLt_bf16_f32 := Chain.entry2_wt m ρ c
  rw [ho, hf, ht, hw]
  rfl

/-! ## On the first 10000 rows the dense layers are the edge-list layers -/

section Real

variable (c : Dev nD)
  (hs : ∀ e : Fin 640000, 0 ≤ (srcF m c e).toInt ∧ (srcF m c e).toInt < 10000)
  (hd : ∀ e : Fin 640000, 0 ≤ (dstF m c e).toInt)

include hs hd

/-- The table's rows are edge counts, the source and destination words being non-negative. -/
theorem tbl_count (v u : Fin 10240) (_ : v.val < 10000) : tblF m c v u = count (srcF m c) (dstF m c) v.val u.val :=
  HostValue.tableOf_apply (Chain.srcs m c) (Chain.dsts m c) (fun e => (hs e).1) hd v u

theorem out1_real (p : Fin 10000) (q : Fin 128) :
    out1 m ρ c (up p) q = layer (srcF m c) (dstF m c) (featF m c) (w0F m c) p q := by
  rw [out1_dense]
  exact denseLayer_eq_layer (srcF m c) (dstF m c) hs (tblF m c) (tbl_count m c hs hd)
    (fun a k => HostValue.padOf (Chain.feats m c) (ix2 a k)) (featF m c)
    (fun v k => HostValue.padOf_apply (Chain.feats m c) v k) (w0F m c) p q

theorem out2_real (p : Fin 10000) (q : Fin 128) :
    out2 m ρ c (up p) q
      = layer (srcF m c) (dstF m c) (layer (srcF m c) (dstF m c) (featF m c) (w0F m c)) (w1F m c) p q := by
  rw [out2_dense]
  exact denseLayer_eq_layer (srcF m c) (dstF m c) hs (tblF m c) (tbl_count m c hs hd) (out1 m ρ c)
    (layer (srcF m c) (dstF m c) (featF m c) (w0F m c))
    (fun v k => out1_real m ρ c hs hd v k) (w1F m c) p q

theorem out3_real (p : Fin 10000) (q : Fin 64) :
    out3 m ρ c (up p) q = net (srcF m c) (dstF m c) (featF m c) (w0F m c) (w1F m c) (w2F m c) p q := by
  rw [out3_dense]
  exact denseLayer_eq_layer (srcF m c) (dstF m c) hs (tblF m c) (tbl_count m c hs hd) (out2 m ρ c)
    (layer (srcF m c) (dstF m c) (layer (srcF m c) (dstF m c) (featF m c) (w0F m c)) (w1F m c))
    (fun v k => out2_real m ρ c hs hd v k) (w2F m c) p q

/-- THE RESULT: the program's result buffer after the run, at element (p, q), is the network's value there. -/
theorem result_apply (p : Fin 10000) (q : Fin 64) :
    (W7 m ρ c (Proc.devRef .tc main_v29) : FVec Ideal S10000x64 .f32) (ix2 p q)
      = net (srcF m c) (dstF m c) (featF m c) (w0F m c) (w1F m c) (w2F m c) p q := by
  rw [Chain.exit3_res,
    extractStridedSlice_apply ![0, 0] _ slices_S10240x64_S10000x64_0_0 (ix2 p q) (ix2 (up p) q) (fun a => by
      match a with
      | ⟨0, _⟩ => show p.val = 0 + p.val; omega
      | ⟨1, _⟩ => show q.val = 0 + q.val; omega)]
  exact out3_real m ρ c hs hd p q

end Real

end Cert.KernelIdeal.Value

end
-- ==== Proof.RefDims.lean ====
/-
  The reference's gather and scatter, read at an element through their dimension numbers.

  The gather takes whole rows of a [10000, 128] array: result row e is the row named by index word e, read signed
  and clamped into [0, 9999]. The scatter adds whole rows: update element (e, k') lands at element (v, k) exactly
  when destination word e, read signed, is v and the columns agree.
-/
import proofs.«409665_j60078002536566_1_alg».proof.ReferenceIdeal
import proofs.«409665_j60078002536566_1_alg».proof.Proof.LibScatter
import Idealize.ShloMosaic.Lib.ValueIdx

noncomputable section

namespace Cert.ReferenceIdeal.HostDims

open Cert.ReferenceIdeal Idealize.ShloMosaic Idealize.ShloMosaic.ValueIdx

variable [Cert.ReferenceIdeal.Facts]

/-! ## The row gather

Operand axis 0 is collapsed (slice size 1) and is the one axis the start index names; operand axis 1 is kept whole
(slice size 128) and is read by the result's offset axis 1; the index vector lies on the indices' axis 1, of size 1.
No batching axes. -/

/-- The start on operand axis 0 of result element `(e, k)` is the word `idx[e, 0]`, read signed and clamped into
    `[0, 10000 - 1]`: axis 0 is component 0 of the index vector, and the indices' axis 0 reads the result's batch
    coordinate `e`. -/
theorem gather_start0 (idx : IVec S640000x1 32) (e : Fin 640000) (k : Fin 128) :
    gather_S10000x128_S640000x1_S640000x128_1_0_n_n_0_1_1128.start (ix2 e k) idx (0 : Fin 2) = min (idx (ix2 e (0 : Fin 1))).toInt.toNat 9999 := by
  have hm : (0 : Fin 2) ∈ gather_S10000x128_S640000x1_S640000x128_1_0_n_n_0_1_1128.startIndexMap := show (0 : Fin 2) ∈ ([0] : List (Fin 2)) from by decide
  unfold GatherDims.start
  rw [dif_pos hm]
  have hsi : gather_S10000x128_S640000x1_S640000x128_1_0_n_n_0_1_1128.siIdx (ix2 e k)
      ⟨List.idxOf (0 : Fin 2) gather_S10000x128_S640000x1_S640000x128_1_0_n_n_0_1_1128.startIndexMap, List.idxOf_lt_length_iff.2 hm⟩ = ix2 e (0 : Fin 1) := by
    funext b; refine Fin.ext ?_
    match b with
    | ⟨0, _⟩ => rfl
    | ⟨1, _⟩ => rfl
  rw [hsi]
  rfl

/-- Operand axis 1 is not named by the start index: its start is zero. -/
theorem gather_start1 (idx : IVec S640000x1 32) (e : Fin 640000) (k : Fin 128) :
    gather_S10000x128_S640000x1_S640000x128_1_0_n_n_0_1_1128.start (ix2 e k) idx (1 : Fin 2) = 0 := by
  unfold GatherDims.start
  rw [dif_neg]
  show (1 : Fin 2) ∉ ([0] : List (Fin 2))
  decide

/-- There are no batching axes: the batching coordinate is zero on every operand axis. -/
theorem gather_batch (e : Fin 640000) (k : Fin 128) (a : Fin 2) : gather_S10000x128_S640000x1_S640000x128_1_0_n_n_0_1_1128.batchCoord (ix2 e k) a = 0 :=
  GatherDims.batchCoord_eq_zero _ _ _ (show a ∉ ([] : List (Fin 2)) from List.not_mem_nil)

/-- Operand axis 0 is collapsed: its offset coordinate is zero. -/
theorem gather_off0 (e : Fin 640000) (k : Fin 128) : gather_S10000x128_S640000x1_S640000x128_1_0_n_n_0_1_1128.offCoord (ix2 e k) (0 : Fin 2) = 0 :=
  GatherDims.offCoord_eq_zero _ _ _ (show (0 : Fin 2) ∉ ([1] : List (Fin 2)) from by decide)

/-- Operand axis 1 is kept and read by the result's axis 1: its offset coordinate is the result's column. -/
theorem gather_off1 (e : Fin 640000) (k : Fin 128) : gather_S10000x128_S640000x1_S640000x128_1_0_n_n_0_1_1128.offCoord (ix2 e k) (1 : Fin 2) = k.val := by
  have hm : (1 : Fin 2) ∈ gather_S10000x128_S640000x1_S640000x128_1_0_n_n_0_1_1128.sKept := show (1 : Fin 2) ∈ ([1] : List (Fin 2)) from by decide
  unfold GatherDims.offCoord
  rw [dif_pos hm]
  rfl

/-- Result element `(e, k)` of the gather is the operand at row `idx[e, 0]` (read signed, clamped into
    `[0, 9999]`) and column `k`: the operand index is start plus batching plus offset coordinate, which is the
    clamped word plus nothing on axis 0 and `k` alone on axis 1. -/
theorem gather_rows_apply {α : Type} (x : S10000x128.Idx → α) (idx : IVec S640000x1 32) (e : Fin 640000) (k : Fin 128) :
    Host.gather gather_S10000x128_S640000x1_S640000x128_1_0_n_n_0_1_1128 x idx (ix2 e k)
      = x (ix2 (⟨min (idx (ix2 e (0 : Fin 1))).toInt.toNat 9999, by omega⟩ : Fin 10000) k) := by
  unfold Host.gather
  congr 1
  have hall : ∀ a : Fin 2, (gather_S10000x128_S640000x1_S640000x128_1_0_n_n_0_1_1128.operandIdx (ix2 e k) idx a).val
      = (ix2 (⟨min (idx (ix2 e (0 : Fin 1))).toInt.toNat 9999, by omega⟩ : Fin 10000) k a).val := by
    refine Fin.forall_fin_two.2 ⟨?_, ?_⟩
    · show gather_S10000x128_S640000x1_S640000x128_1_0_n_n_0_1_1128.start (ix2 e k) idx (0 : Fin 2) + gather_S10000x128_S640000x1_S640000x128_1_0_n_n_0_1_1128.batchCoord (ix2 e k) (0 : Fin 2)
        + gather_S10000x128_S640000x1_S640000x128_1_0_n_n_0_1_1128.offCoord (ix2 e k) (0 : Fin 2) = min (idx (ix2 e (0 : Fin 1))).toInt.toNat 9999
      rw [gather_start0, gather_batch, gather_off0]
      omega
    · show gather_S10000x128_S640000x1_S640000x128_1_0_n_n_0_1_1128.start (ix2 e k) idx (1 : Fin 2) + gather_S10000x128_S640000x1_S640000x128_1_0_n_n_0_1_1128.batchCoord (ix2 e k) (1 : Fin 2)
        + gather_S10000x128_S640000x1_S640000x128_1_0_n_n_0_1_1128.offCoord (ix2 e k) (1 : Fin 2) = k.val
      rw [gather_start1, gather_batch, gather_off1]
      omega
  exact funext fun a => Fin.ext (hall a)

/-! ## The row scatter

Update axis 1 is the one window axis and goes to operand axis 1; operand axis 0 is inserted and is the one axis the
index vector names; the index vector lies on the indices' axis 1, of size 1. -/

/-- The start on operand axis 0 of update element `(e, k')` is the word `idx[e, 0]`, read signed. -/
theorem rows_start0 (idx : IVec S640000x1 32) (e : Fin 640000) (k' : Fin 128) :
    scatter_S10000x128_S640000x1_S640000x128_1_0_0_1.start (ix2 e k') idx (0 : Fin 2) = (idx (ix2 e (0 : Fin 1))).toInt := by
  have hm : (0 : Fin 2) ∈ scatter_S10000x128_S640000x1_S640000x128_1_0_0_1.scatterDimsToOperandDims := show (0 : Fin 2) ∈ ([0] : List (Fin 2)) from by decide
  unfold ScatterDims.start
  rw [dif_pos hm]
  have hsi : scatter_S10000x128_S640000x1_S640000x128_1_0_0_1.siIdx (ix2 e k')
      ⟨List.idxOf (0 : Fin 2) scatter_S10000x128_S640000x1_S640000x128_1_0_0_1.scatterDimsToOperandDims, List.idxOf_lt_length_iff.2 hm⟩ = ix2 e (0 : Fin 1) := by
    funext b; refine Fin.ext ?_
    match b with
    | ⟨0, _⟩ => rfl
    | ⟨1, _⟩ => rfl
  rw [hsi]

/-- Operand axis 1 is not named by the index vector: its start is zero. -/
theorem rows_start1 (idx : IVec S640000x1 32) (e : Fin 640000) (k' : Fin 128) :
    scatter_S10000x128_S640000x1_S640000x128_1_0_0_1.start (ix2 e k') idx (1 : Fin 2) = 0 := by
  unfold ScatterDims.start
  rw [dif_neg]
  show (1 : Fin 2) ∉ ([0] : List (Fin 2))
  decide

/-- Operand axis 0 is an inserted window axis: its window coordinate is zero. -/
theorem rows_window0 (e : Fin 640000) (k' : Fin 128) : scatter_S10000x128_S640000x1_S640000x128_1_0_0_1.window (ix2 e k') (0 : Fin 2) = 0 := by
  unfold ScatterDims.window
  rw [dif_neg]
  show (0 : Fin 2) ∉ ([1] : List (Fin 2))
  decide

/-- Operand axis 1 is kept and reads update axis 1: its window coordinate is the update's column. -/
theorem rows_window1 (e : Fin 640000) (k' : Fin 128) : scatter_S10000x128_S640000x1_S640000x128_1_0_0_1.window (ix2 e k') (1 : Fin 2) = k'.val := by
  have hm : (1 : Fin 2) ∈ scatter_S10000x128_S640000x1_S640000x128_1_0_0_1.sKept := show (1 : Fin 2) ∈ ([1] : List (Fin 2)) from by decide
  unfold ScatterDims.window
  rw [dif_pos hm]
  rfl

/-- Update element `(e, k')` lands at element `(v, k)` exactly when the word `idx[e, 0]`, read signed, is `v` and
    `k' = k`: start plus window is the signed word plus zero on axis 0 and `0 + k'` on axis 1. -/
theorem rows_land_iff (idx : IVec S640000x1 32) (e : Fin 640000) (k' : Fin 128) (v : Fin 10000) (k : Fin 128) :
    scatter_S10000x128_S640000x1_S640000x128_1_0_0_1.resultIdx? (ix2 e k') idx = some (ix2 v k)
      ↔ (idx (ix2 e (0 : Fin 1))).toInt = (v.val : ℤ) ∧ k' = k := by
  rw [Cert.LibScatter.resultIdx?_eq_some_iff]
  refine Fin.forall_fin_two.trans ?_
  rw [rows_start0, rows_start1, rows_window0, rows_window1]
  show (idx (ix2 e (0 : Fin 1))).toInt + ((0 : ℕ) : ℤ) = (v.val : ℤ) ∧ (0 : ℤ) + (k'.val : ℤ) = (k.val : ℤ) ↔ _
  constructor
  · rintro ⟨h1, h2⟩
    exact ⟨by omega, Fin.ext (by omega)⟩
  · rintro ⟨h1, h2⟩
    subst h2
    exact ⟨by omega, by omega⟩

end Cert.ReferenceIdeal.HostDims

end
-- ==== Proof.RefValue.lean ====
/-
  The reference program's result, read at an element, is the three-layer network of Spec.lean.

  Each layer of the reference gathers a row per edge (the row its source word names, read signed and clamped,
  after a negative word has had 10000 added), adds the gathered rows into the row its destination word names,
  adds the node's own row and multiplies by the weights. Where the source words are non-negative the first
  adjustment does nothing, and what arrives at node v is the sum over the edges whose destination word reads v of
  the source rows: the layer of Spec.lean.
-/
import proofs.«409665_j60078002536566_1_alg».proof.Proof.Gen.ReferenceIdeal.Read
import proofs.«409665_j60078002536566_1_alg».proof.Proof.RefDims
import proofs.«409665_j60078002536566_1_alg».proof.Proof.LibScatter
import proofs.«409665_j60078002536566_1_alg».proof.Proof.Spec

noncomputable section

namespace Cert.ReferenceIdeal.RefValue

open Cert.ReferenceIdeal Cert.ReferenceIdeal.Gen Cert.ReferenceIdeal.Read
open Idealize.ShloMosaic Idealize.ShloMosaic.ValueIdx

variable [Cert.ReferenceIdeal.Facts]

/-! ## One aggregation, over any feature array -/

/-- A non-negative word is not below zero, so the adjustment "add 10000 where the word is negative" leaves it
    as it is. -/
theorem adjusted_word (w : BitVec 32) (hw : 0 ≤ w.toInt) :
    Scalar.select (IntOp.cmpi .slt w 0#32) (IntOp.addi w 10000#32) w = w := by
  have h0 : ¬ IntOp.cmpi .slt w 0#32 = 1#1 := by
    rw [IntOp.cmpi_slt]
    have hz : (0#32 : BitVec 32).toInt = 0 := by decide
    omega
  rw [eq_zero_of_ne_one h0, select_zero]

/-- Gathering rows of `h` by source words and adding them into the rows the destination words name, starting
    from zeros, leaves at `(v, k)` the sum over the edges whose destination word reads `v` of `h` at the source
    row and column `k`.

    The adding scatter at `(v, k)` is zero plus the sum of the updates `(e, k')` that land there. Written as a
    double sum over `e` and `k'` of "the update if it lands, else zero", the landing test is "destination word
    `e` reads `v`, and `k' = k`", so the inner sum keeps its one term `k' = k`: the gathered element `(e, k)`,
    which is `h` at the clamped source word and column `k`. -/
theorem agg_read (h zeros : FVec Ideal S10000x128 .f32) (didx sidx : IVec S640000x1 32)
    (src dst : Fin 640000 → BitVec 32)
    (hz : ∀ i, zeros i = 0) (hd : ∀ e : Fin 640000, didx (ix2 e (0 : Fin 1)) = dst e)
    (hsrc : ∀ e : Fin 640000, sidx (ix2 e (0 : Fin 1)) = src e) (v : Fin 10000) (k : Fin 128) :
    Host.scatterAdd scatter_S10000x128_S640000x1_S640000x128_1_0_0_1 zeros didx
        (Host.gather gather_S10000x128_S640000x1_S640000x128_1_0_n_n_0_1_1128 h sidx) (ix2 v k)
      = Cert.Gin.agg src dst (fun a c => h (ix2 a c)) v k := by
  rw [Cert.LibScatter.scatterAdd_apply, hz, zero_add, Finset.sum_filter, sum_idx2]
  unfold Cert.Gin.agg
  rw [Finset.sum_filter]
  refine Finset.sum_congr rfl fun e _ => ?_
  have hland : ∀ k' : Fin 128,
      (scatter_S10000x128_S640000x1_S640000x128_1_0_0_1.resultIdx? (ix2 e k') didx = some (ix2 v k))
        ↔ ((dst e).toInt = (v.val : ℤ) ∧ k' = k) := by
    intro k'
    rw [HostDims.rows_land_iff, hd]
  simp only [hland]
  by_cases hv : (dst e).toInt = (v.val : ℤ)
  · rw [if_pos hv]
    simp only [hv, true_and]
    rw [Finset.sum_ite_eq' Finset.univ k, if_pos (Finset.mem_univ k), HostDims.gather_rows_apply]
    have hrow : (⟨min (sidx (ix2 e (0 : Fin 1))).toInt.toNat 9999, by omega⟩ : Fin 10000) = Cert.Gin.srcRow (src e) :=
      Fin.ext (by
        show min (sidx (ix2 e (0 : Fin 1))).toInt.toNat 9999 = min (src e).toInt.toNat 9999
        rw [hsrc])
    exact congrArg (fun r => h (ix2 r k)) hrow
  · rw [if_neg hv]
    simp only [hv, false_and, if_false, Finset.sum_const_zero]

/-! ## The reference's index and zero arrays, read at an element -/

/-- The zero array the first layer's scatter starts from reads zero everywhere. -/
theorem zeros_v7 (i : S10000x128.Idx) : val_main_v7 (F := Ideal) i = 0 := by
  rw [val_main_v7_apply, val_main_cst_apply]
  exact Ideal.ofBits_zero_f32

/-- The second layer's zero array. -/
theorem zeros_v19 (i : S10000x128.Idx) : val_main_v19 (F := Ideal) i = 0 := by
  rw [val_main_v19_apply, val_main_cst_3_apply]
  exact Ideal.ofBits_zero_f32

/-- The third layer's zero array. -/
theorem zeros_v31 (i : S10000x128.Idx) : val_main_v31 (F := Ideal) i = 0 := by
  rw [val_main_v31_apply, val_main_cst_6_apply]
  exact Ideal.ofBits_zero_f32

/-- The destination words as a one-column array: row `e` holds destination word `e`. -/
theorem dst_v8 (x5 : IVec S640000 32) (e : Fin 640000) :
    val_main_v8 (F := Ideal) x5 (ix2 e (0 : Fin 1)) = x5 (ix1 e) := by
  have hi : idx_main_v8 (ix2 e (0 : Fin 1)) = ix1 e := funext fun a => by match a with | ⟨0, _⟩ => rfl
  rw [val_main_v8_apply, hi]

theorem dst_v20 (x5 : IVec S640000 32) (e : Fin 640000) :
    val_main_v20 (F := Ideal) x5 (ix2 e (0 : Fin 1)) = x5 (ix1 e) := by
  have hi : idx_main_v20 (ix2 e (0 : Fin 1)) = ix1 e := funext fun a => by match a with | ⟨0, _⟩ => rfl
  rw [val_main_v20_apply, hi]

theorem dst_v32 (x5 : IVec S640000 32) (e : Fin 640000) :
    val_main_v32 (F := Ideal) x5 (ix2 e (0 : Fin 1)) = x5 (ix1 e) := by
  have hi : idx_main_v32 (ix2 e (0 : Fin 1)) = ix1 e := funext fun a => by match a with | ⟨0, _⟩ => rfl
  rw [val_main_v32_apply, hi]

/-- The adjusted source words as a one-column array: where the source words are non-negative, row `e` holds
    source word `e` itself (the test "word below zero" fails, so the select keeps the word). -/
theorem src_v5 (x4 : IVec S640000 32) (hs : ∀ e : Fin 640000, 0 ≤ (x4 (ix1 e)).toInt) (e : Fin 640000) :
    val_main_v5 (F := Ideal) x4 (ix2 e (0 : Fin 1)) = x4 (ix1 e) := by
  have hi : idx_main_v5 (ix2 e (0 : Fin 1)) = ix1 e := funext fun a => by match a with | ⟨0, _⟩ => rfl
  rw [val_main_v5_apply, hi, val_main_v4_apply, val_main_v1_apply, val_main_v3_apply, val_main_v0_apply,
    val_main_c_apply, val_main_v2_apply, val_main_c_0_apply]
  exact adjusted_word _ (hs e)

theorem src_v17 (x4 : IVec S640000 32) (hs : ∀ e : Fin 640000, 0 ≤ (x4 (ix1 e)).toInt) (e : Fin 640000) :
    val_main_v17 (F := Ideal) x4 (ix2 e (0 : Fin 1)) = x4 (ix1 e) := by
  have hi : idx_main_v17 (ix2 e (0 : Fin 1)) = ix1 e := funext fun a => by match a with | ⟨0, _⟩ => rfl
  rw [val_main_v17_apply, hi, val_main_v16_apply, val_main_v13_apply, val_main_v15_apply, val_main_v12_apply,
    val_main_c_1_apply, val_main_v14_apply, val_main_c_2_apply]
  exact adjusted_word _ (hs e)

theorem src_v29 (x4 : IVec S640000 32) (hs : ∀ e : Fin 640000, 0 ≤ (x4 (ix1 e)).toInt) (e : Fin 640000) :
    val_main_v29 (F := Ideal) x4 (ix2 e (0 : Fin 1)) = x4 (ix1 e) := by
  have hi : idx_main_v29 (ix2 e (0 : Fin 1)) = ix1 e := funext fun a => by match a with | ⟨0, _⟩ => rfl
  rw [val_main_v29_apply, hi, val_main_v28_apply, val_main_v25_apply, val_main_v27_apply, val_main_v24_apply,
    val_main_c_4_apply, val_main_v26_apply, val_main_c_5_apply]
  exact adjusted_word _ (hs e)

/-! ## The three layers -/

/-- The first layer: the dot product over `k` of (own row plus what arrives) with the first weights. -/
theorem layer1 (x0 : FVec Ideal S10000x128 .f32) (x1 : FVec Ideal S128x128 .f32) (x4 x5 : IVec S640000 32)
    (hs : ∀ e : Fin 640000, 0 ≤ (x4 (ix1 e)).toInt) (v : Fin 10000) (j : Fin 128) :
    val_main_v11 (F := Ideal) x0 x1 x4 x5 (ix2 v j)
      = Cert.Gin.layer (fun e => x4 (ix1 e)) (fun e => x5 (ix1 e)) (fun a k => x0 (ix2 a k))
          (fun k j => x1 (ix2 k j)) v j := by
  rw [val_main_v11_apply]
  unfold Cert.Gin.layer
  refine Finset.sum_congr rfl fun k _ => ?_
  have el : lidx_main_v11 (ix2 v j) k = ix2 v k :=
    funext fun a => Fin.ext (by match a with | ⟨0, _⟩ => rfl | ⟨1, _⟩ => rfl)
  have er : ridx_main_v11 (ix2 v j) k = ix2 k j :=
    funext fun a => Fin.ext (by match a with | ⟨0, _⟩ => rfl | ⟨1, _⟩ => rfl)
  have ha : val_main_v9 (F := Ideal) x0 x4 x5 (ix2 v k)
      = Cert.Gin.agg (fun e => x4 (ix1 e)) (fun e => x5 (ix1 e)) (fun a c => x0 (ix2 a c)) v k :=
    agg_read x0 _ _ _ _ _ zeros_v7 (dst_v8 x5) (src_v5 x4 hs) v k
  rw [el, er, val_main_v10_apply, Ideal.addf_def, ha]

/-- The second layer, over the first layer's result as its feature array. -/
theorem layer2 (x0 : FVec Ideal S10000x128 .f32) (x1 x2 : FVec Ideal S128x128 .f32) (x4 x5 : IVec S640000 32)
    (hs : ∀ e : Fin 640000, 0 ≤ (x4 (ix1 e)).toInt) (v : Fin 10000) (j : Fin 128) :
    val_main_v23 (F := Ideal) x0 x1 x2 x4 x5 (ix2 v j)
      = Cert.Gin.layer (fun e => x4 (ix1 e)) (fun e => x5 (ix1 e))
          (fun a k => val_main_v11 (F := Ideal) x0 x1 x4 x5 (ix2 a k)) (fun k j => x2 (ix2 k j)) v j := by
  rw [val_main_v23_apply]
  unfold Cert.Gin.layer
  refine Finset.sum_congr rfl fun k _ => ?_
  have el : lidx_main_v23 (ix2 v j) k = ix2 v k :=
    funext fun a => Fin.ext (by match a with | ⟨0, _⟩ => rfl | ⟨1, _⟩ => rfl)
  have er : ridx_main_v23 (ix2 v j) k = ix2 k j :=
    funext fun a => Fin.ext (by match a with | ⟨0, _⟩ => rfl | ⟨1, _⟩ => rfl)
  have ha : val_main_v21 (F := Ideal) x0 x1 x4 x5 (ix2 v k)
      = Cert.Gin.agg (fun e => x4 (ix1 e)) (fun e => x5 (ix1 e))
          (fun a c => val_main_v11 (F := Ideal) x0 x1 x4 x5 (ix2 a c)) v k :=
    agg_read (val_main_v11 (F := Ideal) x0 x1 x4 x5) _ _ _ _ _ zeros_v19 (dst_v20 x5) (src_v17 x4 hs) v k
  rw [el, er, val_main_v22_apply, Ideal.addf_def, ha]

/-- The third layer, over the second layer's result, with the [128, 64] weights. -/
theorem layer3 (x0 : FVec Ideal S10000x128 .f32) (x1 x2 : FVec Ideal S128x128 .f32) (x3 : FVec Ideal S128x64 .f32)
    (x4 x5 : IVec S640000 32) (hs : ∀ e : Fin 640000, 0 ≤ (x4 (ix1 e)).toInt) (v : Fin 10000) (j : Fin 64) :
    val_main_v35 (F := Ideal) x0 x1 x2 x3 x4 x5 (ix2 v j)
      = Cert.Gin.layer (fun e => x4 (ix1 e)) (fun e => x5 (ix1 e))
          (fun a k => val_main_v23 (F := Ideal) x0 x1 x2 x4 x5 (ix2 a k)) (fun k j => x3 (ix2 k j)) v j := by
  rw [val_main_v35_apply]
  unfold Cert.Gin.layer
  refine Finset.sum_congr rfl fun k _ => ?_
  have el : lidx_main_v35 (ix2 v j) k = ix2 v k :=
    funext fun a => Fin.ext (by match a with | ⟨0, _⟩ => rfl | ⟨1, _⟩ => rfl)
  have er : ridx_main_v35 (ix2 v j) k = ix2 k j :=
    funext fun a => Fin.ext (by match a with | ⟨0, _⟩ => rfl | ⟨1, _⟩ => rfl)
  have ha : val_main_v33 (F := Ideal) x0 x1 x2 x4 x5 (ix2 v k)
      = Cert.Gin.agg (fun e => x4 (ix1 e)) (fun e => x5 (ix1 e))
          (fun a c => val_main_v23 (F := Ideal) x0 x1 x2 x4 x5 (ix2 a c)) v k :=
    agg_read (val_main_v23 (F := Ideal) x0 x1 x2 x4 x5) _ _ _ _ _ zeros_v31 (dst_v32 x5) (src_v29 x4 hs) v k
  rw [el, er, val_main_v34_apply, Ideal.addf_def, ha]

/-- The reference's result is the three-layer network: each stage's feature array is the layer below it. -/
theorem value (x0 : FVec Ideal S10000x128 .f32) (x1 x2 : FVec Ideal S128x128 .f32) (x3 : FVec Ideal S128x64 .f32)
    (x4 x5 : IVec S640000 32) (hs : ∀ e : Fin 640000, 0 ≤ (x4 (ix1 e)).toInt) (p : Fin 10000) (q : Fin 64) :
    val_main_v35 (F := Ideal) x0 x1 x2 x3 x4 x5 (ix2 p q)
      = Cert.Gin.net (fun e => x4 (ix1 e)) (fun e => x5 (ix1 e)) (fun a k => x0 (ix2 a k))
          (fun k j => x1 (ix2 k j)) (fun k j => x2 (ix2 k j)) (fun k j => x3 (ix2 k j)) p q := by
  have h1 : (fun a k => val_main_v11 (F := Ideal) x0 x1 x4 x5 (ix2 a k))
      = Cert.Gin.layer (fun e => x4 (ix1 e)) (fun e => x5 (ix1 e)) (fun a k => x0 (ix2 a k))
          (fun k j => x1 (ix2 k j)) :=
    funext fun a => funext fun k => layer1 x0 x1 x4 x5 hs a k
  have h2 : (fun a k => val_main_v23 (F := Ideal) x0 x1 x2 x4 x5 (ix2 a k))
      = Cert.Gin.layer (fun e => x4 (ix1 e)) (fun e => x5 (ix1 e))
          (Cert.Gin.layer (fun e => x4 (ix1 e)) (fun e => x5 (ix1 e)) (fun a k => x0 (ix2 a k))
            (fun k j => x1 (ix2 k j))) (fun k j => x2 (ix2 k j)) := by
    funext a k
    rw [layer2 x0 x1 x2 x4 x5 hs a k, h1]
  rw [layer3 x0 x1 x2 x3 x4 x5 hs p q, h2]
  rfl

end Cert.ReferenceIdeal.RefValue

end
-- ==== Proof.PreFacts.lean ====
/-
  What the precondition says about the two edge lists: every source word, read as a signed integer, is a node
  number (0 ≤ src < 10000), and every destination word is non-negative. The precondition is a conjunction of
  whole-array tests; each test that an array of bits is all ones gives the bit at every index, and a signed
  comparison bit that is one is the comparison of the signed readings.
-/
import proofs.«409665_j60078002536566_1_alg».proof.Pre_finite_inputs
import Idealize.ShloMosaic.Lib.ReduceAll
import Idealize.ShloMosaic.Lib.ValueIdx
import Idealize.ShloMosaic.PureOps.Ideal

noncomputable section

namespace Cert.PreFacts

open Idealize.ShloMosaic Idealize.ShloMosaic.ValueIdx Cert.Pre_finite_inputs

/-- The scalar shape has exactly one index: two functions out of the empty set of axes agree. -/
instance : Subsingleton S_.Idx := ⟨fun a b => funext fun d => d.elim0⟩

/-- The test "w ≥ 0, signed" came out true: the signed reading of w is non-negative (the word 0 reads 0). -/
theorem nonneg_of_sge_zero {w : BitVec 32} (hw : IntOp.cmpi .sge w 0#32 = 1#1) : 0 ≤ w.toInt := by
  have h0 : (0#32 : BitVec 32).toInt = 0 := by decide
  have := IntOp.cmpi_sge.1 hw
  rwa [h0] at this

/-- The test "w < 10000, signed" came out true: the signed reading of w is below 10000 (the word 10000 reads 10000). -/
theorem lt_of_slt_tenThousand {w : BitVec 32} (hw : IntOp.cmpi .slt w 10000#32 = 1#1) : w.toInt < 10000 := by
  have h0 : (10000#32 : BitVec 32).toInt = 10000 := by decide
  have := IntOp.cmpi_slt.1 hw
  rwa [h0] at this

/-- An all-ones test of "x ≥ 0" over the whole edge list gives a non-negative signed reading at every edge. -/
theorem nonneg_of_all [Cert.Pre_finite_inputs.Facts] (x : IVec S640000 32) (j : S_.Idx)
    (hx : Host.reduce IntOp.andi (cmpi .sge x (broadcastInDim S640000 ![] Facts.bcast_S_S640000 (constantI S_ 32 0#32)))
      (constantI S_ 1 1#1) Facts.reducesTo_S640000_S_d0 Facts.h_S_ j = 1#1) (i : S640000.Idx) : 0 ≤ (x i).toInt := by
  have hb := Host.reduce_andi_all _ _ _ _ j hx i
  simp only [cmpi, broadcastInDim, constantI] at hb
  exact nonneg_of_sge_zero hb

/-- An all-ones test of "x < 10000" over the whole edge list gives a signed reading below 10000 at every edge. -/
theorem lt_of_all [Cert.Pre_finite_inputs.Facts] (x : IVec S640000 32) (j : S_.Idx)
    (hx : Host.reduce IntOp.andi (cmpi .slt x (broadcastInDim S640000 ![] Facts.bcast_S_S640000 (constantI S_ 32 10000#32)))
      (constantI S_ 1 1#1) Facts.reducesTo_S640000_S_d0 Facts.h_S_ j = 1#1) (i : S640000.Idx) : (x i).toInt < 10000 := by
  have hb := Host.reduce_andi_all _ _ _ _ j hx i
  simp only [cmpi, broadcastInDim, constantI] at hb
  exact lt_of_slt_tenThousand hb

theorem index_ranges {F : FTy → Type} [FloatOps F] [Cert.Pre_finite_inputs.Facts]
    (x0 : FVec F S10000x128 .f32) (x1 x2 : FVec F S128x128 .f32) (x3 : FVec F S128x64 .f32) (x4 x5 : IVec S640000 32)
    (h : Cert.Pre_finite_inputs.fn (F := F) x0 x1 x2 x3 x4 x5 = fun _ => 1#1) (e : Fin 640000) :
    (0 ≤ (x4 (ix1 e)).toInt ∧ (x4 (ix1 e)).toInt < 10000) ∧ 0 ≤ (x5 (ix1 e)).toInt := by
  -- The precondition's one bit, read at the scalar shape's one index.
  have h1 := congrFun h ix0
  -- The value is ((float tests ∧ all(x4 ≥ 0)) ∧ all(x4 < 10000)) ∧ all(x5 ≥ 0); the float part stays closed.
  simp only [fn, fn_part1, andi] at h1
  obtain ⟨h26, h29⟩ := IntOp.andi_eq_one.1 h1
  obtain ⟨h22, h25⟩ := IntOp.andi_eq_one.1 h26
  obtain ⟨_, h21⟩ := IntOp.andi_eq_one.1 h22
  exact ⟨⟨nonneg_of_all x4 ix0 h21 (ix1 e), lt_of_all x4 ix0 h25 (ix1 e)⟩, nonneg_of_all x5 ix0 h29 (ix1 e)⟩

end Cert.PreFacts

end
-- ==== Proof.lean ====
/-
  Three rounds of message passing on a graph: a Pallas kernel against its jnp reference, over the extended reals.

  The reference, per layer: gather the feature row of every edge's source node, add the gathered rows into the
  rows of the destination nodes, add each node's own row, multiply by the layer's weight matrix. The kernel builds
  ONCE the [10240, 10240] table whose entry (v, u) is the number of edges from u to v (a scatter of ones; the node
  range padded from 10000 to 10240), pads the features with zero rows, and per layer computes
  (own rows + table · features) · weights in a pallas_call over 16 row blocks; the result is the first 10000 rows.

  Both are the same function: a sum over the edges into v of the source rows is the sum over ALL nodes u of
  (number of edges u → v) times row u (CountLaw.lean; it needs no finiteness: a count is a sum of ones, and
  multiplication distributes over sums of non-negative extended reals). The padded rows never matter: no edge
  count in the first 10000 rows of the table multiplies them, and they are cut off at the end.

  This holds where the edge lists index the arrays they index: every source word a node number (0 ≤ src < 10000:
  outside it the reference clamps the row index while the kernel's table drops or misplaces the edge) and every
  destination word non-negative (a negative word is dropped by the reference and wrapped by the kernel's table
  build). The precondition states exactly these three conjuncts beside the finiteness of the float inputs; the
  destination words need no upper bound (at 10000 and beyond both programs ignore the edge in the rows kept).

  The kernel's three frames and its launch come from the generated frame modules; the reference's run from its
  generated run module. Written here: that the two results are one function, element by element.
-/
import proofs.«409665_j60078002536566_1_alg».proof.Defs
import proofs.«409665_j60078002536566_1_alg».proof.Proof.Gen.Kernel
import proofs.«409665_j60078002536566_1_alg».proof.Proof.Gen.Kernel.Frame
import proofs.«409665_j60078002536566_1_alg».proof.Proof.Gen.KernelIdeal
import proofs.«409665_j60078002536566_1_alg».proof.Proof.Gen.KernelIdeal.Frame
import proofs.«409665_j60078002536566_1_alg».proof.Proof.Gen.ReferenceIdeal
import proofs.«409665_j60078002536566_1_alg».proof.Proof.Gen.ReferenceIdeal.Run
import proofs.«409665_j60078002536566_1_alg».proof.Proof.Gen.ReferenceIdeal.Read
import proofs.«409665_j60078002536566_1_alg».proof.Proof.Gen.Pre_finite_inputs
import proofs.«409665_j60078002536566_1_alg».proof.Proof.RunValue
import proofs.«409665_j60078002536566_1_alg».proof.Proof.KernelValue
import proofs.«409665_j60078002536566_1_alg».proof.Proof.RefValue
import proofs.«409665_j60078002536566_1_alg».proof.Proof.PreFacts
import Idealize.ShloMosaic.Adequacy
import Idealize.ShloMosaic.Init

set_option maxRecDepth 16384

noncomputable section

namespace Cert.Proof

open Idealize.ShloMosaic Idealize.ShloMosaic.TcCoe Idealize.ShloMosaic.ValueIdx Idealize.SL.Sem

theorem frame_kernel : Cert.frame_Kernel := fun m ρ _ => Cert.Kernel.Gen.frame m ρ

theorem frame_kernelIdeal : Cert.frame_KernelIdeal := fun m ρ _ => Cert.KernelIdeal.Gen.frame m ρ

/-- The reference has no kernel: its frame is its run with the result forgotten. -/
theorem frame_referenceIdeal : Cert.frame_ReferenceIdeal := fun m ρ _ =>
  (θ_run Cert.ReferenceIdeal.defs _ _).mono (fun _ h c => (h c).2) (Cert.ReferenceIdeal.Value.run (F := Ideal) m ρ)

/-- The idealization rewrote nothing. -/
theorem preserves : Cert.preserves_Kernel_KernelIdeal := trivial

/-- Both programs end with the network's value of the inputs at every element of the result. -/
theorem algebraic : Cert.algebraic_KernelIdeal_ReferenceIdeal := by
  intro m ρ m' ρ' hpre hagree
  -- what the precondition says of the edge lists, on each device
  have hidx : ∀ (c : Dev Cert.KernelIdeal.nD) (e : Fin 640000),
      (0 ≤ (Cert.KernelIdeal.Value.srcF m c e).toInt ∧ (Cert.KernelIdeal.Value.srcF m c e).toInt < 10000)
        ∧ 0 ≤ (Cert.KernelIdeal.Value.dstF m c e).toInt :=
    fun c e => Cert.PreFacts.index_ranges (F := Ideal) _ _ _ _ _ _ (hpre c) e
  refine ⟨fun c => fun i => Cert.Gin.net (Cert.KernelIdeal.Value.srcF m c) (Cert.KernelIdeal.Value.dstF m c)
      (Cert.KernelIdeal.Value.featF m c) (Cert.KernelIdeal.Value.w0F m c) (Cert.KernelIdeal.Value.w1F m c)
      (Cert.KernelIdeal.Value.w2F m c) (i 0) (i 1), ?_, ?_⟩
  · refine (θ_run Cert.KernelIdeal.defs _ _).mono (fun r h c => ⟨(h c).1.trans ?_, (h c).2⟩)
      (Cert.KernelIdeal.RunValue.run (F := Ideal) m ρ)
    funext i
    obtain ⟨p, q, rfl⟩ : ∃ (p : Fin 10000) (q : Fin 64), i = ix2 p q := ⟨i 0, i 1, eq_ix2 i⟩
    exact Cert.KernelIdeal.Value.result_apply m ρ c (fun e => (hidx c e).1) (fun e => (hidx c e).2) p q
  · refine (θ_run Cert.ReferenceIdeal.defs _ _).mono (fun r h c => ⟨(h c).1.trans ?_, (h c).2⟩)
      (Cert.ReferenceIdeal.Value.run (F := Ideal) m' ρ')
    rw [Cert.ReferenceIdeal.Read.val_main_v35_eq, (hagree c).1, (hagree c).2.1, (hagree c).2.2.1, (hagree c).2.2.2.1,
      (hagree c).2.2.2.2.1, (hagree c).2.2.2.2.2]
    funext i
    obtain ⟨p, q, rfl⟩ : ∃ (p : Fin 10000) (q : Fin 64), i = ix2 p q := ⟨i 0, i 1, eq_ix2 i⟩
    exact Cert.ReferenceIdeal.RefValue.value _ _ _ _ _ _ (fun e => (hidx c e).1.1) p q

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
